-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S288x96 : Shape := ⟨2, ![288, 96]⟩
abbrev S96x64 : Shape := ⟨2, ![96, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S288x96 : S_.BroadcastsInDim S288x96 (![] : Fin 0 → Fin S288x96.rank)
  reducesTo_S288x96_S_d0_1 : S288x96.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S96x64 .f32) (main_arg14 : FVec F S64 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96x64 .f32 := Host.absf main_arg13
  let main_cst_20 : FVec F S_ .f32 := constant S_ .f32 0x7F800000#32
  let main_v55 : FVec F S96x64 .f32 := broadcastInDim S96x64 ![] bcast_S_S96x64 main_cst_20
  let main_v56 : IVec S96x64 1 := cmpf .olt main_v54 main_v55
  let main_c_21 : IVec S_ 1 := constantI S_ 1 1#1
  let main_v57 : IVec S_ 1 := (fun x v => Host.reduce IntOp.andi x v reducesTo_S96x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S288x96 .f32) (main_arg10 : FVec F S96 .f32) (main_arg11 : FVec F S96x96 .f32) (main_arg12 : FVec F S96 .f32) (main_arg13 : FVec F S96x64 .f32) (main_arg14 : FVec F S64 .f32) (main_v33 : IVec S_ 1) : IVec S_ 1 :=
  let main_v34 : FVec F S288x96 .f32 := Host.absf main_arg9
  let main_cst_12 : FVec F S_ .f32 := constant S_ .f32 0x7F800000#32
  let main_v35 : FVec F S288x96 .f32 := broadcastInDim S288x96 ![] bcast_S_S288x96 main_cst_12
  let main_v36 : IVec S288x96 1 := cmpf .olt main_v34 main_v35
  let main_c_13 : IVec S_ 1 := constantI S_ 1 1#1
  let main_v37 : IVec S_ 1 := (fun x v => Host.reduce IntOp.andi x v reducesTo_S288x96_S_d0_1 h_S_) main_v36 main_c_13
  let main_v38 : IVec S_ 1 := andi main_v33 main_v37
  let main_v39 : FVec F S96 .f32 := Host.absf main_arg10
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96x96 .f32 := Host.absf main_arg11
  let main_cst_16 : FVec F S_ .f32 := constant S_ .f32 0x7F800000#32
  let main_v45 : FVec F S96x96 .f32 := broadcastInDim S96x96 ![] bcast_S_S96x96 main_cst_16
  let main_v46 : IVec S96x96 1 := cmpf .olt main_v44 main_v45
  let main_c_17 : IVec S_ 1 := constantI S_ 1 1#1
  let main_v47 : IVec S_ 1 := (fun x v => Host.reduce IntOp.andi x v reducesTo_S96x96_S_d0_1 h_S_) main_v46 main_c_17
  let main_v48 : IVec S_ 1 := andi main_v43 main_v47
  let main_v49 : FVec F S96 .f32 := Host.absf main_arg12
  let main_cst_18 : FVec F S_ .f32 := constant S_ .f32 0x7F800000#32
  let main_v50 : FVec F S96 .f32 := broadcastInDim S96 ![] bcast_S_S96 main_cst_18
  fn_part3 (F := F) main_arg13 main_arg14 main_v48 main_v49 main_v50

def fn_part1 {F : FTy → Type} [FloatOps F] (main_arg6 : FVec F S96 .f32) (main_arg7 : FVec F S96x96 .f32) (main_arg8 : FVec F S96 .f32) (main_arg9 : FVec F S288x96 .f32) (main_arg10 : FVec F S96 .f32) (main_arg11 : FVec F S96x96 .f32) (main_arg12 : FVec F S96 .f32) (main_arg13 : FVec F S96x64 .f32) (main_arg14 : FVec F S64 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x96 .f32) (main_arg4 : FVec F S96 .f32) (main_arg5 : FVec F S96x96 .f32) (main_arg6 : FVec F S96 .f32) (main_arg7 : FVec F S96x96 .f32) (main_arg8 : FVec F S96 .f32) (main_arg9 : FVec F S288x96 .f32) (main_arg10 : FVec F S96 .f32) (main_arg11 : FVec F S96x96 .f32) (main_arg12 : FVec F S96 .f32) (main_arg13 : FVec F S96x64 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg3
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S288x96 : Shape := ⟨2, ![288, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x128 : Shape := ⟨2, ![5000, 128]⟩
abbrev S5000x96 : Shape := ⟨2, ![5000, 96]⟩
abbrev S850000x96 : Shape := ⟨2, ![850000, 96]⟩
abbrev S1x96 : Shape := ⟨2, ![1, 96]⟩
abbrev S50000x1 : Shape := ⟨2, ![50000, 1]⟩
abbrev S512x96 : Shape := ⟨2, ![512, 96]⟩
abbrev S2000x96 : Shape := ⟨2, ![2000, 96]⟩
abbrev S2000x1 : Shape := ⟨2, ![2000, 1]⟩
abbrev S2000x512 : Shape := ⟨2, ![2000, 512]⟩
abbrev S1x64 : Shape := ⟨2, ![1, 64]⟩
abbrev S512x64 : Shape := ⟨2, ![512, 64]⟩
abbrev S500x64 : Shape := ⟨2, ![500, 64]⟩

abbrev nBuf : Space → Nat
  | .hbm => 119
  | .vmem => 49
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S288x96, .f32⟩
  | .hbm, ⟨10, _⟩ => ⟨S96, .f32⟩
  | .hbm, ⟨11, _⟩ => ⟨S96x96, .f32⟩
  | .hbm, ⟨12, _⟩ => ⟨S96, .f32⟩
  | .hbm, ⟨13, _⟩ => ⟨S96x64, .f32⟩
  | .hbm, ⟨14, _⟩ => ⟨S64, .f32⟩
  | .hbm, ⟨15, _⟩ => ⟨S50000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S_, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x96, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x96, .f32⟩
  | .hbm, ⟨61, _⟩ => ⟨S850000x1, .f32⟩
  | .hbm, ⟨62, _⟩ => ⟨S850000x96, .f32⟩
  | .hbm, ⟨63, _⟩ => ⟨S850000x96, .f32⟩
  | .hbm, ⟨64, _⟩ => ⟨S_, .f32⟩
  | .hbm, ⟨65, _⟩ => ⟨S50000x96, .f32⟩
  | .hbm, ⟨66, _⟩ => ⟨S850000x1, .i32⟩
  | .hbm, ⟨67, _⟩ => ⟨S50000x96, .f32⟩
  | .hbm, ⟨68, _⟩ => ⟨S1x96, .f32⟩
  | .hbm, ⟨69, _⟩ => ⟨S50000x96, .f32⟩
  | .hbm, ⟨70, _⟩ => ⟨S50000x96, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x96, .f32⟩
  | .hbm, ⟨80, _⟩ => ⟨S850000x1, .f32⟩
  | .hbm, ⟨81, _⟩ => ⟨S850000x96, .f32⟩
  | .hbm, ⟨82, _⟩ => ⟨S850000x96, .f32⟩
  | .hbm, ⟨83, _⟩ => ⟨S_, .f32⟩
  | .hbm, ⟨84, _⟩ => ⟨S50000x96, .f32⟩
  | .hbm, ⟨85, _⟩ => ⟨S850000x1, .i32⟩
  | .hbm, ⟨86, _⟩ => ⟨S50000x96, .f32⟩
  | .hbm, ⟨87, _⟩ => ⟨S1x96, .f32⟩
  | .hbm, ⟨88, _⟩ => ⟨S50000x96, .f32⟩
  | .hbm, ⟨89, _⟩ => ⟨S50000x96, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x96, .f32⟩
  | .hbm, ⟨99, _⟩ => ⟨S850000x1, .f32⟩
  | .hbm, ⟨100, _⟩ => ⟨S850000x96, .f32⟩
  | .hbm, ⟨101, _⟩ => ⟨S850000x96, .f32⟩
  | .hbm, ⟨102, _⟩ => ⟨S_, .f32⟩
  | .hbm, ⟨103, _⟩ => ⟨S50000x96, .f32⟩
  | .hbm, ⟨104, _⟩ => ⟨S850000x1, .i32⟩
  | .hbm, ⟨105, _⟩ => ⟨S50000x96, .f32⟩
  | .hbm, ⟨106, _⟩ => ⟨S1x96, .f32⟩
  | .hbm, ⟨107, _⟩ => ⟨S50000x96, .f32⟩
  | .hbm, ⟨108, _⟩ => ⟨S96x96, .f32⟩
  | .hbm, ⟨109, _⟩ => ⟨S96x96, .f32⟩
  | .hbm, ⟨110, _⟩ => ⟨S96x96, .f32⟩
  | .hbm, ⟨111, _⟩ => ⟨S1x96, .f32⟩
  | .hbm, ⟨112, _⟩ => ⟨S50000x96, .f32⟩
  | .hbm, ⟨113, _⟩ => ⟨S50000x1, .i32⟩
  | .hbm, ⟨114, _⟩ => ⟨S512x96, .f32⟩
  | .hbm, ⟨115, _⟩ => ⟨S1x96, .f32⟩
  | .hbm, ⟨116, _⟩ => ⟨S1x64, .f32⟩
  | .hbm, ⟨117, _⟩ => ⟨S512x64, .f32⟩
  | .hbm, ⟨118, _⟩ => ⟨S500x64, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S96x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S1x96, .f32⟩
  | .local _ .vmem, ⟨16, _⟩ => ⟨S96x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S5000x96, .f32⟩
  | .local _ .vmem, ⟨23, _⟩ => ⟨S1x96, .f32⟩
  | .local _ .vmem, ⟨24, _⟩ => ⟨S5000x96, .f32⟩
  | .local _ .vmem, ⟨25, _⟩ => ⟨S5000x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S5000x96, .f32⟩
  | .local _ .vmem, ⟨32, _⟩ => ⟨S96x96, .f32⟩
  | .local _ .vmem, ⟨33, _⟩ => ⟨S96x96, .f32⟩
  | .local _ .vmem, ⟨34, _⟩ => ⟨S96x96, .f32⟩
  | .local _ .vmem, ⟨35, _⟩ => ⟨S1x96, .f32⟩
  | .local _ .vmem, ⟨36, _⟩ => ⟨S5000x96, .f32⟩
  | .local _ .vmem, ⟨37, _⟩ => ⟨S5000x96, .f32⟩
  | .local _ .vmem, ⟨38, _⟩ => ⟨S2000x96, .f32⟩
  | .local _ .vmem, ⟨39, _⟩ => ⟨S2000x96, .f32⟩
  | .local _ .vmem, ⟨40, _⟩ => ⟨S2000x1, .i32⟩
  | .local _ .vmem, ⟨41, _⟩ => ⟨S2000x1, .i32⟩
  | .local _ .vmem, ⟨42, _⟩ => ⟨S512x96, .f32⟩
  | .local _ .vmem, ⟨43, _⟩ => ⟨S512x96, .f32⟩
  | .local _ .vmem, ⟨44, _⟩ => ⟨S96x96, .f32⟩
  | .local _ .vmem, ⟨45, _⟩ => ⟨S1x96, .f32⟩
  | .local _ .vmem, ⟨46, _⟩ => ⟨S96x64, .f32⟩
  | .local _ .vmem, ⟨47, _⟩ => ⟨S1x64, .f32⟩
  | .local _ .vmem, ⟨48, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59_0 : Ref sig .tc := ⟨.hbm, 88, rfl⟩
abbrev main_v59_1 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc4_stg7_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc6_stg0_0 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem7_0 : DmaSem sig := 36
abbrev cc4_sem7_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc6_sem0_0 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S96x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S96x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S96x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x96 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x96 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x96 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S96x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S96x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  slices_S288x96_S96x96_0_0 : S288x96.Slices ![0, 0] S96x96
  slices_S288x96_S96x96_96_0 : S288x96.Slices ![96, 0] S96x96
  slices_S288x96_S96x96_192_0 : S288x96.Slices ![192, 0] S96x96
  shapeCasts_S96x96_S96x96 : S96x96.ShapeCasts S96x96
  shapeCasts_S50000_S50000x1 : S50000.ShapeCasts S50000x1
  inb_S512x96_S512x96_0_0 : ∀ a, (![0, 0] : Fin 2 → Nat) a + S512x96.size a ≤ S512x96.size a
  h_S512x96 : 0 < S512x96.numel
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  natLt_1_32 : 1 < 32
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  shapeCasts_S512x96_S512x96 : S512x96.ShapeCasts S512x96
  shapeCasts_S64_S1x64 : S64.ShapeCasts S1x64
  broadcasts_S1x96_S512x96 : S1x96.Broadcasts S512x96
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  slices_S512x64_S500x64_0_0 : S512x64.Slices ![0, 0] S500x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  dot_S2000x512_S2000x96_S512x96_0_0_1_1_n_n_wf : DotDims.WF S2000x512 S2000x96 S512x96 [0] [0] [1] [1] [] []
  dot_S512x96_S96x96_S512x96_1_0_0_1_n_n_wf : DotDims.WF S512x96 S96x96 S512x96 [1] [0] [0] [1] [] []
  dot_S512x96_S96x64_S512x64_1_0_0_1_n_n_wf : DotDims.WF S512x96 S96x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x96.size a ≤ S50000x96.size a
  hwx2_4 : ∀ i : grid2.Coords, EltTy.bits .f32 = 32 ∨ (Rect.block (s := S50000x96) S5000x96.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x96.size a ≤ S50000x96.size a
  hwx3_2 : ∀ i : grid3.Coords, EltTy.bits .f32 = 32 ∨ (Rect.block (s := S50000x96) S5000x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x96.size a ≤ S50000x96.size a
  hwx4_1 : ∀ i : grid4.Coords, EltTy.bits .f32 = 32 ∨ (Rect.block (s := S50000x96) S5000x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x96.size a ≤ S50000x96.size a
  hwx4_2 : ∀ i : grid4.Coords, EltTy.bits .f32 = 32 ∨ (Rect.block (s := S50000x96) S5000x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S96x96.size a ≤ S96x96.size a
  hwx4_3 : ∀ i : grid4.Coords, EltTy.bits .f32 = 32 ∨ (Rect.block (s := S96x96) S96x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S96x96.size a ≤ S96x96.size a
  hwx4_4 : ∀ i : grid4.Coords, EltTy.bits .f32 = 32 ∨ (Rect.block (s := S96x96) S96x96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S96x96.size a ≤ S96x96.size a
  hwx4_5 : ∀ i : grid4.Coords, EltTy.bits .f32 = 32 ∨ (Rect.block (s := S96x96) S96x96.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x96.size a ≤ S1x96.size a
  hwx4_6 : ∀ i : grid4.Coords, EltTy.bits .f32 = 32 ∨ (Rect.block (s := S1x96) S1x96.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x96.size a ≤ S50000x96.size a
  hwx4_7 : ∀ i : grid4.Coords, EltTy.bits .f32 = 32 ∨ (Rect.block (s := S50000x96) S5000x96.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x96.size a ≤ S50000x96.size a
  hwx5_0 : ∀ i : grid5.Coords, EltTy.bits .f32 = 32 ∨ (Rect.block (s := S50000x96) S2000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .i32 = 32 ∨ (Rect.block (s := S50000x1) S2000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x96.size a ≤ S512x96.size a
  hwx5_2 : ∀ i : grid5.Coords, EltTy.bits .f32 = 32 ∨ (Rect.block (s := S512x96) S512x96.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x96.size a ≤ S512x96.size a
  hwx6_0 : ∀ i : grid6.Coords, EltTy.bits .f32 = 32 ∨ (Rect.block (s := S512x96) S512x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x96.size a ≤ S96x96.size a
  hwx6_1 : ∀ i : grid6.Coords, EltTy.bits .f32 = 32 ∨ (Rect.block (s := S96x96) S96x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x96.size a ≤ S1x96.size a
  hwx6_2 : ∀ i : grid6.Coords, EltTy.bits .f32 = 32 ∨ (Rect.block (s := S1x96) S1x96.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S96x64.size a ≤ S96x64.size a
  hwx6_3 : ∀ i : grid6.Coords, EltTy.bits .f32 = 32 ∨ (Rect.block (s := S96x64) S96x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x64.size a ≤ S512x64.size a
  hwx6_5 : ∀ i : grid6.Coords, EltTy.bits .f32 = 32 ∨ (Rect.block (s := S512x64) S512x64.size (cc6_transform_5 i) (hinb6_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S2000x512_S2000x96_S512x96_0_0_1_1_n_n : DotDims S2000x512 S2000x96 S512x96 where
  lhsContracting := [0]
  rhsContracting := [0]
  lhsNonContracting := [1]
  rhsNonContracting := [1]
  lhsBatch := []
  rhsBatch := []
  wf := dot_S2000x512_S2000x96_S512x96_0_0_1_1_n_n_wf
def dot_S512x96_S96x96_S512x96_1_0_0_1_n_n : DotDims S512x96 S96x96 S512x96 where
  lhsContracting := [1]
  rhsContracting := [0]
  lhsNonContracting := [0]
  rhsNonContracting := [1]
  lhsBatch := []
  rhsBatch := []
  wf := dot_S512x96_S96x96_S512x96_1_0_0_1_n_n_wf
def dot_S512x96_S96x64_S512x64_1_0_0_1_n_n : DotDims S512x96 S96x64 S512x64 where
  lhsContracting := [1]
  rhsContracting := [0]
  lhsNonContracting := [0]
  rhsNonContracting := [1]
  lhsBatch := []
  rhsBatch := []
  wf := dot_S512x96_S96x64_S512x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_0) S5000x96.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44_1) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59_0) S5000x96.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v59_1) S5000x96.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v72) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v44_0) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59_0) S5000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S5000x96.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S96x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S96x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S96x96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78) S1x96.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v79) S5000x96.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v79) S2000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S512x96.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v81) S512x96.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S96x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S96x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v83) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v84) S512x64.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S288x96 : Shape := ⟨2, ![288, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x288 : Shape := ⟨2, ![50000, 288]⟩
abbrev S500x96 : Shape := ⟨2, ![500, 96]⟩
abbrev S50000x1 : Shape := ⟨2, ![50000, 1]⟩
abbrev S500x64 : Shape := ⟨2, ![500, 64]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S288x96, .f32⟩
  | 10 => ⟨S96, .f32⟩
  | 11 => ⟨S96x96, .f32⟩
  | 12 => ⟨S96, .f32⟩
  | 13 => ⟨S96x64, .f32⟩
  | 14 => ⟨S64, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x96, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x96, .f32⟩
  | 61 => ⟨S850000x1, .f32⟩
  | 62 => ⟨S850000x96, .f32⟩
  | 63 => ⟨S850000x96, .f32⟩
  | 64 => ⟨S_, .f32⟩
  | 65 => ⟨S50000x96, .f32⟩
  | 66 => ⟨S850000x1, .i32⟩
  | 67 => ⟨S50000x96, .f32⟩
  | 68 => ⟨S1x96, .f32⟩
  | 69 => ⟨S50000x96, .f32⟩
  | 70 => ⟨S50000x96, .f32⟩
  | 71 => ⟨S_, .f32⟩
  | 72 => ⟨S50000x96, .f32⟩
  | 73 => ⟨S50000x96, .f32⟩
  | 74 => ⟨S50000x96, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x96, .f32⟩
  | 84 => ⟨S850000x1, .f32⟩
  | 85 => ⟨S850000x96, .f32⟩
  | 86 => ⟨S850000x96, .f32⟩
  | 87 => ⟨S_, .f32⟩
  | 88 => ⟨S50000x96, .f32⟩
  | 89 => ⟨S850000x1, .i32⟩
  | 90 => ⟨S50000x96, .f32⟩
  | 91 => ⟨S1x96, .f32⟩
  | 92 => ⟨S50000x96, .f32⟩
  | 93 => ⟨S50000x96, .f32⟩
  | 94 => ⟨S_, .f32⟩
  | 95 => ⟨S50000x96, .f32⟩
  | 96 => ⟨S50000x96, .f32⟩
  | 97 => ⟨S50000x96, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x96, .f32⟩
  | 107 => ⟨S850000x1, .f32⟩
  | 108 => ⟨S850000x96, .f32⟩
  | 109 => ⟨S850000x96, .f32⟩
  | 110 => ⟨S_, .f32⟩
  | 111 => ⟨S50000x96, .f32⟩
  | 112 => ⟨S850000x1, .i32⟩
  | 113 => ⟨S50000x96, .f32⟩
  | 114 => ⟨S1x96, .f32⟩
  | 115 => ⟨S50000x96, .f32⟩
  | 116 => ⟨S50000x96, .f32⟩
  | 117 => ⟨S_, .f32⟩
  | 118 => ⟨S50000x96, .f32⟩
  | 119 => ⟨S50000x96, .f32⟩
  | 120 => ⟨S50000x288, .f32⟩
  | 121 => ⟨S50000x96, .f32⟩
  | 122 => ⟨S1x96, .f32⟩
  | 123 => ⟨S50000x96, .f32⟩
  | 124 => ⟨S50000x96, .f32⟩
  | 125 => ⟨S_, .f32⟩
  | 126 => ⟨S500x96, .f32⟩
  | 127 => ⟨S50000x1, .i32⟩
  | _ => ⟨S50000x128, .f32⟩

abbrev hbmTy0_1 (i : Nat) : BufTy := match i % 128 with
  | 0 => ⟨S500x96, .f32⟩
  | 1 => ⟨S500x96, .f32⟩
  | 2 => ⟨S1x96, .f32⟩
  | 3 => ⟨S500x96, .f32⟩
  | 4 => ⟨S500x96, .f32⟩
  | 5 => ⟨S_, .f32⟩
  | 6 => ⟨S500x96, .f32⟩
  | 7 => ⟨S500x96, .f32⟩
  | 8 => ⟨S500x64, .f32⟩
  | 9 => ⟨S1x64, .f32⟩
  | 10 => ⟨S500x64, .f32⟩
  | 11 => ⟨S500x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_cst : Ref sig .tc := ⟨.hbm, 71, rfl⟩
abbrev main_call0_v0 : Ref sig .tc := ⟨.hbm, 72, rfl⟩
abbrev main_v46 : Ref sig .tc := ⟨.hbm, 73, rfl⟩
abbrev main_v47 : Ref sig .tc := ⟨.hbm, 74, rfl⟩
abbrev main_c_8 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_cst : Ref sig .tc := ⟨.hbm, 94, rfl⟩
abbrev main_call1_v0 : Ref sig .tc := ⟨.hbm, 95, rfl⟩
abbrev main_v64 : Ref sig .tc := ⟨.hbm, 96, rfl⟩
abbrev main_v65 : Ref sig .tc := ⟨.hbm, 97, rfl⟩
abbrev main_c_11 : Ref sig .tc := ⟨.hbm, 98, rfl⟩
abbrev main_v66 : Ref sig .tc := ⟨.hbm, 99, rfl⟩
abbrev main_v67 : Ref sig .tc := ⟨.hbm, 100, rfl⟩
abbrev main_c_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call2_cst : Ref sig .tc := ⟨.hbm, 117, rfl⟩
abbrev main_call2_v0 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_14 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  concatenates_S50000x96_S50000x96_S50000x96_S50000x288_d1 : Shape.Concatenates [S50000x96, S50000x96, S50000x96] S50000x288 1
  bcast_S_S500x96 : S_.BroadcastsInDim S500x96 (![] : Fin 0 → Fin S500x96.rank)
  bcast_S50000_S50000x1_0 : S50000.BroadcastsInDim S50000x1 (![0] : Fin 1 → Fin S50000x1.rank)
  bcast_S1x96_S500x96_0_1 : S1x96.BroadcastsInDim S500x96 (![0, 1] : Fin 2 → Fin S500x96.rank)
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x288_S288x96_S50000x96_1_0_0_1_n_n_wf : DotDims.WF S50000x288 S288x96 S50000x96 [1] [0] [0] [1] [] []
  scatter_S500x96_S50000x1_S50000x96_1_0_0_1_wf : ScatterDims.WF S500x96 S50000x1 S50000x96 [1] [0] [0] 1
  dot_S500x96_S96x96_S500x96_1_0_0_1_n_n_wf : DotDims.WF S500x96 S96x96 S500x96 [1] [0] [0] [1] [] []
  dot_S500x96_S96x64_S500x64_1_0_0_1_n_n_wf : DotDims.WF S500x96 S96x64 S500x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x288_S288x96_S50000x96_1_0_0_1_n_n : DotDims S50000x288 S288x96 S50000x96 where
  lhsContracting := [1]
  rhsContracting := [0]
  lhsNonContracting := [0]
  rhsNonContracting := [1]
  lhsBatch := []
  rhsBatch := []
  wf := dot_S50000x288_S288x96_S50000x96_1_0_0_1_n_n_wf
def scatter_S500x96_S50000x1_S50000x96_1_0_0_1 : ScatterDims S500x96 S50000x1 S50000x96 where
  updateWindowDims := [1]
  insertedWindowDims := [0]
  scatterDimsToOperandDims := [0]
  indexVectorDim := 1
  wf := scatter_S500x96_S50000x1_S50000x96_1_0_0_1_wf
def dot_S500x96_S96x96_S500x96_1_0_0_1_n_n : DotDims S500x96 S96x96 S500x96 where
  lhsContracting := [1]
  rhsContracting := [0]
  lhsNonContracting := [0]
  rhsNonContracting := [1]
  lhsBatch := []
  rhsBatch := []
  wf := dot_S500x96_S96x96_S500x96_1_0_0_1_n_n_wf
def dot_S500x96_S96x64_S500x64_1_0_0_1_n_n : DotDims S500x96 S96x64 S500x64 where
  lhsContracting := [1]
  rhsContracting := [0]
  lhsNonContracting := [0]
  rhsNonContracting := [1]
  lhsBatch := []
  rhsBatch := []
  wf := dot_S500x96_S96x64_S500x64_1_0_0_1_n_n_wf

class Facts : Prop extends Facts₀ where

variable [Facts]
-- ==== Proof.Spec.lean ====
/-
  The network as mathematics, over the extended reals.

  A three-layer graph convolution with a jumping-knowledge projection, a sum pooling by graph and a two-layer
  perceptron. Every array is a function of its index; every stage is stated entry by entry:

  * `mm X W`            — the matrix product, entry `(p, q)` the sum over `k` of `X (p, k) * W (k, q)`;
  * `biasRelu A b`      — `max (A (p, q) + b q) 0`;
  * `addBias A b`       — `A (p, q) + b q`;
  * `jk h1 h2 h3 W b`   — the product of the three layers' outputs laid side by side with a `288 × 96` weight matrix,
                          written as the three partial products over the rows `0–95`, `96–191`, `192–287` of the
                          weights, summed in that order, plus the bias;
  * `pool G h batch`    — row `g` of the result is the sum of the rows `n` of `h` whose graph number `batch n`, read
                          signed, is `g`; a row whose graph number is no row number of the result lands nowhere;
  * `mlp G e W1 b1 W2 b2` — `addBias (mm (biasRelu (mm e W1) b1) W2) b2`;
  * `headRows`          — the first `G'` rows of a matrix of `G` rows;
  * `rowOf`, `flatCol`  — a `1 × N` matrix read as a vector, an `R × 1` integer matrix read as a vector;
  * `wslab W s`         — the rows `96 s … 96 s + 95` of the `288 × 96` weight matrix.

  The message passing between the layers (a gather of rows by source node, a scaling by the edge weight, a sum into
  the destination node) is the same function in both programs and stays a parameter `Mf` here.
-/
import Idealize.ShloMosaic.PureOps.Ideal
import Idealize.ShloMosaic.Lib.ValueIdx

noncomputable section

open scoped BigOperators

namespace Cert.Spec

open Idealize.ShloMosaic Idealize.ShloMosaic.ValueIdx

/-- A real matrix of `a` rows and `b` columns, as a function of its index. -/
abbrev Mat (a b : Nat) := FVec Ideal (⟨2, ![a, b]⟩ : Shape) .f32
/-- A real vector of `a` entries. -/
abbrev Vc (a : Nat) := FVec Ideal (⟨1, ![a]⟩ : Shape) .f32

/-- The matrix product. -/
def mm {M K N : Nat} (X : Mat M K) (W : Mat K N) : Mat M N :=
  fun i => ∑ k : Fin K, X (ix2 (i 0) k) * W (ix2 k (i 1))

theorem mm_apply {M K N : Nat} (X : Mat M K) (W : Mat K N) (p : Fin M) (q : Fin N) :
    mm X W (ix2 p q) = ∑ k : Fin K, X (ix2 p k) * W (ix2 k q) := rfl

/-- A bias added to every row, then the positive part. -/
def biasRelu {M N : Nat} (A : Mat M N) (b : Vc N) : Mat M N :=
  fun i => max (A i + b (ix1 (i 1))) 0

theorem biasRelu_apply {M N : Nat} (A : Mat M N) (b : Vc N) (p : Fin M) (q : Fin N) :
    biasRelu A b (ix2 p q) = max (A (ix2 p q) + b (ix1 q)) 0 := rfl

/-- A bias added to every row. -/
def addBias {M N : Nat} (A : Mat M N) (b : Vc N) : Mat M N :=
  fun i => A i + b (ix1 (i 1))

theorem addBias_apply {M N : Nat} (A : Mat M N) (b : Vc N) (p : Fin M) (q : Fin N) :
    addBias A b (ix2 p q) = A (ix2 p q) + b (ix1 q) := rfl

/-- A `1 × N` matrix read as a vector. -/
def rowOf {N : Nat} (b : Mat 1 N) : Vc N := fun i => b (ix2 (0 : Fin 1) (i 0))

theorem rowOf_apply {N : Nat} (b : Mat 1 N) (q : Fin N) : rowOf b (ix1 q) = b (ix2 (0 : Fin 1) q) := rfl

/-- An `R × 1` integer matrix read as a vector. -/
def flatCol {R : Nat} (b : IVec (⟨2, ![R, 1]⟩ : Shape) 32) : IVec (⟨1, ![R]⟩ : Shape) 32 :=
  fun i => b (ix2 (i 0) (0 : Fin 1))

theorem flatCol_apply {R : Nat} (b : IVec (⟨2, ![R, 1]⟩ : Shape) 32) (n : Fin R) :
    flatCol b (ix1 n) = b (ix2 n (0 : Fin 1)) := rfl

/-- Row `96 * s + k` of the `288 × 96` weight matrix, for the slab `s = 0, 1, 2`. -/
def wrow (s : Fin 3) (k : Fin 96) : Fin 288 := ⟨96 * s.val + k.val, by have := s.isLt; have := k.isLt; omega⟩

/-- Slab `s` of the `288 × 96` weight matrix: its rows `96 s … 96 s + 95`. -/
def wslab (W : Mat 288 96) (s : Fin 3) : Mat 96 96 := fun i => W (ix2 (wrow s (i 0)) (i 1))

theorem wslab_apply (W : Mat 288 96) (s : Fin 3) (k q : Fin 96) : wslab W s (ix2 k q) = W (ix2 (wrow s k) q) := rfl

/-- Three partial products with three `96 × 96` weight matrices, summed in order, plus the bias. -/
def jk3 {M : Nat} (h1 h2 h3 : Mat M 96) (w1 w2 w3 : Mat 96 96) (b : Vc 96) : Mat M 96 :=
  fun i => ((∑ k : Fin 96, h1 (ix2 (i 0) k) * w1 (ix2 k (i 1)))
      + (∑ k : Fin 96, h2 (ix2 (i 0) k) * w2 (ix2 k (i 1))))
      + (∑ k : Fin 96, h3 (ix2 (i 0) k) * w3 (ix2 k (i 1)))
      + b (ix1 (i 1))

theorem jk3_apply {M : Nat} (h1 h2 h3 : Mat M 96) (w1 w2 w3 : Mat 96 96) (b : Vc 96) (p : Fin M) (q : Fin 96) :
    jk3 h1 h2 h3 w1 w2 w3 b (ix2 p q)
      = ((∑ k : Fin 96, h1 (ix2 p k) * w1 (ix2 k q))
        + (∑ k : Fin 96, h2 (ix2 p k) * w2 (ix2 k q)))
        + (∑ k : Fin 96, h3 (ix2 p k) * w3 (ix2 k q))
        + b (ix1 q) := rfl

/-- The jumping-knowledge projection: the three partial products over the three slabs of the weights. -/
def jk {M : Nat} (h1 h2 h3 : Mat M 96) (W : Mat 288 96) (b : Vc 96) : Mat M 96 :=
  jk3 h1 h2 h3 (wslab W 0) (wslab W 1) (wslab W 2) b

theorem jk_apply {M : Nat} (h1 h2 h3 : Mat M 96) (W : Mat 288 96) (b : Vc 96) (p : Fin M) (q : Fin 96) :
    jk h1 h2 h3 W b (ix2 p q)
      = ((∑ k : Fin 96, h1 (ix2 p k) * W (ix2 (wrow 0 k) q))
        + (∑ k : Fin 96, h2 (ix2 p k) * W (ix2 (wrow 1 k) q)))
        + (∑ k : Fin 96, h3 (ix2 p k) * W (ix2 (wrow 2 k) q))
        + b (ix1 q) := rfl

/-- The sum of the rows of `h` by graph number. -/
def pool {R C : Nat} (G : Nat) (h : Mat R C) (batch : IVec (⟨1, ![R]⟩ : Shape) 32) : Mat G C :=
  fun i => ∑ n : Fin R, if (batch (ix1 n)).toInt = ((i 0).val : Int) then h (ix2 n (i 1)) else 0

theorem pool_apply {R C : Nat} (G : Nat) (h : Mat R C) (batch : IVec (⟨1, ![R]⟩ : Shape) 32) (g : Fin G) (c : Fin C) :
    pool G h batch (ix2 g c) = ∑ n : Fin R, if (batch (ix1 n)).toInt = (g.val : Int) then h (ix2 n c) else 0 := rfl

/-- The two-layer perceptron. -/
def mlp {G : Nat} (e : Mat G 96) (W1 : Mat 96 96) (b1 : Vc 96) (W2 : Mat 96 64) (b2 : Vc 64) : Mat G 64 :=
  addBias (mm (biasRelu (mm e W1) b1) W2) b2

/-- The first `G'` rows. -/
def headRows {G C : Nat} (G' : Nat) (hG : G' ≤ G) (X : Mat G C) : Mat G' C :=
  fun i => X (ix2 ⟨(i 0).val, lt_of_lt_of_le (i 0).isLt hG⟩ (i 1))

theorem headRows_apply {G C : Nat} (G' : Nat) (hG : G' ≤ G) (X : Mat G C) (g : Fin G') (c : Fin C) :
    headRows G' hG X (ix2 g c) = X (ix2 ⟨g.val, lt_of_lt_of_le g.isLt hG⟩ c) := rfl

/-- The perceptron is row by row, and so is the pooling: the first rows of the larger computation are the smaller one. -/
theorem headRows_mlp_pool {R : Nat} (G G' : Nat) (hG : G' ≤ G) (h : Mat R 96) (batch : IVec (⟨1, ![R]⟩ : Shape) 32)
    (W1 : Mat 96 96) (b1 : Vc 96) (W2 : Mat 96 64) (b2 : Vc 64) :
    headRows G' hG (mlp (pool G h batch) W1 b1 W2 b2) = mlp (pool G' h batch) W1 b1 W2 b2 := by
  funext i
  rfl

/-- The three layers' outputs, the message passing `Mf` a parameter. -/
def layer1 (Mf : Mat 50000 96 → Mat 50000 96) (x : Mat 50000 128) (W0 : Mat 128 96) (b0 : Vc 96) : Mat 50000 96 :=
  biasRelu (Mf (mm x W0)) b0
def layerNext (Mf : Mat 50000 96 → Mat 50000 96) (h : Mat 50000 96) (W : Mat 96 96) (b : Vc 96) : Mat 50000 96 :=
  biasRelu (Mf (mm h W)) b

/-- The whole network, to the pooled and projected result of `G` rows. -/
def net (G : Nat) (Mf : Mat 50000 96 → Mat 50000 96) (x : Mat 50000 128) (batch : IVec (⟨1, ![50000]⟩ : Shape) 32)
    (W0 : Mat 128 96) (b0 : Vc 96) (W1 : Mat 96 96) (b1 : Vc 96) (W2 : Mat 96 96) (b2 : Vc 96)
    (Wjk : Mat 288 96) (bjk : Vc 96) (Wm1 : Mat 96 96) (bm1 : Vc 96) (Wm2 : Mat 96 64) (bm2 : Vc 64) : Mat G 64 :=
  let h1 := layer1 Mf x W0 b0
  let h2 := layerNext Mf h1 W1 b1
  let h3 := layerNext Mf h2 W2 b2
  mlp (pool G (jk h1 h2 h3 Wjk bjk) batch) Wm1 bm1 Wm2 bm2

end Cert.Spec

end
-- ==== Proof.KShared.lean ====
/-
  The host side both programs share, as functions of arrays, at the ideal instance.

  From the edge list `ei` (two rows: source nodes, destination nodes) the programs build the source and the destination
  of every message (`srcOf`, `dstOf`: the edge's end, followed by every node once for its self loop), the weight of every
  message (`normOf`: the product of the inverse square roots of its two ends' degrees, a degree counted as the messages
  that arrive and taken at least one), and with them the message passing of one layer (`msgOf`): row `src e` of the
  transformed features, scaled by the message's weight, summed into row `dst e`. The terms are spelt as the programs
  spell them; nothing here opens a gather or a scatter.
-/
import proofs.«405868_j2388001817260_1_alg».proof.KernelIdeal
import proofs.«405868_j2388001817260_1_alg».proof.Proof.Spec

noncomputable section

namespace Cert.KernelIdeal.KVal

open Cert.KernelIdeal Idealize.ShloMosaic

variable [Cert.KernelIdeal.Facts]
open Cert.KernelIdeal.Facts₀ Cert.KernelIdeal.Facts

/-- One row of the edge list with every node appended: the messages' ends on that side. -/
def endsOf (row : Nat) (hs : S2x800000.Slices ![row, 0] S1x800000) (ei : IVec S2x800000 32) : IVec S850000 32 :=
  concatenate S850000 0 [⟨S800000, (shapeCast _ (extractStridedSlice S1x800000 ![row, 0] ei hs) shapeCasts_S1x800000_S800000)⟩, ⟨S50000, (iotaInDim S50000 32 0)⟩] concatenates_S800000_S50000_S850000_d0

/-- The messages' sources. -/
def srcOf (ei : IVec S2x800000 32) : IVec S850000 32 := endsOf 0 slices_S2x800000_S1x800000_0_0 ei
/-- The messages' destinations. -/
def dstOf (ei : IVec S2x800000 32) : IVec S850000 32 := endsOf 1 slices_S2x800000_S1x800000_1_0 ei

/-- A node number read as a row number: a negative one counts from the end. -/
def wrapIdx (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- The inverse square root of every node's degree (the messages that arrive at it, at least one). -/
def dinvOf (dst : IVec S850000 32) : FVec Ideal S50000 .f32 :=
  Host.rsqrt (maximumf (Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 dst) (broadcastInDim S850000 ![] bcast_S_S850000 (constant (F := Ideal) S_ .f32 0x3F800000#32))) (broadcastInDim S50000 ![] bcast_S_S50000 (constant (F := Ideal) S_ .f32 0x3F800000#32)))

/-- The weight of every message. -/
def normOf (src dst : IVec S850000 32) : FVec Ideal S850000 .f32 :=
  mulf (Host.gather gather_S50000_S850000x1_S850000_n_0_n_n_0_1_1 (dinvOf dst) (broadcastInDim S850000x1 ![0] bcast_S850000_S850000x1_0 (wrapIdx src)))
    (Host.gather gather_S50000_S850000x1_S850000_n_0_n_n_0_1_1 (dinvOf dst) (broadcastInDim S850000x1 ![0] bcast_S850000_S850000x1_0 (wrapIdx dst)))

/-- One layer's message passing. -/
def msgOf (src dst : IVec S850000 32) (norm : FVec Ideal S850000 .f32) (hW : FVec Ideal S50000x96 .f32) : FVec Ideal S50000x96 .f32 :=
  Host.scatterAdd (F := Ideal) scatter_S50000x96_S850000x1_S850000x96_1_0_0_1 (broadcastInDim S50000x96 ![] bcast_S_S50000x96 (constant (F := Ideal) S_ .f32 0x00000000#32)) (broadcastInDim S850000x1 ![0] bcast_S850000_S850000x1_0 dst)
    (mulf (Host.gather gather_S50000x96_S850000x1_S850000x96_1_0_n_n_0_1_196 hW (broadcastInDim S850000x1 ![0] bcast_S850000_S850000x1_0 (wrapIdx src)))
      (broadcastInDim S850000x96 ![0, 1] bcast_S850000x1_S850000x96_0_1 (broadcastInDim S850000x1 ![0] bcast_S850000_S850000x1_0 norm)))

/-- The message passing of a program run on the edge list `ei`. -/
def msgFn (ei : IVec S2x800000 32) : Cert.Spec.Mat 50000 96 → Cert.Spec.Mat 50000 96 :=
  msgOf (srcOf ei) (dstOf ei) (normOf (srcOf ei) (dstOf ei))

end Cert.KernelIdeal.KVal

end
-- ==== Proof.RShared.lean ====
/-
  The host side both programs share, as functions of arrays, at the ideal instance.

  From the edge list `ei` (two rows: source nodes, destination nodes) the programs build the source and the destination
  of every message (`srcOf`, `dstOf`: the edge's end, followed by every node once for its self loop), the weight of every
  message (`normOf`: the product of the inverse square roots of its two ends' degrees, a degree counted as the messages
  that arrive and taken at least one), and with them the message passing of one layer (`msgOf`): row `src e` of the
  transformed features, scaled by the message's weight, summed into row `dst e`. The terms are spelt as the programs
  spell them; nothing here opens a gather or a scatter.
-/
import proofs.«405868_j2388001817260_1_alg».proof.ReferenceIdeal
import proofs.«405868_j2388001817260_1_alg».proof.Proof.Spec

noncomputable section

namespace Cert.ReferenceIdeal.RVal

open Cert.ReferenceIdeal Idealize.ShloMosaic

variable [Cert.ReferenceIdeal.Facts]
open Cert.ReferenceIdeal.Facts₀ Cert.ReferenceIdeal.Facts

/-- One row of the edge list with every node appended: the messages' ends on that side. -/
def endsOf (row : Nat) (hs : S2x800000.Slices ![row, 0] S1x800000) (ei : IVec S2x800000 32) : IVec S850000 32 :=
  concatenate S850000 0 [⟨S800000, (shapeCast _ (extractStridedSlice S1x800000 ![row, 0] ei hs) shapeCasts_S1x800000_S800000)⟩, ⟨S50000, (iotaInDim S50000 32 0)⟩] concatenates_S800000_S50000_S850000_d0

/-- The messages' sources. -/
def srcOf (ei : IVec S2x800000 32) : IVec S850000 32 := endsOf 0 slices_S2x800000_S1x800000_0_0 ei
/-- The messages' destinations. -/
def dstOf (ei : IVec S2x800000 32) : IVec S850000 32 := endsOf 1 slices_S2x800000_S1x800000_1_0 ei

/-- A node number read as a row number: a negative one counts from the end. -/
def wrapIdx (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- The inverse square root of every node's degree (the messages that arrive at it, at least one). -/
def dinvOf (dst : IVec S850000 32) : FVec Ideal S50000 .f32 :=
  Host.rsqrt (maximumf (Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 dst) (broadcastInDim S850000 ![] bcast_S_S850000 (constant (F := Ideal) S_ .f32 0x3F800000#32))) (broadcastInDim S50000 ![] bcast_S_S50000 (constant (F := Ideal) S_ .f32 0x3F800000#32)))

/-- The weight of every message. -/
def normOf (src dst : IVec S850000 32) : FVec Ideal S850000 .f32 :=
  mulf (Host.gather gather_S50000_S850000x1_S850000_n_0_n_n_0_1_1 (dinvOf dst) (broadcastInDim S850000x1 ![0] bcast_S850000_S850000x1_0 (wrapIdx src)))
    (Host.gather gather_S50000_S850000x1_S850000_n_0_n_n_0_1_1 (dinvOf dst) (broadcastInDim S850000x1 ![0] bcast_S850000_S850000x1_0 (wrapIdx dst)))

/-- One layer's message passing. -/
def msgOf (src dst : IVec S850000 32) (norm : FVec Ideal S850000 .f32) (hW : FVec Ideal S50000x96 .f32) : FVec Ideal S50000x96 .f32 :=
  Host.scatterAdd (F := Ideal) scatter_S50000x96_S850000x1_S850000x96_1_0_0_1 (broadcastInDim S50000x96 ![] bcast_S_S50000x96 (constant (F := Ideal) S_ .f32 0x00000000#32)) (broadcastInDim S850000x1 ![0] bcast_S850000_S850000x1_0 dst)
    (mulf (Host.gather gather_S50000x96_S850000x1_S850000x96_1_0_n_n_0_1_196 hW (broadcastInDim S850000x1 ![0] bcast_S850000_S850000x1_0 (wrapIdx src)))
      (broadcastInDim S850000x96 ![0, 1] bcast_S850000x1_S850000x96_0_1 (broadcastInDim S850000x1 ![0] bcast_S850000_S850000x1_0 norm)))

/-- The message passing of a program run on the edge list `ei`. -/
def msgFn (ei : IVec S2x800000 32) : Cert.Spec.Mat 50000 96 → Cert.Spec.Mat 50000 96 :=
  msgOf (srcOf ei) (dstOf ei) (normOf (srcOf ei) (dstOf ei))

end Cert.ReferenceIdeal.RVal

end
-- ==== Proof.KDefs.lean ====
/-
  The kernel program's values as mathematics: from the launch memory `m` of core `c`, the three layers' outputs and the
  program's result, through the functions of Spec.lean, the message passing being the shared host chain on the
  launch memory's edge list.
-/
import proofs.«405868_j2388001817260_1_alg».proof.Proof.Gen.KernelIdeal
import proofs.«405868_j2388001817260_1_alg».proof.Proof.KShared

noncomputable section

namespace Cert.KernelIdeal.KVal

open Cert.KernelIdeal Cert.KernelIdeal.Gen Idealize.ShloMosaic Idealize.ShloMosaic.TcCoe Idealize.SL.Sem

variable (m : (ℓ : Loc nD τ sig) → Buf (Elt Ideal) ℓ) (c : Dev nD)

/-- The message passing on the launch memory's edge list. -/
def kMf : Cert.Spec.Mat 50000 96 → Cert.Spec.Mat 50000 96 := msgFn (m ((c : Thread nD τ).loc main_arg1))

/-- The first layer's output. -/
def kh1 : Cert.Spec.Mat 50000 96 :=
  Cert.Spec.layer1 (kMf m c) (m ((c : Thread nD τ).loc main_arg0)) (m ((c : Thread nD τ).loc main_arg3)) (m ((c : Thread nD τ).loc main_arg4))
/-- The second layer's output. -/
def kh2 : Cert.Spec.Mat 50000 96 :=
  Cert.Spec.layerNext (kMf m c) (kh1 m c) (m ((c : Thread nD τ).loc main_arg5)) (m ((c : Thread nD τ).loc main_arg6))
/-- The third layer's output. -/
def kh3 : Cert.Spec.Mat 50000 96 :=
  Cert.Spec.layerNext (kMf m c) (kh2 m c) (m ((c : Thread nD τ).loc main_arg7)) (m ((c : Thread nD τ).loc main_arg8))

/-- The projected features of every node. -/
def kjk : Cert.Spec.Mat 50000 96 :=
  Cert.Spec.jk (kh1 m c) (kh2 m c) (kh3 m c) (m ((c : Thread nD τ).loc main_arg9)) (m ((c : Thread nD τ).loc main_arg10))

/-- The pooled matrix of 512 rows the kernel computes. -/
def kpool : Cert.Spec.Mat 512 96 := Cert.Spec.pool 512 (kjk m c) (m ((c : Thread nD τ).loc main_arg2))

/-- The perceptron on the 512 pooled rows. -/
def kmlp : Cert.Spec.Mat 512 64 :=
  Cert.Spec.mlp (kpool m c) (m ((c : Thread nD τ).loc main_arg11)) (m ((c : Thread nD τ).loc main_arg12))
    (m ((c : Thread nD τ).loc main_arg13)) (m ((c : Thread nD τ).loc main_arg14))

/-- The program's result: the first 500 rows. -/
def kOut : Cert.Spec.Mat 500 64 := Cert.Spec.headRows 500 (by norm_num) (kmlp m c)

end Cert.KernelIdeal.KVal

end
-- ==== Proof.KIface.lean ====
/-
  What the seven kernel regions compute, as one bundle of statements: for any buffer contents `V` at a region's entry,
  each output array after the region's last write-back is a function of the region's input arrays — a matrix product,
  a bias and positive part, the three-slab projection, the pooling by graph number, the perceptron (Spec.lean).
  The modules that follow the program's buffers from segment to segment take this bundle as a hypothesis; the modules
  that prove each region supply it.
-/
import proofs.«405868_j2388001817260_1_alg».proof.Proof.Gen.KernelIdeal.Frame
import proofs.«405868_j2388001817260_1_alg».proof.Proof.KDefs

noncomputable section

namespace Cert.KernelIdeal.KVal

open Cert.KernelIdeal Cert.KernelIdeal.Gen Idealize.ShloMosaic Idealize.ShloMosaic.TcCoe Idealize.SL.Sem
open Idealize.ShloMosaic.Pipeline (Dat)

/-- Each region's output arrays as functions of its input arrays, at any entry contents. -/
structure RegionFacts : Prop where
  final0 : ∀ (V : (c : Dev nD) → (b : Ref sig .tc) → Buf (Elt Ideal) ((c : Thread nD τ).loc b)) (c : Dev nD),
    (dat0 V c).arrAt 2 cfg0.N = Cert.Spec.mm (V c main_arg0) (V c main_arg3)
  final1_h : ∀ (V : (c : Dev nD) → (b : Ref sig .tc) → Buf (Elt Ideal) ((c : Thread nD τ).loc b)) (c : Dev nD),
    (dat1 V c).arrAt 3 cfg1.N = Cert.Spec.biasRelu (V c main_v42) (Cert.Spec.rowOf (V c main_v43))
  final1_hW : ∀ (V : (c : Dev nD) → (b : Ref sig .tc) → Buf (Elt Ideal) ((c : Thread nD τ).loc b)) (c : Dev nD),
    (dat1 V c).arrAt 4 cfg1.N = Cert.Spec.mm (Cert.Spec.biasRelu (V c main_v42) (Cert.Spec.rowOf (V c main_v43))) (V c main_arg5)
  final2_h : ∀ (V : (c : Dev nD) → (b : Ref sig .tc) → Buf (Elt Ideal) ((c : Thread nD τ).loc b)) (c : Dev nD),
    (dat2 V c).arrAt 3 cfg2.N = Cert.Spec.biasRelu (V c main_v57) (Cert.Spec.rowOf (V c main_v58))
  final2_hW : ∀ (V : (c : Dev nD) → (b : Ref sig .tc) → Buf (Elt Ideal) ((c : Thread nD τ).loc b)) (c : Dev nD),
    (dat2 V c).arrAt 4 cfg2.N = Cert.Spec.mm (Cert.Spec.biasRelu (V c main_v57) (Cert.Spec.rowOf (V c main_v58))) (V c main_arg7)
  final3 : ∀ (V : (c : Dev nD) → (b : Ref sig .tc) → Buf (Elt Ideal) ((c : Thread nD τ).loc b)) (c : Dev nD),
    (dat3 V c).arrAt 2 cfg3.N = Cert.Spec.biasRelu (V c main_v72) (Cert.Spec.rowOf (V c main_v73))
  final4 : ∀ (V : (c : Dev nD) → (b : Ref sig .tc) → Buf (Elt Ideal) ((c : Thread nD τ).loc b)) (c : Dev nD),
    (dat4 V c).arrAt 7 cfg4.N = Cert.Spec.jk3 (V c main_v44_0) (V c main_v59_0) (V c main_v74) (V c main_v75) (V c main_v76) (V c main_v77) (Cert.Spec.rowOf (V c main_v78))
  final5 : ∀ (V : (c : Dev nD) → (b : Ref sig .tc) → Buf (Elt Ideal) ((c : Thread nD τ).loc b)) (c : Dev nD),
    (dat5 V c).arrAt 2 cfg5.N = Cert.Spec.pool 512 (V c main_v79) (Cert.Spec.flatCol (V c main_v80))
  final6 : ∀ (V : (c : Dev nD) → (b : Ref sig .tc) → Buf (Elt Ideal) ((c : Thread nD τ).loc b)) (c : Dev nD),
    (dat6 V c).arrAt 5 cfg6.N = Cert.Spec.mlp (V c main_v81) (V c main_arg11) (Cert.Spec.rowOf (V c main_v82)) (V c main_arg13) (Cert.Spec.rowOf (V c main_v83))

/-- Where the program stands at the third region's exit (the boundary contents `W8`): the three layers' outputs are in
    their buffers, and the arguments the later regions read are still the launch memory's. -/
structure MidFacts (m : (ℓ : Loc nD τ sig) → Buf (Elt Ideal) ℓ) (ρ : Dev nD → PrngReg) : Prop where
  h1 : ∀ c : Dev nD, W8 m ρ c (Proc.devRef .tc main_v44_0) = kh1 m c
  h2 : ∀ c : Dev nD, W8 m ρ c (Proc.devRef .tc main_v59_0) = kh2 m c
  h3 : ∀ c : Dev nD, W8 m ρ c (Proc.devRef .tc main_v74) = kh3 m c
  arg2 : ∀ c : Dev nD, W8 m ρ c (Proc.devRef .tc main_arg2) = m ((c : Thread nD τ).loc main_arg2)
  arg9 : ∀ c : Dev nD, W8 m ρ c (Proc.devRef .tc main_arg9) = m ((c : Thread nD τ).loc main_arg9)
  arg10 : ∀ c : Dev nD, W8 m ρ c (Proc.devRef .tc main_arg10) = m ((c : Thread nD τ).loc main_arg10)
  arg11 : ∀ c : Dev nD, W8 m ρ c (Proc.devRef .tc main_arg11) = m ((c : Thread nD τ).loc main_arg11)
  arg12 : ∀ c : Dev nD, W8 m ρ c (Proc.devRef .tc main_arg12) = m ((c : Thread nD τ).loc main_arg12)
  arg13 : ∀ c : Dev nD, W8 m ρ c (Proc.devRef .tc main_arg13) = m ((c : Thread nD τ).loc main_arg13)
  arg14 : ∀ c : Dev nD, W8 m ρ c (Proc.devRef .tc main_arg14) = m ((c : Thread nD τ).loc main_arg14)

end Cert.KernelIdeal.KVal

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.KReg0.lean ====
import proofs.«405868_j2388001817260_1_alg».proof.Proof.Gen.KernelIdeal.Frame
import proofs.«405868_j2388001817260_1_alg».proof.Proof.Spec
import proofs.«405868_j2388001817260_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the TensorCore's buffer contents when the region is entered (any contents: the region's result is a function of them)
variable (V : (c : Dev nD) → (b : Ref sig .tc) → Buf (Elt Ideal) ((c : Thread nD τ).loc b))

/-! ## Region 0: the features times the first layer's weights

The region walks the 50000 rows of the features in ten blocks of 5000 rows. At point `t` its body multiplies rows
`5000 t … 5000 t + 4999` of the features (all 128 columns) by the whole `128 × 96` weight matrix and stores the
`5000 × 96` product as rows `5000 t … 5000 t + 4999` of the result. Entry `(r, q)` of the result therefore depends
on row `r` of the features and column `q` of the weights only, and is the sum over `k` of their products: the result
is the matrix product, entry by entry. -/

/-- The two spellings of the zero offsets of a whole-block access. -/
theorem zero_offsets0 : (![0, 0] : Fin 2 → Nat) = fun _ => 0 := funext fun a => by fin_cases a <;> rfl

/-- The body's arithmetic at entry `(p, q)` of the block: the narrowing of both operands is the identity on the
    extended reals, and the product into the zero accumulator is the sum over the 128 contracted columns. -/
theorem pay0_apply (x0 : Vec Ideal S5000x128 .f32) (x1 : Vec Ideal S128x96 .f32) (p : Fin 5000) (q : Fin 96) :
    (k0_pay1 (F := Ideal) x0 x1) (ix2 p q) = ∑ k : Fin 128, x0 (ix2 p k) * x1 (ix2 k q) := by
  unfold k0_pay1
  exact Cert.LibDot.matmul_zero_apply dot_S5000x128_S128x96_S5000x96_1_0_0_1_n_n rfl rfl rfl rfl rfl rfl none _ _ p q

/-- The same entry when row `j 0` of the first block is row `i 0` of a matrix `A` and column `j 1` of the second block is
    column `i 1` of a matrix `W`: it is entry `i` of the product `A W`. -/
theorem pay0_of_rows (A : Cert.Spec.Mat 50000 128) (W : Cert.Spec.Mat 128 96)
    (x0 : Vec Ideal S5000x128 .f32) (x1 : Vec Ideal S128x96 .f32) (j : S5000x96.Idx) (i : S50000x96.Idx)
    (h0 : ∀ k : Fin 128, x0 (ix2 (j 0) k) = A (ix2 (i 0) k))
    (h1 : ∀ k : Fin 128, x1 (ix2 k (j 1)) = W (ix2 k (i 1))) :
    (k0_pay1 (F := Ideal) x0 x1) j = Cert.Spec.mm A W i := by
  obtain ⟨p, q, rfl⟩ : ∃ (p : Fin 5000) (q : Fin 96), j = ix2 p q := ⟨j 0, j 1, eq_ix2 j⟩
  rw [pay0_apply]
  exact Finset.sum_congr rfl fun k _ => congrArg₂ (· * ·) (h0 k) (h1 k)

/-- The printed index maps, decided once over the ten points: the features' window and the result's window sit at row
    block `t`, column block 0; the weights' window is always block `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t`, at `(p, k)`, is the features at `(5000 t + p, k)`. -/
theorem xblock0_apply (c : Dev nD) (t : Fin cfg0.N) (p : Fin 5000) (k : Fin 128) (i : S50000x128.Idx)
    (hi0 : (i 0).val = 5000 * t.val + p.val) (hi1 : (i 1).val = k.val) :
    (iblk0 V c 0 t : Vec Ideal S5000x128 .f32) (ix2 p k) = (V c main_arg0 : S50000x128.Idx → Elt Ideal .f32) i := by
  obtain ⟨e0, e1, -⟩ := idx_facts0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = (i 0).val; rw [e0, hi0]; omega
  | ⟨1, _⟩ => show win0_0.index t (1 : Fin 2) * 128 + 1 * k.val = (i 1).val; rw [e1, hi1]; omega

/-- The weights' block at every point is the whole weight matrix. -/
theorem wblock0_apply (c : Dev nD) (t : Fin cfg0.N) (k : Fin 128) (q : Fin 96) :
    (iblk0 V c 1 t : Vec Ideal S128x96 .f32) (ix2 k q) = (V c main_arg3 : S128x96.Idx → Elt Ideal .f32) (ix2 k q) := by
  obtain ⟨-, -, e2, e3, -⟩ := idx_facts0 t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * k.val = k.val; rw [e2]; omega
  | ⟨1, _⟩ => show win0_1.index t (1 : Fin 2) * 96 + 1 * q.val = q.val; rw [e3]; omega

/-- What point `t` writes back is block `t` of the matrix product of the features and the weights as the region finds them. -/
theorem flushed0_eq (c : Dev nD) (t : Fin cfg0.N) :
    (dat0 V c).flushed 2 t = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero zero_offsets0]
  simp only [View.ld_unit_zero (S := S5000x128) zero_offsets0, View.ld_unit_zero (S := S128x96) zero_offsets0]
  obtain ⟨-, -, -, -, e4, e5⟩ := idx_facts0 t
  funext j
  refine pay0_of_rows (V c main_arg0) (V c main_arg3) (iblk0 V c 0 t) (iblk0 V c 1 t)
    ((cfg0.win 2).xinj (grid0.coords t) j) (((cfg0.win 2).blk t).view.emb j) (fun k => ?_) (fun k => ?_)
  · refine xblock0_apply V c t _ k _ ?_ rfl
    show win0_2.index t (0 : Fin 2) * 5000 + 1 * (j 0).val = 5000 * t.val + (j 0).val
    rw [e4]; omega
  · refine (wblock0_apply V c t k _).trans ?_
    refine congrArg (V c main_arg3) ?_
    funext a
    apply Fin.ext
    match a with
    | ⟨0, _⟩ => rfl
    | ⟨1, _⟩ => show (j 1).val = win0_2.index t (1 : Fin 2) * 96 + 1 * (j 1).val; rw [e5]; omega

/-- An index of the result is in point `t`'s block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v29).slice (win0_2.rect t)).set ↔ _
  rw [View.set_slice_whole, Rect.mem_set_unit]
  exact Iff.rfl

/-- Every row `r` of the result is in the block of the point `r / 5000`: the ten blocks cover the array. -/
theorem cover0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have ht : (i 0).val / 5000 < grid0.N := by rw [N_0]; omega
  obtain ⟨-, -, -, -, e4, e5⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 96 ≤ (i 1).val ∧ (i 1).val < win0_2.index ⟨(i 0).val / 5000, ht⟩ (1 : Fin 2) * 96 + 96
    rw [e5]; omega

/-- After the region the result array holds the matrix product of the features and the weights it was entered with. -/
theorem final0 (c : Dev nD) : (dat0 V c).arrAt 2 cfg0.N = Cert.Spec.mm (V c main_arg0) (V c main_arg3) :=
  (dat0 V c).arrAt_eq_of_cover 2 (Cert.Spec.mm (V c main_arg0) (V c main_arg3)) (fun t _ => flushed0_eq V c t) cover0

end Cert.KernelIdeal.KVal

end
-- ==== Proof.KReg1.lean ====
/-
  Region 1: `h = max (agg + bias) 0` and `hW = h · W`, row block by row block.

  The grid has ten points. At point `t` the body sees rows `5000 t … 5000 t + 4999` of the aggregated array, the
  whole bias row and the whole weight matrix, and leaves in its two output blocks the same rows of `h` and of
  `h · W`. A row of either result depends on the same row of the input only, so each written block is the
  restriction of one whole-array function to that block's rows; the ten blocks tile the 50000 rows, so the two
  arrays end holding those functions.
-/
import proofs.«405868_j2388001817260_1_alg».proof.Proof.Gen.KernelIdeal.Frame
import proofs.«405868_j2388001817260_1_alg».proof.Proof.Spec
import proofs.«405868_j2388001817260_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered (any contents: the region's result is a function of them)
variable (V : (c : Dev nD) → (b : Ref sig .tc) → Buf (Elt Ideal) ((c : Thread nD τ).loc b))

/-- The zero offsets of a whole-block access, as the constant function. -/
theorem hz1 : (![0, 0] : Fin 2 → Nat) = fun _ => 0 := funext fun a => by fin_cases a <;> rfl

/-- The body's first stored value at row `p`, column `q` of a block: the block's entry plus the bias row's entry
    at `q`, then the positive part. -/
theorem k1_pay1_apply (x0 : Vec Ideal S5000x96 .f32) (x1 : Vec Ideal S1x96 .f32) (p : Fin 5000) (q : Fin 96) :
    k1_pay1 x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  show max (x0 (ix2 p q) + x1 (ix2 (0 : Fin 1) q)) (Ideal.ofBits .f32 0x00000000#32) = _
  rw [Ideal.ofBits_zero_f32]

/-- The grid has ten points. -/
theorem t_lt1 (t : Fin cfg1.N) : t.val < 10 := Nat.lt_of_lt_of_eq t.isLt N_1

/-- The block index maps, decided once over the ten points: the row-blocked windows (0, 3, 4) sit at block row `t`,
    column block 0; the bias row and the weights are one block each. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of block `t` is row `5000 t + p` of the array. -/
def brow1 (t : Fin cfg1.N) (p : Fin 5000) : Fin 50000 := ⟨5000 * t.val + p.val, by have := t_lt1 t; have := p.isLt; omega⟩

/-- Window 0's block at point `t` is rows `5000 t … 5000 t + 4999` of its array. -/
theorem iblk1_0_apply (c : Dev nD) (t : Fin cfg1.N) (p : Fin 5000) (q : Fin 96) :
    (iblk1 V c 0 t : Vec Ideal S5000x96 .f32) (ix2 p q) = (V c main_v42 : S50000x96.Idx → EReal) (ix2 (brow1 t p) q) := by
  obtain ⟨e0, e1, -⟩ := idx_facts1 t
  show V c main_v42 (((cfg1.win 0).blk t).view.emb (ix2 p q)) = V c main_v42 (ix2 (brow1 t p) q)
  refine congrArg (V c main_v42) (funext fun a => Fin.ext ?_)
  match a with
  | ⟨0, _⟩ => show win1_0.index t (0 : Fin 2) * 5000 + 1 * p.val = 5000 * t.val + p.val; omega
  | ⟨1, _⟩ => show win1_0.index t (1 : Fin 2) * 96 + 1 * q.val = q.val; omega

/-- Window 1's block at every point is its whole one-row array. -/
theorem iblk1_1_apply (c : Dev nD) (t : Fin cfg1.N) (q : Fin 96) :
    (iblk1 V c 1 t : Vec Ideal S1x96 .f32) (ix2 (0 : Fin 1) q) = (V c main_v43 : S1x96.Idx → EReal) (ix2 (0 : Fin 1) q) := by
  obtain ⟨-, -, e0, e1, -⟩ := idx_facts1 t
  show V c main_v43 (((cfg1.win 1).blk t).view.emb (ix2 (0 : Fin 1) q)) = V c main_v43 (ix2 (0 : Fin 1) q)
  refine congrArg (V c main_v43) (funext fun a => Fin.ext ?_)
  match a with
  | ⟨0, _⟩ => show win1_1.index t (0 : Fin 2) * 1 + 1 * 0 = 0; omega
  | ⟨1, _⟩ => show win1_1.index t (1 : Fin 2) * 96 + 1 * q.val = q.val; omega

/-- An element of output window 3's block at point `t` sits at row `5000 t + p`. -/
theorem emb1_3 (t : Fin cfg1.N) (p : Fin 5000) (q : Fin 96) :
    ((cfg1.win 3).blk t).view.emb (ix2 p q) = (ix2 (brow1 t p) q : S50000x96.Idx) := by
  obtain ⟨-, -, -, -, -, -, e0, e1, -⟩ := idx_facts1 t
  refine funext fun a => Fin.ext ?_
  match a with
  | ⟨0, _⟩ => show win1_3.index t (0 : Fin 2) * 5000 + 1 * p.val = 5000 * t.val + p.val; omega
  | ⟨1, _⟩ => show win1_3.index t (1 : Fin 2) * 96 + 1 * q.val = q.val; omega

/-- What point `t` writes back through window 3 is block `t` of the biased, rectified array. -/
theorem flushed1_h (c : Dev nD) (t : Fin cfg1.N) :
    (dat1 V c).flushed 3 t = ((cfg1.win 3).blk t).view.read (Elt Ideal) (Cert.Spec.biasRelu (V c main_v42) (Cert.Spec.rowOf (V c main_v43))) := by
  show (cfg1.win 3).cut (grid1.coords t) ((dat1 V c).after 3 t) = _
  rw [after1_3]
  unfold out1_3
  rw [View.canon_unit_zero hz1]
  simp only [View.ld_unit_zero (S := S5000x96) hz1, View.ld_unit_zero (S := S1x96) hz1]
  funext j
  obtain ⟨p, q, rfl⟩ : ∃ (p : Fin 5000) (q : Fin 96), j = ix2 p q := ⟨j 0, j 1, eq_ix2 j⟩
  show k1_pay1 (iblk1 V c 0 t) (iblk1 V c 1 t) (ix2 p q) = Cert.Spec.biasRelu (V c main_v42) (Cert.Spec.rowOf (V c main_v43)) (((cfg1.win 3).blk t).view.emb (ix2 p q))
  rw [emb1_3 t p q, Cert.Spec.biasRelu_apply, Cert.Spec.rowOf_apply]
  refine (k1_pay1_apply (iblk1 V c 0 t) (iblk1 V c 1 t) p q).trans ?_
  rw [iblk1_0_apply V c t p q, iblk1_1_apply V c t q]

/-- An index of the array is in point `t`'s block of window 3 iff each coordinate is in the block's range on its axis. -/
theorem mem_blk1_3 (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v44_0).slice (win1_3.rect t)).set ↔ _
  rw [View.set_slice_whole, Rect.mem_set_unit]
  exact Iff.rfl

/-- Every row `r` of the array is in the block of point `r / 5000`. -/
theorem cover1_h (i : S50000x96.Idx) : ∃ t : Fin cfg1.N, (cfg1.win 3).flush t = true ∧ i ∈ ((cfg1.win 3).blk t).view.set := by
  have hi0 : (i 0).val < 50000 := (i 0).isLt
  have hi1 : (i 1).val < 96 := (i 1).isLt
  let t : Fin cfg1.N := ⟨(i 0).val / 5000, by have hN : cfg1.N = 10 := N_1; omega⟩
  obtain ⟨-, -, -, -, -, -, e0, e1, -⟩ := idx_facts1 t
  have ht : t.val = (i 0).val / 5000 := rfl
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 96 ≤ (i 1).val ∧ (i 1).val < win1_3.index t (1 : Fin 2) * 96 + 96; omega

/-- After the ten points the first output array is the biased, rectified input array: point `t` wrote block `t` of it,
    and the blocks tile the rows. -/
theorem final1_h (c : Dev nD) : (dat1 V c).arrAt 3 cfg1.N = Cert.Spec.biasRelu (V c main_v42) (Cert.Spec.rowOf (V c main_v43)) :=
  (dat1 V c).arrAt_eq_of_cover 3 (Cert.Spec.biasRelu (V c main_v42) (Cert.Spec.rowOf (V c main_v43))) (fun t _ => flushed1_h V c t) cover1_h

/-- The body's second stored value at `(p, q)`: row `p` of the first stored value against column `q` of the weights,
    the two narrowings being the identity on extended reals and the accumulator starting at zero. -/
theorem k1_pay2_apply (x0 : Vec Ideal S5000x96 .f32) (x1 : Vec Ideal S1x96 .f32) (x2 : Vec Ideal S96x96 .f32) (p : Fin 5000) (q : Fin 96) :
    k1_pay2 x0 x1 x2 (ix2 p q) = ∑ k : Fin 96, max (x0 (ix2 p k) + x1 (ix2 (0 : Fin 1) k)) 0 * x2 (ix2 k q) := by
  unfold k1_pay2
  refine (Cert.LibDot.matmul_zero_apply dot_S5000x96_S96x96_S5000x96_1_0_0_1_n_n rfl rfl rfl rfl rfl rfl none _ _ p q).trans ?_
  refine Finset.sum_congr rfl fun k _ => ?_
  rw [truncf_apply, truncf_apply, k1_pay1_apply]

/-- Window 2's block at every point is its whole array of weights. -/
theorem iblk1_2_apply (c : Dev nD) (t : Fin cfg1.N) (k q : Fin 96) :
    (iblk1 V c 2 t : Vec Ideal S96x96 .f32) (ix2 k q) = (V c main_arg5 : S96x96.Idx → EReal) (ix2 k q) := by
  obtain ⟨-, -, -, -, e0, e1, -⟩ := idx_facts1 t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 96 + 1 * k.val = k.val; omega
  | ⟨1, _⟩ => show win1_2.index t (1 : Fin 2) * 96 + 1 * q.val = q.val; omega

/-- An element of output window 4's block at point `t` sits at row `5000 t + p`. -/
theorem emb1_4 (t : Fin cfg1.N) (p : Fin 5000) (q : Fin 96) :
    ((cfg1.win 4).blk t).view.emb (ix2 p q) = (ix2 (brow1 t p) q : S50000x96.Idx) := by
  obtain ⟨-, -, -, -, -, -, -, -, e0, e1⟩ := idx_facts1 t
  refine funext fun a => Fin.ext ?_
  match a with
  | ⟨0, _⟩ => show win1_4.index t (0 : Fin 2) * 5000 + 1 * p.val = 5000 * t.val + p.val; omega
  | ⟨1, _⟩ => show win1_4.index t (1 : Fin 2) * 96 + 1 * q.val = q.val; omega

/-- What point `t` writes back through window 4 is block `t` of the product of the rectified array with the weights:
    a row of the product depends on the same row of the rectified array only, and that row is in the block. -/
theorem flushed1_hW (c : Dev nD) (t : Fin cfg1.N) :
    (dat1 V c).flushed 4 t = ((cfg1.win 4).blk t).view.read (Elt Ideal)
      (Cert.Spec.mm (Cert.Spec.biasRelu (V c main_v42) (Cert.Spec.rowOf (V c main_v43))) (V c main_arg5)) := by
  show (cfg1.win 4).cut (grid1.coords t) ((dat1 V c).after 4 t) = _
  rw [after1_4]
  unfold out1_4
  rw [View.canon_unit_zero hz1]
  simp only [View.ld_unit_zero (S := S5000x96) hz1, View.ld_unit_zero (S := S1x96) hz1, View.ld_unit_zero (S := S96x96) hz1]
  funext j
  obtain ⟨p, q, rfl⟩ : ∃ (p : Fin 5000) (q : Fin 96), j = ix2 p q := ⟨j 0, j 1, eq_ix2 j⟩
  show k1_pay2 (iblk1 V c 0 t) (iblk1 V c 1 t) (iblk1 V c 2 t) (ix2 p q)
    = Cert.Spec.mm (Cert.Spec.biasRelu (V c main_v42) (Cert.Spec.rowOf (V c main_v43))) (V c main_arg5) (((cfg1.win 4).blk t).view.emb (ix2 p q))
  rw [emb1_4 t p q, Cert.Spec.mm_apply]
  refine (k1_pay2_apply (iblk1 V c 0 t) (iblk1 V c 1 t) (iblk1 V c 2 t) p q).trans ?_
  refine Finset.sum_congr rfl fun k _ => ?_
  rw [iblk1_0_apply V c t p k, iblk1_1_apply V c t k, iblk1_2_apply V c t k q, Cert.Spec.biasRelu_apply, Cert.Spec.rowOf_apply]

/-- An index of the array is in point `t`'s block of window 4 iff each coordinate is in the block's range on its axis. -/
theorem mem_blk1_4 (t : Fin cfg1.N) (i : S50000x96.Idx) :
    i ∈ ((cfg1.win 4).blk t).view.set ↔ ∀ a : Fin 2, win1_4.index t a * S5000x96.size a ≤ (i a).val ∧ (i a).val < win1_4.index t a * S5000x96.size a + S5000x96.size a := by
  show i ∈ ((View.whole main_v44_1).slice (win1_4.rect t)).set ↔ _
  rw [View.set_slice_whole, Rect.mem_set_unit]
  exact Iff.rfl

/-- Every row `r` of the product array is in the block of point `r / 5000`. -/
theorem cover1_hW (i : S50000x96.Idx) : ∃ t : Fin cfg1.N, (cfg1.win 4).flush t = true ∧ i ∈ ((cfg1.win 4).blk t).view.set := by
  have hi0 : (i 0).val < 50000 := (i 0).isLt
  have hi1 : (i 1).val < 96 := (i 1).isLt
  let t : Fin cfg1.N := ⟨(i 0).val / 5000, by have hN : cfg1.N = 10 := N_1; omega⟩
  obtain ⟨-, -, -, -, -, -, -, -, e0, e1⟩ := idx_facts1 t
  have ht : t.val = (i 0).val / 5000 := rfl
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 96 ≤ (i 1).val ∧ (i 1).val < win1_4.index t (1 : Fin 2) * 96 + 96; omega

/-- After the ten points the second output array is the product of the biased, rectified array with the weights:
    point `t` wrote block `t` of it, and the blocks tile the rows. -/
theorem final1_hW (c : Dev nD) : (dat1 V c).arrAt 4 cfg1.N = Cert.Spec.mm (Cert.Spec.biasRelu (V c main_v42) (Cert.Spec.rowOf (V c main_v43))) (V c main_arg5) :=
  (dat1 V c).arrAt_eq_of_cover 4 (Cert.Spec.mm (Cert.Spec.biasRelu (V c main_v42) (Cert.Spec.rowOf (V c main_v43))) (V c main_arg5)) (fun t _ => flushed1_hW V c t) cover1_hW

end Cert.KernelIdeal.KVal

end
-- ==== Proof.KReg2.lean ====
/-
  Region 2: the second layer's `h = max (agg + bias) 0` and `hW = h · W`, row block by row block.

  The same kernel function as the first layer's, at the second layer's arrays. The grid has ten points. At point `t`
  the body sees rows `5000 t … 5000 t + 4999` of the aggregated array, the whole bias row and the whole weight
  matrix, and leaves in its two output blocks the same rows of `h` and of `h · W`. A row of either result depends
  on the same row of the input only, so each written block is the restriction of one whole-array function to that
  block's rows; the ten blocks tile the 50000 rows, so the two arrays end holding those functions.
-/
import proofs.«405868_j2388001817260_1_alg».proof.Proof.Gen.KernelIdeal.Frame
import proofs.«405868_j2388001817260_1_alg».proof.Proof.Spec
import proofs.«405868_j2388001817260_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered (any contents: the region's result is a function of them)
variable (V : (c : Dev nD) → (b : Ref sig .tc) → Buf (Elt Ideal) ((c : Thread nD τ).loc b))

/-- The zero offsets of a whole-block access, as the constant function. -/
theorem hz2 : (![0, 0] : Fin 2 → Nat) = fun _ => 0 := funext fun a => by fin_cases a <;> rfl

/-- The body's first stored value at row `p`, column `q` of a block: the block's entry plus the bias row's entry
    at `q`, then the positive part. -/
theorem k2_pay1_apply (x0 : Vec Ideal S5000x96 .f32) (x1 : Vec Ideal S1x96 .f32) (p : Fin 5000) (q : Fin 96) :
    k2_pay1 x0 x1 (ix2 p q) = max (x0 (ix2 p q) + x1 (ix2 (0 : Fin 1) q)) 0 := by
  unfold k2_pay1
  rw [maximumf_apply, addf_apply, broadcast_apply, shapeCast_self, shapeCast_self, broadcastTo_1b_ab_apply]
  show max (x0 (ix2 p q) + x1 (ix2 (0 : Fin 1) q)) (Ideal.ofBits .f32 0x00000000#32) = _
  rw [Ideal.ofBits_zero_f32]

/-- The grid has ten points. -/
theorem t_lt2 (t : Fin cfg2.N) : t.val < 10 := Nat.lt_of_lt_of_eq t.isLt N_2

/-- The block index maps, decided once over the ten points: the row-blocked windows (0, 3, 4) sit at block row `t`,
    column block 0; the bias row and the weights are one block each. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `p` of block `t` is row `5000 t + p` of the array. -/
def brow2 (t : Fin cfg2.N) (p : Fin 5000) : Fin 50000 := ⟨5000 * t.val + p.val, by have := t_lt2 t; have := p.isLt; omega⟩

/-- Window 0's block at point `t` is rows `5000 t … 5000 t + 4999` of its array. -/
theorem iblk2_0_apply (c : Dev nD) (t : Fin cfg2.N) (p : Fin 5000) (q : Fin 96) :
    (iblk2 V c 0 t : Vec Ideal S5000x96 .f32) (ix2 p q) = (V c main_v57 : S50000x96.Idx → EReal) (ix2 (brow2 t p) q) := by
  obtain ⟨e0, e1, -⟩ := idx_facts2 t
  show V c main_v57 (((cfg2.win 0).blk t).view.emb (ix2 p q)) = V c main_v57 (ix2 (brow2 t p) q)
  refine congrArg (V c main_v57) (funext fun a => Fin.ext ?_)
  match a with
  | ⟨0, _⟩ => show win2_0.index t (0 : Fin 2) * 5000 + 1 * p.val = 5000 * t.val + p.val; omega
  | ⟨1, _⟩ => show win2_0.index t (1 : Fin 2) * 96 + 1 * q.val = q.val; omega

/-- Window 1's block at every point is its whole one-row array. -/
theorem iblk2_1_apply (c : Dev nD) (t : Fin cfg2.N) (q : Fin 96) :
    (iblk2 V c 1 t : Vec Ideal S1x96 .f32) (ix2 (0 : Fin 1) q) = (V c main_v58 : S1x96.Idx → EReal) (ix2 (0 : Fin 1) q) := by
  obtain ⟨-, -, e0, e1, -⟩ := idx_facts2 t
  show V c main_v58 (((cfg2.win 1).blk t).view.emb (ix2 (0 : Fin 1) q)) = V c main_v58 (ix2 (0 : Fin 1) q)
  refine congrArg (V c main_v58) (funext fun a => Fin.ext ?_)
  match a with
  | ⟨0, _⟩ => show win2_1.index t (0 : Fin 2) * 1 + 1 * 0 = 0; omega
  | ⟨1, _⟩ => show win2_1.index t (1 : Fin 2) * 96 + 1 * q.val = q.val; omega

/-- An element of output window 3's block at point `t` sits at row `5000 t + p`. -/
theorem emb2_3 (t : Fin cfg2.N) (p : Fin 5000) (q : Fin 96) :
    ((cfg2.win 3).blk t).view.emb (ix2 p q) = (ix2 (brow2 t p) q : S50000x96.Idx) := by
  obtain ⟨-, -, -, -, -, -, e0, e1, -⟩ := idx_facts2 t
  refine funext fun a => Fin.ext ?_
  match a with
  | ⟨0, _⟩ => show win2_3.index t (0 : Fin 2) * 5000 + 1 * p.val = 5000 * t.val + p.val; omega
  | ⟨1, _⟩ => show win2_3.index t (1 : Fin 2) * 96 + 1 * q.val = q.val; omega

/-- What point `t` writes back through window 3 is block `t` of the biased, rectified array. -/
theorem flushed2_h (c : Dev nD) (t : Fin cfg2.N) :
    (dat2 V c).flushed 3 t = ((cfg2.win 3).blk t).view.read (Elt Ideal) (Cert.Spec.biasRelu (V c main_v57) (Cert.Spec.rowOf (V c main_v58))) := by
  show (cfg2.win 3).cut (grid2.coords t) ((dat2 V c).after 3 t) = _
  rw [after2_3]
  unfold out2_3
  rw [View.canon_unit_zero hz2]
  simp only [View.ld_unit_zero (S := S5000x96) hz2, View.ld_unit_zero (S := S1x96) hz2]
  funext j
  obtain ⟨p, q, rfl⟩ : ∃ (p : Fin 5000) (q : Fin 96), j = ix2 p q := ⟨j 0, j 1, eq_ix2 j⟩
  show k2_pay1 (iblk2 V c 0 t) (iblk2 V c 1 t) (ix2 p q) = Cert.Spec.biasRelu (V c main_v57) (Cert.Spec.rowOf (V c main_v58)) (((cfg2.win 3).blk t).view.emb (ix2 p q))
  rw [emb2_3 t p q, Cert.Spec.biasRelu_apply, Cert.Spec.rowOf_apply]
  refine (k2_pay1_apply (iblk2 V c 0 t) (iblk2 V c 1 t) p q).trans ?_
  rw [iblk2_0_apply V c t p q, iblk2_1_apply V c t q]

/-- An index of the array is in point `t`'s block of window 3 iff each coordinate is in the block's range on its axis. -/
theorem mem_blk2_3 (t : Fin cfg2.N) (i : S50000x96.Idx) :
    i ∈ ((cfg2.win 3).blk t).view.set ↔ ∀ a : Fin 2, win2_3.index t a * S5000x96.size a ≤ (i a).val ∧ (i a).val < win2_3.index t a * S5000x96.size a + S5000x96.size a := by
  show i ∈ ((View.whole main_v59_0).slice (win2_3.rect t)).set ↔ _
  rw [View.set_slice_whole, Rect.mem_set_unit]
  exact Iff.rfl

/-- Every row `r` of the array is in the block of point `r / 5000`. -/
theorem cover2_h (i : S50000x96.Idx) : ∃ t : Fin cfg2.N, (cfg2.win 3).flush t = true ∧ i ∈ ((cfg2.win 3).blk t).view.set := by
  have hi0 : (i 0).val < 50000 := (i 0).isLt
  have hi1 : (i 1).val < 96 := (i 1).isLt
  let t : Fin cfg2.N := ⟨(i 0).val / 5000, by have hN : cfg2.N = 10 := N_2; omega⟩
  obtain ⟨-, -, -, -, -, -, e0, e1, -⟩ := idx_facts2 t
  have ht : t.val = (i 0).val / 5000 := rfl
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 96 ≤ (i 1).val ∧ (i 1).val < win2_3.index t (1 : Fin 2) * 96 + 96; omega

/-- After the ten points the first output array is the biased, rectified input array: point `t` wrote block `t` of it,
    and the blocks tile the rows. -/
theorem final2_h (c : Dev nD) : (dat2 V c).arrAt 3 cfg2.N = Cert.Spec.biasRelu (V c main_v57) (Cert.Spec.rowOf (V c main_v58)) :=
  (dat2 V c).arrAt_eq_of_cover 3 (Cert.Spec.biasRelu (V c main_v57) (Cert.Spec.rowOf (V c main_v58))) (fun t _ => flushed2_h V c t) cover2_h

/-- The body's second stored value at `(p, q)`: row `p` of the first stored value against column `q` of the weights,
    the two narrowings being the identity on extended reals and the accumulator starting at zero. -/
theorem k2_pay2_apply (x0 : Vec Ideal S5000x96 .f32) (x1 : Vec Ideal S1x96 .f32) (x2 : Vec Ideal S96x96 .f32) (p : Fin 5000) (q : Fin 96) :
    k2_pay2 x0 x1 x2 (ix2 p q) = ∑ k : Fin 96, max (x0 (ix2 p k) + x1 (ix2 (0 : Fin 1) k)) 0 * x2 (ix2 k q) := by
  unfold k2_pay2
  refine (Cert.LibDot.matmul_zero_apply dot_S5000x96_S96x96_S5000x96_1_0_0_1_n_n rfl rfl rfl rfl rfl rfl none _ _ p q).trans ?_
  refine Finset.sum_congr rfl fun k _ => ?_
  rw [truncf_apply, truncf_apply, k2_pay1_apply]

/-- Window 2's block at every point is its whole array of weights. -/
theorem iblk2_2_apply (c : Dev nD) (t : Fin cfg2.N) (k q : Fin 96) :
    (iblk2 V c 2 t : Vec Ideal S96x96 .f32) (ix2 k q) = (V c main_arg7 : S96x96.Idx → EReal) (ix2 k q) := by
  obtain ⟨-, -, -, -, e0, e1, -⟩ := idx_facts2 t
  show V c main_arg7 (((cfg2.win 2).blk t).view.emb (ix2 k q)) = V c main_arg7 (ix2 k q)
  refine congrArg (V c main_arg7) (funext fun a => Fin.ext ?_)
  match a with
  | ⟨0, _⟩ => show win2_2.index t (0 : Fin 2) * 96 + 1 * k.val = k.val; omega
  | ⟨1, _⟩ => show win2_2.index t (1 : Fin 2) * 96 + 1 * q.val = q.val; omega

/-- An element of output window 4's block at point `t` sits at row `5000 t + p`. -/
theorem emb2_4 (t : Fin cfg2.N) (p : Fin 5000) (q : Fin 96) :
    ((cfg2.win 4).blk t).view.emb (ix2 p q) = (ix2 (brow2 t p) q : S50000x96.Idx) := by
  obtain ⟨-, -, -, -, -, -, -, -, e0, e1⟩ := idx_facts2 t
  refine funext fun a => Fin.ext ?_
  match a with
  | ⟨0, _⟩ => show win2_4.index t (0 : Fin 2) * 5000 + 1 * p.val = 5000 * t.val + p.val; omega
  | ⟨1, _⟩ => show win2_4.index t (1 : Fin 2) * 96 + 1 * q.val = q.val; omega

/-- What point `t` writes back through window 4 is block `t` of the product of the rectified array with the weights:
    a row of the product depends on the same row of the rectified array only, and that row is in the block. -/
theorem flushed2_hW (c : Dev nD) (t : Fin cfg2.N) :
    (dat2 V c).flushed 4 t = ((cfg2.win 4).blk t).view.read (Elt Ideal)
      (Cert.Spec.mm (Cert.Spec.biasRelu (V c main_v57) (Cert.Spec.rowOf (V c main_v58))) (V c main_arg7)) := by
  show (cfg2.win 4).cut (grid2.coords t) ((dat2 V c).after 4 t) = _
  rw [after2_4]
  unfold out2_4
  rw [View.canon_unit_zero hz2]
  simp only [View.ld_unit_zero (S := S5000x96) hz2, View.ld_unit_zero (S := S1x96) hz2, View.ld_unit_zero (S := S96x96) hz2]
  funext j
  obtain ⟨p, q, rfl⟩ : ∃ (p : Fin 5000) (q : Fin 96), j = ix2 p q := ⟨j 0, j 1, eq_ix2 j⟩
  show k2_pay2 (iblk2 V c 0 t) (iblk2 V c 1 t) (iblk2 V c 2 t) (ix2 p q)
    = Cert.Spec.mm (Cert.Spec.biasRelu (V c main_v57) (Cert.Spec.rowOf (V c main_v58))) (V c main_arg7) (((cfg2.win 4).blk t).view.emb (ix2 p q))
  rw [emb2_4 t p q, Cert.Spec.mm_apply]
  refine (k2_pay2_apply (iblk2 V c 0 t) (iblk2 V c 1 t) (iblk2 V c 2 t) p q).trans ?_
  refine Finset.sum_congr rfl fun k _ => ?_
  rw [iblk2_0_apply V c t p k, iblk2_1_apply V c t k, iblk2_2_apply V c t k q, Cert.Spec.biasRelu_apply, Cert.Spec.rowOf_apply]

/-- An index of the array is in point `t`'s block of window 4 iff each coordinate is in the block's range on its axis. -/
theorem mem_blk2_4 (t : Fin cfg2.N) (i : S50000x96.Idx) :
    i ∈ ((cfg2.win 4).blk t).view.set ↔ ∀ a : Fin 2, win2_4.index t a * S5000x96.size a ≤ (i a).val ∧ (i a).val < win2_4.index t a * S5000x96.size a + S5000x96.size a := by
  show i ∈ ((View.whole main_v59_1).slice (win2_4.rect t)).set ↔ _
  rw [View.set_slice_whole, Rect.mem_set_unit]
  exact Iff.rfl

/-- Every row `r` of the product array is in the block of point `r / 5000`. -/
theorem cover2_hW (i : S50000x96.Idx) : ∃ t : Fin cfg2.N, (cfg2.win 4).flush t = true ∧ i ∈ ((cfg2.win 4).blk t).view.set := by
  have hi0 : (i 0).val < 50000 := (i 0).isLt
  have hi1 : (i 1).val < 96 := (i 1).isLt
  let t : Fin cfg2.N := ⟨(i 0).val / 5000, by have hN : cfg2.N = 10 := N_2; omega⟩
  obtain ⟨-, -, -, -, -, -, -, -, e0, e1⟩ := idx_facts2 t
  have ht : t.val = (i 0).val / 5000 := rfl
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 96 ≤ (i 1).val ∧ (i 1).val < win2_4.index t (1 : Fin 2) * 96 + 96; omega

/-- After the ten points the second output array is the product of the biased, rectified array with the weights:
    point `t` wrote block `t` of it, and the blocks tile the rows. -/
theorem final2_hW (c : Dev nD) : (dat2 V c).arrAt 4 cfg2.N = Cert.Spec.mm (Cert.Spec.biasRelu (V c main_v57) (Cert.Spec.rowOf (V c main_v58))) (V c main_arg7) :=
  (dat2 V c).arrAt_eq_of_cover 4 (Cert.Spec.mm (Cert.Spec.biasRelu (V c main_v57) (Cert.Spec.rowOf (V c main_v58))) (V c main_arg7)) (fun t _ => flushed2_hW V c t) cover2_hW

end Cert.KernelIdeal.KVal

end
-- ==== Proof.KReg3.lean ====
import proofs.«405868_j2388001817260_1_alg».proof.Proof.Gen.KernelIdeal.Frame
import proofs.«405868_j2388001817260_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered (any contents: the region's result is a function of them)
variable (V : (c : Dev nD) → (b : Ref sig .tc) → Buf (Elt Ideal) ((c : Thread nD τ).loc b))

/-! ## Region 3: a bias added to every row of the aggregated features, then the positive part

The region walks the 50000 rows of the aggregated features in ten blocks of 5000 rows. At point `t` its body adds the
one row of the bias to each of the rows `5000 t … 5000 t + 4999`, takes the maximum with zero entry by entry, and
stores the block as the same rows of the result. Entry `(r, q)` of the result therefore depends on entry `(r, q)` of
the aggregated features and entry `q` of the bias only: it is `max (A (r, q) + b q) 0`. -/

/-- The two spellings of the zero offsets of a whole-block access. -/
theorem zero_offsets3 : (![0, 0] : Fin 2 → Nat) = fun _ => 0 := funext fun a => by fin_cases a <;> rfl

/-- The body's arithmetic at entry `(p, q)` of the block: the two casts to the same shape change nothing, the `1 × 96`
    bias broadcast over the 5000 rows reads its one row at `q`, and the splat constant is the extended real zero. -/
theorem pay3_apply (x0 : Vec Ideal S5000x96 .f32) (x1 : Vec Ideal S1x96 .f32) (p : Fin 5000) (q : Fin 96) :
    (k3_pay1 (F := Ideal) x0 x1) (ix2 p q) = max (x0 (ix2 p q) + x1 (ix2 (0 : Fin 1) q)) 0 := by
  unfold k3_pay1
  rw [maximumf_apply, addf_apply, broadcast_apply, shapeCast_self, shapeCast_self, broadcastTo_1b_ab_apply]
  exact congrArg (max _) Ideal.ofBits_zero_f32

/-- The same entry when entry `(j 0, j 1)` of the first block is entry `i` of a matrix `A` and column `j 1` of the second block
    is column `i 1` of a one-row matrix `b`: it is entry `i` of `A` with the bias `b` added and the positive part taken. -/
theorem pay3_of_rows (A : Cert.Spec.Mat 50000 96) (b : Cert.Spec.Mat 1 96)
    (x0 : Vec Ideal S5000x96 .f32) (x1 : Vec Ideal S1x96 .f32) (j : S5000x96.Idx) (i : S50000x96.Idx)
    (h0 : x0 (ix2 (j 0) (j 1)) = A i) (h1 : x1 (ix2 (0 : Fin 1) (j 1)) = b (ix2 (0 : Fin 1) (i 1))) :
    (k3_pay1 (F := Ideal) x0 x1) j = Cert.Spec.biasRelu A (Cert.Spec.rowOf b) i := by
  obtain ⟨p, q, rfl⟩ : ∃ (p : Fin 5000) (q : Fin 96), j = ix2 p q := ⟨j 0, j 1, eq_ix2 j⟩
  rw [pay3_apply]
  exact congrArg₂ (fun u v => max (u + v) 0) h0 h1

/-- The printed index maps, decided once over the ten points: the aggregated features' window and the result's window
    sit at row block `t`, column block 0; the bias's window is always block `(0, 0)`. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The aggregated features' block at point `t`, at `(p, q)`, is the aggregated features at `(5000 t + p, q)`. -/
theorem ablock3_apply (c : Dev nD) (t : Fin cfg3.N) (p : Fin 5000) (q : Fin 96) (i : S50000x96.Idx)
    (hi0 : (i 0).val = 5000 * t.val + p.val) (hi1 : (i 1).val = q.val) :
    (iblk3 V c 0 t : Vec Ideal S5000x96 .f32) (ix2 p q) = (V c main_v72 : S50000x96.Idx → Elt Ideal .f32) i := by
  obtain ⟨e0, e1, -⟩ := idx_facts3 t
  unfold iblk3
  rw [View.read_apply]
  show V c main_v72 _ = V c main_v72 _
  refine congrArg (V c main_v72) ?_
  funext a
  apply Fin.ext
  match a with
  | ⟨0, _⟩ => show win3_0.index t (0 : Fin 2) * 5000 + 1 * p.val = (i 0).val; rw [e0, hi0]; omega
  | ⟨1, _⟩ => show win3_0.index t (1 : Fin 2) * 96 + 1 * q.val = (i 1).val; rw [e1, hi1]; omega

/-- The bias's block at every point is the whole one-row bias. -/
theorem bblock3_apply (c : Dev nD) (t : Fin cfg3.N) (q : Fin 96) :
    (iblk3 V c 1 t : Vec Ideal S1x96 .f32) (ix2 (0 : Fin 1) q) = (V c main_v73 : S1x96.Idx → Elt Ideal .f32) (ix2 (0 : Fin 1) q) := by
  obtain ⟨-, -, e2, e3, -⟩ := idx_facts3 t
  unfold iblk3
  rw [View.read_apply]
  show V c main_v73 _ = V c main_v73 _
  refine congrArg (V c main_v73) ?_
  funext a
  apply Fin.ext
  match a with
  | ⟨0, _⟩ => show win3_1.index t (0 : Fin 2) * 1 + 1 * 0 = 0; omega
  | ⟨1, _⟩ => show win3_1.index t (1 : Fin 2) * 96 + 1 * q.val = q.val; rw [e3]; omega

/-- What point `t` writes back is block `t` of the biased positive part of the aggregated features as the region finds them. -/
theorem flushed3_eq (c : Dev nD) (t : Fin cfg3.N) :
    (dat3 V c).flushed 2 t = ((cfg3.win 2).blk t).view.read (Elt Ideal) (Cert.Spec.biasRelu (V c main_v72) (Cert.Spec.rowOf (V c main_v73))) := by
  show (cfg3.win 2).cut (grid3.coords t) ((dat3 V c).after 2 t) = _
  rw [after3_2]
  unfold out3_2
  rw [View.canon_unit_zero zero_offsets3]
  simp only [View.ld_unit_zero (S := S5000x96) zero_offsets3, View.ld_unit_zero (S := S1x96) zero_offsets3]
  obtain ⟨-, -, -, -, e4, e5⟩ := idx_facts3 t
  funext j
  refine pay3_of_rows (V c main_v72) (V c main_v73) (iblk3 V c 0 t) (iblk3 V c 1 t)
    ((cfg3.win 2).xinj (grid3.coords t) j) (((cfg3.win 2).blk t).view.emb j) ?_ ?_
  · refine ablock3_apply V c t _ _ _ ?_ ?_
    · show win3_2.index t (0 : Fin 2) * 5000 + 1 * (j 0).val = 5000 * t.val + (j 0).val
      rw [e4]; omega
    · show win3_2.index t (1 : Fin 2) * 96 + 1 * (j 1).val = (j 1).val
      rw [e5]; omega
  · refine (bblock3_apply V c t _).trans ?_
    refine congrArg (V c main_v73) ?_
    funext a
    apply Fin.ext
    match a with
    | ⟨0, _⟩ => rfl
    | ⟨1, _⟩ => show (j 1).val = win3_2.index t (1 : Fin 2) * 96 + 1 * (j 1).val; rw [e5]; omega

/-- An index of the result is in point `t`'s block iff each coordinate is in the block's range on its axis. -/
theorem mem_blk3 (t : Fin cfg3.N) (i : S50000x96.Idx) :
    i ∈ ((cfg3.win 2).blk t).view.set ↔ ∀ a : Fin 2, win3_2.index t a * S5000x96.size a ≤ (i a).val ∧ (i a).val < win3_2.index t a * S5000x96.size a + S5000x96.size a := by
  show i ∈ ((View.whole main_v74).slice (win3_2.rect t)).set ↔ _
  rw [View.set_slice_whole, Rect.mem_set_unit]
  exact Iff.rfl

/-- Every row `r` of the result is in the block of the point `r / 5000`: the ten blocks cover the array. -/
theorem cover3 (i : S50000x96.Idx) : ∃ t : Fin cfg3.N, (cfg3.win 2).flush t = true ∧ i ∈ ((cfg3.win 2).blk t).view.set := by
  have hi0 : (i 0).val < 50000 := (i 0).isLt
  have hi1 : (i 1).val < 96 := (i 1).isLt
  have ht : (i 0).val / 5000 < grid3.N := by rw [N_3]; omega
  obtain ⟨-, -, -, -, e4, e5⟩ := idx_facts3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 96 ≤ (i 1).val ∧ (i 1).val < win3_2.index ⟨(i 0).val / 5000, ht⟩ (1 : Fin 2) * 96 + 96
    rw [e5]; omega

/-- After the region the result array holds the aggregated features it was entered with, the bias added to every row
    and the positive part taken. -/
theorem final3 (c : Dev nD) : (dat3 V c).arrAt 2 cfg3.N = Cert.Spec.biasRelu (V c main_v72) (Cert.Spec.rowOf (V c main_v73)) :=
  (dat3 V c).arrAt_eq_of_cover 2 (Cert.Spec.biasRelu (V c main_v72) (Cert.Spec.rowOf (V c main_v73))) (fun t _ => flushed3_eq V c t) cover3

end Cert.KernelIdeal.KVal

end
-- ==== Proof.KReg4.lean ====
/-
  Region 4: the jumping-knowledge projection, block by block and then as one array.

  The region walks ten row blocks of 5000 rows. At block `t` it reads rows `5000 t … 5000 t + 4999` of the three
  layers' outputs `h1, h2, h3` (each `50000 × 96`), the three `96 × 96` weight matrices `w1, w2, w3` and the
  `1 × 96` bias whole, and writes rows `5000 t … 5000 t + 4999` of the result: entry `(p, q)` of the written block is

      ((Σₖ h1 (5000 t + p, k) · w1 (k, q)) + (Σₖ h2 (5000 t + p, k) · w2 (k, q))) + (Σₖ h3 (5000 t + p, k) · w3 (k, q)) + b q.

  Over the extended reals a change of float format is the identity and a matrix product into the zero accumulator is
  the exact sum over the contraction index, so the written block is the same rows of `Spec.jk3` of the whole arrays.
  The ten blocks tile the `50000` rows (row `r` lies in block `r / 5000`), hence the result array is `Spec.jk3`.
  No law of the extended reals beyond reading each operation at an index is used: the three partial products are added
  in the order `Spec.jk3` adds them.
-/
import proofs.«405868_j2388001817260_1_alg».proof.Proof.Gen.KernelIdeal.Frame
import proofs.«405868_j2388001817260_1_alg».proof.Proof.Spec
import proofs.«405868_j2388001817260_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The body's loads and its store go through the whole staging buffer: both offsets are zero. -/
theorem zero_offsets4 : (![0, 0] : Fin 2 → Nat) = fun _ => 0 := funext fun a => by fin_cases a <;> rfl

/-- One partial product at entry `(p, q)`: a block of 5000 rows times a `96 × 96` weight matrix, both re-cast to
    their own shape and narrowed (the identity on extended reals), accumulated from zero, is `Σₖ x (p, k) · w (k, q)`. -/
theorem slab_product_apply (x : Vec Ideal S5000x96 .f32) (w : Vec Ideal S96x96 .f32)
    (hx : S5000x96.ShapeCasts S5000x96) (hw : S96x96.ShapeCasts S96x96) (hb : FTy.bits .bf16 < FTy.bits .f32)
    (p : Fin 5000) (q : Fin 96) :
    matmul dot_S5000x96_S96x96_S5000x96_1_0_0_1_n_n none
        (truncf .bf16 (shapeCast S5000x96 x hx) hb) (truncf .bf16 (shapeCast S96x96 w hw) hb)
        (constant (F := Ideal) S5000x96 .f32 0x00000000#32) (ix2 p q)
      = ∑ k : Fin 96, x (ix2 p k) * w (ix2 k q) := by
  refine (Cert.LibDot.matmul_zero_apply dot_S5000x96_S96x96_S5000x96_1_0_0_1_n_n rfl rfl rfl rfl rfl rfl none _ _ p q).trans ?_
  refine Finset.sum_congr rfl fun k _ => ?_
  rw [truncf_apply, truncf_apply, shapeCast_self, shapeCast_self]

/-- The body's result at entry `(p, q)` of its block, from the seven blocks it loads: the three partial products
    added left to right, then the bias row's entry `q` (the `1 × 96` bias is repeated down the 5000 rows). -/
theorem projection_apply (x0 x1 x2 : Vec Ideal S5000x96 .f32) (x3 x4 x5 : Vec Ideal S96x96 .f32) (x6 : Vec Ideal S1x96 .f32)
    (p : Fin 5000) (q : Fin 96) :
    k4_pay1 (F := Ideal) x0 x1 x2 x3 x4 x5 x6 (ix2 p q)
      = ((∑ k : Fin 96, x0 (ix2 p k) * x3 (ix2 k q)) + (∑ k : Fin 96, x1 (ix2 p k) * x4 (ix2 k q)))
        + (∑ k : Fin 96, x2 (ix2 p k) * x5 (ix2 k q)) + x6 (ix2 (0 : Fin 1) q) := by
  unfold k4_pay1
  refine (addf_apply _ _ _).trans ?_
  refine congrArg₂ (· + ·) ((addf_apply _ _ _).trans (congrArg₂ (· + ·) ((addf_apply _ _ _).trans
    (congrArg₂ (· + ·) (slab_product_apply x0 x3 _ _ _ p q) (slab_product_apply x1 x4 _ _ _ p q)))
    (slab_product_apply x2 x5 _ _ _ p q))) ?_
  rw [shapeCast_self]
  exact broadcastTo_1b_ab_apply x6 _ p q

/-! ## The blocks a point reads and writes -/

-- the TensorCore's buffer contents when the region is entered (any contents: the region's result is a function of them)
variable (V : (c : Dev nD) → (b : Ref sig .tc) → Buf (Elt Ideal) ((c : Thread nD τ).loc b))

/-- The block indices at point `t`: the three layer outputs and the result move down the rows with the point
    (block `t`, column block `0`); the weights and the bias stay at block `(0, 0)`. -/
theorem block_index_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- The grid has ten points. -/
theorem point_lt4 (t : Fin cfg4.N) : t.val < 10 := lt_of_lt_of_eq t.isLt N_4

/-- Row `p` of block `t` is row `5000 t + p` of the array. -/
def rowAt4 (t : Fin cfg4.N) (p : Fin 5000) : Fin 50000 :=
  ⟨5000 * t.val + p.val, by have := point_lt4 t; have := p.isLt; omega⟩

/-- The first layer's block at point `t`, entry `(p, k)`: row `5000 t + p` of the array. -/
theorem h1_block_apply (c : Dev nD) (t : Fin cfg4.N) (p : Fin 5000) (k : Fin 96) :
    (iblk4 V c 0 t : Vec Ideal S5000x96 .f32) (ix2 p k) = (V c main_v44_0 : S50000x96.Idx → EReal) (ix2 (rowAt4 t p) k) := by
  obtain ⟨e0, e1, -⟩ := block_index_facts4 t
  unfold iblk4
  rw [View.read_apply]
  show V c main_v44_0 _ = V c main_v44_0 _
  congr 1
  funext a
  apply Fin.ext
  match a with
  | ⟨0, _⟩ => show win4_0.index t (0 : Fin 2) * 5000 + 1 * p.val = 5000 * t.val + p.val; omega
  | ⟨1, _⟩ => show win4_0.index t (1 : Fin 2) * 96 + 1 * k.val = k.val; omega

/-- The second layer's block at point `t`, entry `(p, k)`: row `5000 t + p` of the array. -/
theorem h2_block_apply (c : Dev nD) (t : Fin cfg4.N) (p : Fin 5000) (k : Fin 96) :
    (iblk4 V c 1 t : Vec Ideal S5000x96 .f32) (ix2 p k) = (V c main_v59_0 : S50000x96.Idx → EReal) (ix2 (rowAt4 t p) k) := by
  obtain ⟨-, -, e0, e1, -⟩ := block_index_facts4 t
  unfold iblk4
  rw [View.read_apply]
  show V c main_v59_0 _ = V c main_v59_0 _
  congr 1
  funext a
  apply Fin.ext
  match a with
  | ⟨0, _⟩ => show win4_1.index t (0 : Fin 2) * 5000 + 1 * p.val = 5000 * t.val + p.val; omega
  | ⟨1, _⟩ => show win4_1.index t (1 : Fin 2) * 96 + 1 * k.val = k.val; omega

/-- The third layer's block at point `t`, entry `(p, k)`: row `5000 t + p` of the array. -/
theorem h3_block_apply (c : Dev nD) (t : Fin cfg4.N) (p : Fin 5000) (k : Fin 96) :
    (iblk4 V c 2 t : Vec Ideal S5000x96 .f32) (ix2 p k) = (V c main_v74 : S50000x96.Idx → EReal) (ix2 (rowAt4 t p) k) := by
  obtain ⟨-, -, -, -, e0, e1, -⟩ := block_index_facts4 t
  unfold iblk4
  rw [View.read_apply]
  show V c main_v74 _ = V c main_v74 _
  congr 1
  funext a
  apply Fin.ext
  match a with
  | ⟨0, _⟩ => show win4_2.index t (0 : Fin 2) * 5000 + 1 * p.val = 5000 * t.val + p.val; omega
  | ⟨1, _⟩ => show win4_2.index t (1 : Fin 2) * 96 + 1 * k.val = k.val; omega

/-- The first weight matrix is read whole at every point. -/
theorem w1_block_apply (c : Dev nD) (t : Fin cfg4.N) (k q : Fin 96) :
    (iblk4 V c 3 t : Vec Ideal S96x96 .f32) (ix2 k q) = (V c main_v75 : S96x96.Idx → EReal) (ix2 k q) := by
  obtain ⟨-, -, -, -, -, -, e0, e1, -⟩ := block_index_facts4 t
  unfold iblk4
  rw [View.read_apply]
  show V c main_v75 _ = V c main_v75 _
  congr 1
  funext a
  apply Fin.ext
  match a with
  | ⟨0, _⟩ => show win4_3.index t (0 : Fin 2) * 96 + 1 * k.val = k.val; omega
  | ⟨1, _⟩ => show win4_3.index t (1 : Fin 2) * 96 + 1 * q.val = q.val; omega

/-- The second weight matrix is read whole at every point. -/
theorem w2_block_apply (c : Dev nD) (t : Fin cfg4.N) (k q : Fin 96) :
    (iblk4 V c 4 t : Vec Ideal S96x96 .f32) (ix2 k q) = (V c main_v76 : S96x96.Idx → EReal) (ix2 k q) := by
  obtain ⟨-, -, -, -, -, -, -, -, e0, e1, -⟩ := block_index_facts4 t
  unfold iblk4
  rw [View.read_apply]
  show V c main_v76 _ = V c main_v76 _
  congr 1
  funext a
  apply Fin.ext
  match a with
  | ⟨0, _⟩ => show win4_4.index t (0 : Fin 2) * 96 + 1 * k.val = k.val; omega
  | ⟨1, _⟩ => show win4_4.index t (1 : Fin 2) * 96 + 1 * q.val = q.val; omega

/-- The third weight matrix is read whole at every point. -/
theorem w3_block_apply (c : Dev nD) (t : Fin cfg4.N) (k q : Fin 96) :
    (iblk4 V c 5 t : Vec Ideal S96x96 .f32) (ix2 k q) = (V c main_v77 : S96x96.Idx → EReal) (ix2 k q) := by
  obtain ⟨-, -, -, -, -, -, -, -, -, -, e0, e1, -⟩ := block_index_facts4 t
  unfold iblk4
  rw [View.read_apply]
  show V c main_v77 _ = V c main_v77 _
  congr 1
  funext a
  apply Fin.ext
  match a with
  | ⟨0, _⟩ => show win4_5.index t (0 : Fin 2) * 96 + 1 * k.val = k.val; omega
  | ⟨1, _⟩ => show win4_5.index t (1 : Fin 2) * 96 + 1 * q.val = q.val; omega

/-- The bias row is read whole at every point. -/
theorem bias_block_apply (c : Dev nD) (t : Fin cfg4.N) (q : Fin 96) :
    (iblk4 V c 6 t : Vec Ideal S1x96 .f32) (ix2 (0 : Fin 1) q) = (V c main_v78 : S1x96.Idx → EReal) (ix2 (0 : Fin 1) q) := by
  obtain ⟨-, -, -, -, -, -, -, -, -, -, -, -, e0, e1, -⟩ := block_index_facts4 t
  unfold iblk4
  rw [View.read_apply]
  show V c main_v78 _ = V c main_v78 _
  congr 1
  funext a
  apply Fin.ext
  match a with
  | ⟨0, _⟩ => show win4_6.index t (0 : Fin 2) * 1 + 1 * 0 = 0; omega
  | ⟨1, _⟩ => show win4_6.index t (1 : Fin 2) * 96 + 1 * q.val = q.val; omega

/-- Entry `(p, q)` of the result's block at point `t` sits at `(5000 t + p, q)` of the result array. -/
theorem out_block_entry (t : Fin cfg4.N) (p : Fin 5000) (q : Fin 96) :
    (((cfg4.win 7).blk t).view.emb (ix2 p q) : S50000x96.Idx) = ix2 (rowAt4 t p) q := by
  obtain ⟨-, -, -, -, -, -, -, -, -, -, -, -, -, -, e0, e1⟩ := block_index_facts4 t
  funext a
  apply Fin.ext
  match a with
  | ⟨0, _⟩ => show win4_7.index t (0 : Fin 2) * 5000 + 1 * p.val = 5000 * t.val + p.val; omega
  | ⟨1, _⟩ => show win4_7.index t (1 : Fin 2) * 96 + 1 * q.val = q.val; omega

/-! ## From blocks to the array -/

/-- What point `t` writes back is block `t` of the projection of the whole arrays: entry `(p, q)` of the body's
    result is the three partial products over row `5000 t + p` of the layers' outputs plus the bias at `q`, which is
    `Spec.jk3` at `(5000 t + p, q)`. -/
theorem written_block_eq4 (c : Dev nD) (t : Fin cfg4.N) :
    (dat4 V c).flushed 7 t = ((cfg4.win 7).blk t).view.read (Elt Ideal)
      (Cert.Spec.jk3 (V c main_v44_0) (V c main_v59_0) (V c main_v74) (V c main_v75) (V c main_v76) (V c main_v77) (Cert.Spec.rowOf (V c main_v78))) := by
  show (cfg4.win 7).cut (grid4.coords t) ((dat4 V c).after 7 t) = _
  rw [after4_7]
  unfold out4_7
  rw [View.canon_unit_zero zero_offsets4]
  simp only [View.ld_unit_zero (S := S5000x96) zero_offsets4, View.ld_unit_zero (S := S96x96) zero_offsets4, View.ld_unit_zero (S := S1x96) zero_offsets4]
  funext j
  obtain ⟨p, q, rfl⟩ : ∃ (p : Fin 5000) (q : Fin 96), j = ix2 p q := ⟨j 0, j 1, eq_ix2 j⟩
  show k4_pay1 (F := Ideal) (iblk4 V c 0 t) (iblk4 V c 1 t) (iblk4 V c 2 t) (iblk4 V c 3 t) (iblk4 V c 4 t) (iblk4 V c 5 t) (iblk4 V c 6 t) (ix2 p q)
    = Cert.Spec.jk3 (V c main_v44_0) (V c main_v59_0) (V c main_v74) (V c main_v75) (V c main_v76) (V c main_v77) (Cert.Spec.rowOf (V c main_v78)) (((cfg4.win 7).blk t).view.emb (ix2 p q))
  refine (projection_apply (iblk4 V c 0 t) (iblk4 V c 1 t) (iblk4 V c 2 t) (iblk4 V c 3 t) (iblk4 V c 4 t) (iblk4 V c 5 t) (iblk4 V c 6 t) p q).trans ?_
  rw [out_block_entry t p q, Cert.Spec.jk3_apply, Cert.Spec.rowOf_apply, bias_block_apply V c t q]
  simp only [h1_block_apply V c t p, h2_block_apply V c t p, h3_block_apply V c t p, w1_block_apply V c t, w2_block_apply V c t, w3_block_apply V c t]

/-- An index of the result array is in point `t`'s block iff each coordinate is in the block's range on its axis. -/
theorem mem_out_block4 (t : Fin cfg4.N) (i : S50000x96.Idx) :
    i ∈ ((cfg4.win 7).blk t).view.set ↔ ∀ a : Fin 2, win4_7.index t a * S5000x96.size a ≤ (i a).val ∧ (i a).val < win4_7.index t a * S5000x96.size a + S5000x96.size a := by
  show i ∈ ((View.whole main_v79).slice (win4_7.rect t)).set ↔ _
  rw [View.set_slice_whole, Rect.mem_set_unit]
  exact Iff.rfl

/-- The ten row blocks tile the result: row `r` lies in the block of point `r / 5000`, and every point writes back. -/
theorem out_blocks_cover4 (i : S50000x96.Idx) :
    ∃ t : Fin cfg4.N, (cfg4.win 7).flush t = true ∧ i ∈ ((cfg4.win 7).blk t).view.set := by
  have hi0 : (i 0).val < 50000 := (i 0).isLt
  have hi1 : (i 1).val < 96 := (i 1).isLt
  have hN : cfg4.N = 10 := N_4
  let t : Fin cfg4.N := ⟨(i 0).val / 5000, by rw [hN]; omega⟩
  obtain ⟨-, -, -, -, -, -, -, -, -, -, -, -, -, -, e0, e1⟩ := block_index_facts4 t
  have ht : t.val = (i 0).val / 5000 := rfl
  refine ⟨t, flush4_7 t, ?_⟩
  rw [mem_out_block4]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 96 ≤ (i 1).val ∧ (i 1).val < win4_7.index t (1 : Fin 2) * 96 + 96; omega

/-- The result array after the region: the jumping-knowledge projection of the arrays the region found. -/
theorem final4 (c : Dev nD) : (dat4 V c).arrAt 7 cfg4.N = Cert.Spec.jk3 (V c main_v44_0) (V c main_v59_0) (V c main_v74) (V c main_v75) (V c main_v76) (V c main_v77) (Cert.Spec.rowOf (V c main_v78)) :=
  (dat4 V c).arrAt_eq_of_cover 7 _ (fun t _ => written_block_eq4 V c t) out_blocks_cover4

end Cert.KernelIdeal.KVal

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.KReg5.lean ====
/-
  Region 5, the sum pooling: what its output array holds after the run.

  The grid has 25 points. At point `t` the body sees rows `2000 t … 2000 t + 1999` of the node features (a
  `2000 × 96` block) and of the graph numbers (a `2000 × 1` block of 32-bit words), and ONE `512 × 96` output block, the
  same at every point, carried from point to point and written back after the last. At the first point the body
  stores the zero block; at every point it then adds to the block the product of the transposed one-hot matrix of the
  graph numbers (entry `(r, g)` is one when the graph number of row `r`, read signed, is `g`, and zero otherwise) with
  the feature block, the product contracting the 2000 rows. Over the extended reals that product's entry `(g, q)` is
  the sum of the features `(r, q)` of the block's rows `r` whose graph number is `g`.

  So after point `n` entry `(g, q)` of the block is the sum over the blocks `0 … n` of those block sums (induction on
  the point), after point 24 it is the sum over all 50000 rows taken block by block, which is the pooled matrix, and
  the one write-back puts it in the output array, whose one block is the whole array. Only `0 + x = x`, `1 * x = x`,
  `0 * x = 0` and the re-bracketing of a finite sum are used.
-/
import proofs.«405868_j2388001817260_1_alg».proof.Proof.Gen.KernelIdeal.Frame
import proofs.«405868_j2388001817260_1_alg».proof.Proof.Spec
import proofs.«405868_j2388001817260_1_alg».proof.Proof.LibBlockSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

namespace Region5

/-! ## What each case of the body leaves in the output block -/

section Pieces
variable {F : FTy → Type} [FloatOps F]

/-- The block offsets of a whole-block access are all zero. -/
theorem hz5 : (![0, 0] : Fin 2 → Nat) = fun _ => 0 := funext fun a => by fin_cases a <;> rfl

/-- A point after the first: the output block held `xo2`; the body's one store covers the block with the update of
    `xo2` by the graph numbers `x1` and the feature rows `x0` of the point's blocks. -/
theorem piece5_B (c : Dev nD) (i : grid5.Coords) (a1 : Memref sig .tc .vmem S2000x96 .f32) (h1 : a1.IsWhole)
    (a2 : Memref sig .tc .vmem S2000x1 .i32) (h2 : a2.IsWhole) (a3 : Memref sig .tc .vmem S512x96 .f32) (h3 : a3.IsWhole)
    (hc : ¬cond5_0 i) (x0 : Vec F S2000x96 .f32) (x1 : Vec F S2000x1 .i32) (xo2 : Vec F S512x96 .f32) :
    out5_B_2 c i a1 h1 a2 h2 a3 h3 hc x0 x1 xo2 = k5_pay2 x1 x0 xo2 := by
  unfold out5_B_2
  rw [View.read_writes_eq_canon _ _ _ (cover5_B_2 c i a1 h1 a2 h2 a3 h3 hc x0 x1 xo2)]
  unfold kernelRun5_B
  dsimp only
  sl_unfold_words
  rw [View.canon_unit_zero hz5]
  simp only [View.readAt_eq_ld, h1.read_unread, h2.read_unread, h3.read_unread, View.ld_unit_zero (S := S2000x96) hz5,
    View.ld_unit_zero (S := S2000x1) hz5, View.ld_unit_zero (S := S512x96) hz5]

/-- The first point: the body stores the zero block over the whole output block, reads it back, and stores the update
    of that zero block; the later store covers the block. -/
theorem piece5_A (c : Dev nD) (i : grid5.Coords) (a1 : Memref sig .tc .vmem S2000x96 .f32) (h1 : a1.IsWhole)
    (a2 : Memref sig .tc .vmem S2000x1 .i32) (h2 : a2.IsWhole) (a3 : Memref sig .tc .vmem S512x96 .f32) (h3 : a3.IsWhole)
    (hc : cond5_0 i) (x0 : Vec F S2000x96 .f32) (x1 : Vec F S2000x1 .i32) :
    out5_A_2 c i a1 h1 a2 h2 a3 h3 hc x0 x1 = k5_pay2 x1 x0 (k5_pay1 (F := F)) := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S512x96) hz5, View.readCov_unit_zero (S := S512x96) _ hz5]
  simp only [View.readAt_eq_ld, h1.read_unread, h2.read_unread, View.ld_unit_zero (S := S2000x96) hz5,
    View.ld_unit_zero (S := S2000x1) hz5]

end Pieces

/-! ## The product that contracts the rows of both operands -/

/-- The left operand's row coordinate is the contraction index. -/
theorem lhs_pool_0 (i : S512x96.Idx) (q : dot_S2000x512_S2000x96_S512x96_0_0_1_1_n_n.contr.Idx) :
    (dot_S2000x512_S2000x96_S512x96_0_0_1_1_n_n.lhsIdx i q 0).val = (q ⟨0, by decide⟩).val :=
  dot_S2000x512_S2000x96_S512x96_0_0_1_1_n_n.lhsIdx_val_of_single rfl i q
/-- The left operand's column coordinate is the result's row. -/
theorem lhs_pool_1 (i : S512x96.Idx) (q : dot_S2000x512_S2000x96_S512x96_0_0_1_1_n_n.contr.Idx) :
    (dot_S2000x512_S2000x96_S512x96_0_0_1_1_n_n.lhsIdx i q 1).val = (i 0).val := by
  unfold DotDims.lhsIdx
  rw [dif_neg (show ¬(1 : Fin S2000x512.rank) ∈ dot_S2000x512_S2000x96_S512x96_0_0_1_1_n_n.lhsBatch by decide), dif_pos (show (1 : Fin S2000x512.rank) ∈ dot_S2000x512_S2000x96_S512x96_0_0_1_1_n_n.lhsNonContracting by decide)]
  rfl
/-- The right operand's row coordinate is the contraction index. -/
theorem rhs_pool_0 (i : S512x96.Idx) (q : dot_S2000x512_S2000x96_S512x96_0_0_1_1_n_n.contr.Idx) :
    (dot_S2000x512_S2000x96_S512x96_0_0_1_1_n_n.rhsIdx i q 0).val = (q ⟨0, by decide⟩).val :=
  dot_S2000x512_S2000x96_S512x96_0_0_1_1_n_n.rhsIdx_val_of_single rfl i q
/-- The right operand's column coordinate is the result's column. -/
theorem rhs_pool_1 (i : S512x96.Idx) (q : dot_S2000x512_S2000x96_S512x96_0_0_1_1_n_n.contr.Idx) :
    (dot_S2000x512_S2000x96_S512x96_0_0_1_1_n_n.rhsIdx i q 1).val = (i 1).val := by
  unfold DotDims.rhsIdx
  rw [dif_neg (show ¬(1 : Fin S2000x96.rank) ∈ dot_S2000x512_S2000x96_S512x96_0_0_1_1_n_n.rhsBatch by decide), dif_pos (show (1 : Fin S2000x96.rank) ∈ dot_S2000x512_S2000x96_S512x96_0_0_1_1_n_n.rhsNonContracting by decide)]
  rfl

/-- Entry `(g, c)` of the product of the transposed `2000 × 512` left operand with the `2000 × 96` right operand, into
    the zero accumulator: the sum over the 2000 rows `r` of `l (r, g) * x (r, c)`. -/
theorem rowsProduct_apply {φ₁ φ₂ : FTy} (l : FVec Ideal S2000x512 φ₁) (x : FVec Ideal S2000x96 φ₂) (g : Fin 512) (c : Fin 96) :
    matmul dot_S2000x512_S2000x96_S512x96_0_0_1_1_n_n none l x (constant S512x96 .f32 0x00000000#32) (ix2 g c)
      = ∑ r : Fin 2000, l (ix2 r g) * x (ix2 r c) := by
  show FloatOps.matmul dot_S2000x512_S2000x96_S512x96_0_0_1_1_n_n none l x (constant S512x96 .f32 0x00000000#32) (ix2 g c) = _
  rw [Ideal.matmul_constant_zero_apply, ← Equiv.sum_comp (contrEquiv1 dot_S2000x512_S2000x96_S512x96_0_0_1_1_n_n 2000 rfl rfl).symm]
  refine Finset.sum_congr rfl fun r _ => ?_
  have hr := contrEquiv1_symm_val dot_S2000x512_S2000x96_S512x96_0_0_1_1_n_n 2000 rfl rfl r
  have el : dot_S2000x512_S2000x96_S512x96_0_0_1_1_n_n.lhsIdx (ix2 g c) ((contrEquiv1 dot_S2000x512_S2000x96_S512x96_0_0_1_1_n_n 2000 rfl rfl).symm r) = ix2 r g := funext fun a => Fin.ext (by
    match a with
    | ⟨0, _⟩ => exact (lhs_pool_0 _ _).trans hr
    | ⟨1, _⟩ => exact lhs_pool_1 _ _)
  have er : dot_S2000x512_S2000x96_S512x96_0_0_1_1_n_n.rhsIdx (ix2 g c) ((contrEquiv1 dot_S2000x512_S2000x96_S512x96_0_0_1_1_n_n 2000 rfl rfl).symm r) = ix2 r c := funext fun a => Fin.ext (by
    match a with
    | ⟨0, _⟩ => exact (rhs_pool_0 _ _).trans hr
    | ⟨1, _⟩ => exact rhs_pool_1 _ _)
  rw [el, er]

/-! ## The one-hot word -/

/-- The comparison of the word of a row number `g` below `2 ^ 31` with a word `b`, widened to 32 bits and converted:
    one when `b`, read signed, is `g`, zero otherwise. -/
theorem onehot_word (b : BitVec 32) (g : Nat) (hg : g < 2 ^ 31) :
    (FloatOps.sitofp (F := Ideal) .f32 ((IntOp.cmpi .eq (BitVec.ofNat 32 g) b).setWidth 32) : EReal)
      = if b.toInt = (g : Int) then 1 else 0 := by
  show (((((IntOp.cmpi .eq (BitVec.ofNat 32 g) b).setWidth 32).toInt : Int) : ℝ) : EReal) = _
  by_cases h : b = BitVec.ofNat 32 g
  · rw [if_pos ((Cert.LibBlockSum.eq_ofNat_iff_toInt_eq b g hg).mp h)]
    subst h
    have e : IntOp.cmpi .eq (BitVec.ofNat 32 g) (BitVec.ofNat 32 g) = 1#1 := by simp [IntOp.cmpi]
    rw [e]
    norm_num
  · rw [if_neg (fun h' => h ((Cert.LibBlockSum.eq_ofNat_iff_toInt_eq b g hg).mpr h'))]
    have hb : (BitVec.ofNat 32 g == b) = false := beq_eq_false_iff_ne.mpr fun h' => h h'.symm
    have e : IntOp.cmpi .eq (BitVec.ofNat 32 g) b = 0#1 := by
      show BitVec.ofBool (BitVec.ofNat 32 g == b) = 0#1
      rw [hb]
      rfl
    rw [e]
    norm_num

/-! ## The update of the output block, entry by entry -/

/-- The column-number word at `(r, g)` is the word of `g`. -/
theorem colNumber_apply (h : S2000x512.Iotas .tc 32 [1]) (r : Fin 2000) (g : Fin 512) :
    iota .tc S2000x512 32 [1] h (ix2 r g) = BitVec.ofNat 32 g.val := by
  show BitVec.ofNat 32 (0 * 512 + g.val) = _
  rw [Nat.zero_mul, Nat.zero_add]

/-- The graph-number column laid along the 512 columns reads, at `(r, g)`, the graph number of row `r`. -/
theorem graphCol_apply (x1 : IVec S2000x1 32) (h : S2000x1.Broadcasts S2000x512) (r : Fin 2000) (g : Fin 512) :
    broadcastTo S2000x512 x1 h (ix2 r g) = x1 (ix2 r (0 : Fin 1)) :=
  broadcastTo_apply x1 h (ix2 r g) (ix2 r (0 : Fin 1)) (fun a => match a with
    | ⟨0, _⟩ => by show r.val = if (2000 : Nat) = 1 then 0 else r.val; rw [if_neg (by decide)]
    | ⟨1, _⟩ => by show (0 : Nat) = if (1 : Nat) = 1 then 0 else g.val; rw [if_pos rfl])

/-- Entry `(r, g)` of the one-hot matrix: one when the graph number of row `r`, read signed, is `g`, zero otherwise. -/
theorem onehot_apply (x1 : IVec S2000x1 32) (hi : S2000x512.Iotas .tc 32 [1]) (hc : S2000x1.ShapeCasts S2000x1)
    (hb : S2000x1.Broadcasts S2000x512) (hw : 1 < 32) (hf : FTy.bits .bf16 < FTy.bits .f32) (r : Fin 2000) (g : Fin 512) :
    (truncf .bf16 (sitofp (F := Ideal) .f32 (extui 32 (cmpi .eq (iota .tc S2000x512 32 [1] hi)
        (broadcastTo S2000x512 (shapeCast S2000x1 x1 hc) hb)) hw)) hf : FVec Ideal S2000x512 .bf16) (ix2 r g)
      = if (x1 (ix2 r (0 : Fin 1))).toInt = (g.val : Int) then 1 else 0 := by
  show FloatOps.sitofp (F := Ideal) .f32 ((IntOp.cmpi .eq (iota .tc S2000x512 32 [1] hi (ix2 r g))
    (broadcastTo S2000x512 (shapeCast S2000x1 x1 hc) hb (ix2 r g))).setWidth 32) = _
  rw [colNumber_apply, shapeCast_self, graphCol_apply]
  exact onehot_word _ _ (by have := g.isLt; omega)

/-- One term of the product: the one-hot entry `(r, g)` times the feature `(r, c)` is that feature when the graph number
    of row `r` is `g`, and zero otherwise. -/
theorem onehot_mul_apply (x1 : IVec S2000x1 32) (x0 : FVec Ideal S2000x96 .f32) (hi : S2000x512.Iotas .tc 32 [1])
    (hc : S2000x1.ShapeCasts S2000x1) (hb : S2000x1.Broadcasts S2000x512) (hw : 1 < 32)
    (hf : FTy.bits .bf16 < FTy.bits .f32) (hs : S2000x96.ShapeCasts S2000x96) (r : Fin 2000) (g : Fin 512) (c : Fin 96) :
    (truncf .bf16 (sitofp (F := Ideal) .f32 (extui 32 (cmpi .eq (iota .tc S2000x512 32 [1] hi)
        (broadcastTo S2000x512 (shapeCast S2000x1 x1 hc) hb)) hw)) hf : FVec Ideal S2000x512 .bf16) (ix2 r g)
      * (truncf .bf16 (shapeCast S2000x96 x0 hs) hf : FVec Ideal S2000x96 .bf16) (ix2 r c)
      = if (x1 (ix2 r (0 : Fin 1))).toInt = (g.val : Int) then x0 (ix2 r c) else 0 := by
  rw [onehot_apply, shapeCast_self]
  exact Cert.LibBlockSum.ite_one_zero_mul _ _

/-- The update at entry `(g, c)`: what the block held there, plus the sum over the point's 2000 rows of the feature
    `(r, c)` of every row `r` whose graph number is `g`. -/
theorem poolUpdate_apply (x1 : IVec S2000x1 32) (x0 : FVec Ideal S2000x96 .f32) (acc : FVec Ideal S512x96 .f32)
    (g : Fin 512) (c : Fin 96) :
    k5_pay2 (F := Ideal) x1 x0 acc (ix2 g c)
      = acc (ix2 g c) + ∑ r : Fin 2000, (if (x1 (ix2 r (0 : Fin 1))).toInt = (g.val : Int) then x0 (ix2 r c) else 0) := by
  unfold k5_pay2
  dsimp only
  refine (addf_apply _ _ _).trans ?_
  refine congrArg₂ (· + ·) (congrFun (shapeCast_self acc _) _) ?_
  refine (rowsProduct_apply _ _ g c).trans (Finset.sum_congr rfl fun r _ => ?_)
  exact onehot_mul_apply x1 x0 _ _ _ _ _ _ r g c

/-- The zero block is zero at every entry. -/
theorem zeroBlock_apply (i : S512x96.Idx) : (k5_pay1 (F := Ideal)) i = 0 := Ideal.ofBits_zero_f32

/-! ## The running sum over the grid -/

-- the TensorCore's buffer contents when the region is entered (any contents: the region's result is a function of them)
variable (V : (c : Dev nD) → (b : Ref sig .tc) → Buf (Elt Ideal) ((c : Thread nD τ).loc b))

/-- The grid has 25 points. -/
theorem points5 : cfg5.N = 25 := N_5

/-- The feature rows' block at point `t` is block `(t, 0)`, the graph numbers' likewise, and the output's block is
    `(0, 0)` at every point: decided over the grid. -/
theorem featIndex5 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)
theorem gnumIndex5 : ∀ t : Fin cfg5.N, win5_1.index t (0 : Fin 2) = t.val ∧ win5_1.index t (1 : Fin 2) = 0 :=
  (by decide +kernel : ∀ t : Fin grid5.N, win5_1.index t (0 : Fin 2) = t.val ∧ win5_1.index t (1 : Fin 2) = 0)
theorem outIndex5 : ∀ t : Fin cfg5.N, win5_2.index t (0 : Fin 2) = 0 ∧ win5_2.index t (1 : Fin 2) = 0 :=
  (by decide +kernel : ∀ t : Fin grid5.N, win5_2.index t (0 : Fin 2) = 0 ∧ win5_2.index t (1 : Fin 2) = 0)

/-- The node features and the graph numbers as the region finds them, and their blocks at a point. -/
abbrev feat (c : Dev nD) : FVec Ideal S50000x96 .f32 := V c main_v79
abbrev gnum (c : Dev nD) : IVec S50000x1 32 := V c main_v80
abbrev featBlk (c : Dev nD) (t : Fin cfg5.N) : FVec Ideal S2000x96 .f32 := iblk5 V c 0 t
abbrev gnumBlk (c : Dev nD) (t : Fin cfg5.N) : IVec S2000x1 32 := iblk5 V c 1 t

/-- Row `r` of block `t` of the 50000 rows cut into 25 blocks of 2000: the row `2000 t + r`. -/
abbrev rowOfBlock (t : Fin 25) (r : Fin 2000) : Fin 50000 :=
  Cert.LibBlockSum.blockIdx (B := 25) (R := 2000) (N := 50000) (by norm_num) t r

/-- Entry `(r, q)` of the feature block at point `t` is entry `(2000 t + r, q)` of the features. -/
theorem featBlk_apply (c : Dev nD) (t : Fin cfg5.N) (ht : t.val < 25) (r : Fin 2000) (q : Fin 96) :
    featBlk V c t (ix2 r q) = feat V c (ix2 (rowOfBlock ⟨t.val, ht⟩ r) q) := by
  show iblk5 V c 0 t (ix2 r q) = _
  unfold iblk5
  rw [View.read_apply]
  show V c main_v79 _ = V c main_v79 _
  refine congrArg (V c main_v79) (funext fun a => Fin.ext ?_)
  match a with
  | ⟨0, _⟩ => show win5_0.index t 0 * 2000 + 1 * r.val = 2000 * t.val + r.val; rw [(featIndex5 t).1]; omega
  | ⟨1, _⟩ => show win5_0.index t 1 * 96 + 1 * q.val = q.val; rw [(featIndex5 t).2]; omega

/-- Entry `(r, 0)` of the graph-number block at point `t` is the graph number of row `2000 t + r`. -/
theorem gnumBlk_apply (c : Dev nD) (t : Fin cfg5.N) (ht : t.val < 25) (r : Fin 2000) :
    gnumBlk V c t (ix2 r (0 : Fin 1)) = gnum V c (ix2 (rowOfBlock ⟨t.val, ht⟩ r) (0 : Fin 1)) := by
  show iblk5 V c 1 t (ix2 r (0 : Fin 1)) = _
  unfold iblk5
  rw [View.read_apply]
  show V c main_v80 _ = V c main_v80 _
  refine congrArg (V c main_v80) (funext fun a => Fin.ext ?_)
  match a with
  | ⟨0, _⟩ => show win5_1.index t 0 * 2000 + 1 * r.val = 2000 * t.val + r.val; rw [(gnumIndex5 t).1]; omega
  | ⟨1, _⟩ => show win5_1.index t 1 * 1 + 1 * 0 = 0; rw [(gnumIndex5 t).2]

/-- What block `t` of the rows adds to entry `(g, q)` of the pooled matrix: the features `(n, q)` of the rows `n` of the
    block whose graph number is `g`, summed; nothing for a number that is no block of the grid. -/
def blockTerm (c : Dev nD) (g : Fin 512) (q : Fin 96) (t : ℕ) : EReal :=
  if ht : t < 25 then
    ∑ r : Fin 2000, (if (gnum V c (ix2 (rowOfBlock ⟨t, ht⟩ r) (0 : Fin 1))).toInt = (g.val : Int)
      then feat V c (ix2 (rowOfBlock ⟨t, ht⟩ r) q) else 0)
  else 0

/-- The update at point `t` adds block `t`'s term to every entry. -/
theorem update_apply (c : Dev nD) (t : Fin cfg5.N) (acc : FVec Ideal S512x96 .f32) (g : Fin 512) (q : Fin 96) :
    k5_pay2 (F := Ideal) (gnumBlk V c t) (featBlk V c t) acc (ix2 g q) = acc (ix2 g q) + blockTerm V c g q t.val := by
  have ht : t.val < 25 := lt_of_lt_of_eq t.isLt points5
  refine (poolUpdate_apply (gnumBlk V c t) (featBlk V c t) acc g q).trans ?_
  unfold blockTerm
  rw [dif_pos ht]
  refine congrArg (acc (ix2 g q) + ·) (Finset.sum_congr rfl fun r _ => ?_)
  rw [gnumBlk_apply V c t ht r, featBlk_apply V c t ht r q]

/-- THE INVARIANT. After point `n` entry `(g, q)` of the output block holds the terms of the blocks `0 … n`, summed in
    that order: the first point starts from the zero block, every later point adds its block's term to what the point
    before left. By induction on the point. -/
theorem outsAt5_apply (c : Dev nD) : ∀ (n : ℕ) (hn : n < cfg5.N) (g : Fin 512) (q : Fin 96),
    outsAt5 V c n hn (ix2 g q) = ∑ t ∈ Finset.range (n + 1), blockTerm V c g q t
  | 0, hn, g, q => by
    rw [outsAt5_A V c ⟨0, hn⟩ rfl]
    refine (congrFun (piece5_A (F := Ideal) c (grid5.coords ⟨0, hn⟩) (ms5_0 ⟨0, hn⟩) (hs5_0 ⟨0, hn⟩) (ms5_1 ⟨0, hn⟩) (hs5_1 ⟨0, hn⟩)
      (ms5_2 ⟨0, hn⟩) (hs5_2 ⟨0, hn⟩) ((hcond5_0 ⟨0, hn⟩).mpr rfl) (featBlk V c ⟨0, hn⟩) (gnumBlk V c ⟨0, hn⟩)) (ix2 g q)).trans ?_
    refine (update_apply V c ⟨0, hn⟩ (k5_pay1 (F := Ideal)) g q).trans ?_
    rw [zeroBlock_apply, zero_add, Finset.sum_range_one]
  | n + 1, hn, g, q => by
    have hN : cfg5.N = 25 := points5
    have hB : ¬(⟨n + 1, hn⟩ : Fin cfg5.N).val % 25 = 0 := by dsimp only; omega
    rw [outsAt5_B V c ⟨n + 1, hn⟩ hB]
    refine (congrFun (piece5_B (F := Ideal) c (grid5.coords ⟨n + 1, hn⟩) (ms5_0 ⟨n + 1, hn⟩) (hs5_0 ⟨n + 1, hn⟩) (ms5_1 ⟨n + 1, hn⟩)
      (hs5_1 ⟨n + 1, hn⟩) (ms5_2 ⟨n + 1, hn⟩) (hs5_2 ⟨n + 1, hn⟩) (fun h => hB ((hcond5_0 ⟨n + 1, hn⟩).mp h)) (featBlk V c ⟨n + 1, hn⟩)
      (gnumBlk V c ⟨n + 1, hn⟩) (outsAt5 V c n (Nat.lt_of_succ_lt hn))) (ix2 g q)).trans ?_
    refine (update_apply V c ⟨n + 1, hn⟩ (outsAt5 V c n (Nat.lt_of_succ_lt hn)) g q).trans ?_
    rw [outsAt5_apply c n (Nat.lt_of_succ_lt hn) g q, Finset.sum_range_succ (fun t => blockTerm V c g q t) (n + 1)]

/-! ## The array after the run -/

/-- The pooled matrix: row `g` the sum of the feature rows whose graph number is `g`. -/
abbrev pooled (c : Dev nD) : FVec Ideal S512x96 .f32 :=
  Cert.Spec.pool 512 (V c main_v79) (Cert.Spec.flatCol (V c main_v80))

/-- After the last point the output block holds the pooled matrix: the 25 blocks' terms are the sum over all 50000 rows,
    taken block by block. -/
theorem lastPoint_eq (c : Dev nD) (hn : 24 < cfg5.N) : outsAt5 V c 24 hn = pooled V c := by
  funext i
  obtain ⟨g, q, rfl⟩ : ∃ (g : Fin 512) (q : Fin 96), i = ix2 g q := ⟨i 0, i 1, eq_ix2 i⟩
  refine (outsAt5_apply V c 24 hn g q).trans ?_
  show ∑ t ∈ Finset.range 25, blockTerm V c g q t = Cert.Spec.pool 512 (V c main_v79) (Cert.Spec.flatCol (V c main_v80)) (ix2 g q)
  rw [Cert.Spec.pool_apply, Cert.LibBlockSum.sum_blocks (B := 25) (R := 2000) (N := 50000) (by norm_num), Finset.sum_range]
  refine Finset.sum_congr rfl fun t _ => ?_
  unfold blockTerm
  rw [dif_pos t.isLt]
  rfl

/-- The last point of the grid, the one after which the output block is written back. -/
abbrev lastPoint5 : Fin cfg5.N := ⟨24, lt_of_lt_of_eq (by decide : 24 < 25) points5.symm⟩

/-- The one write-back, after point 24, writes the pooled matrix: the output's one block is the whole array. -/
theorem flushed5_eq (c : Dev nD) (t : Fin cfg5.N) (hf : (cfg5.win 2).flush t = true) :
    (dat5 V c).flushed 2 t = ((cfg5.win 2).blk t).view.read (Elt Ideal) (pooled V c) := by
  have hN : cfg5.N = 25 := points5
  have h24 : t.val = 24 := by have := (flush5_2 t).mp hf; have := t.isLt; omega
  obtain rfl : t = lastPoint5 := Fin.ext h24
  show (cfg5.win 2).cut (grid5.coords lastPoint5) ((dat5 V c).after 2 lastPoint5) = _
  rw [after5_2, lastPoint_eq]
  have hz' : (fun a => win5_2.index lastPoint5 a * main_v81.ty.shape.size a) = fun _ => 0 := funext fun a => by
    match a with
    | ⟨0, _⟩ => show win5_2.index lastPoint5 0 * 512 = 0; rw [(outIndex5 lastPoint5).1]
    | ⟨1, _⟩ => show win5_2.index lastPoint5 1 * 96 = 0; rw [(outIndex5 lastPoint5).2]
  exact (Memref.read_access_unit_zero (Elt Ideal) main_v81 hz' (fun a => by rw [congrFun hz' a]; simp) (pooled V c)).symm

/-- The output array after the run: every entry lies in the one block, which the last point writes back. -/
theorem arrAt_final (c : Dev nD) : (dat5 V c).arrAt 2 cfg5.N = pooled V c :=
  (dat5 V c).arrAt_eq_of_cover 2 (pooled V c) (flushed5_eq V c) fun i =>
    ⟨lastPoint5, (flush5_2 lastPoint5).mpr rfl, by
      show i ∈ ((View.whole main_v81).slice (win5_2.rect lastPoint5)).set
      rw [View.set_slice_whole, Rect.mem_set_unit]
      intro a
      have h0 : (i 0 : Nat) < 512 := (i 0).isLt
      have h1 : (i 1 : Nat) < 96 := (i 1).isLt
      match a with
      | ⟨0, _⟩ => show win5_2.index lastPoint5 0 * win5_2.size 0 ≤ (i 0 : Nat) ∧ (i 0 : Nat) < win5_2.index lastPoint5 0 * win5_2.size 0 + win5_2.xsize (grid5.coords lastPoint5) 0
                  rw [(outIndex5 lastPoint5).1, show win5_2.xsize (grid5.coords lastPoint5) 0 = 512 from by decide +kernel]; omega
      | ⟨1, _⟩ => show win5_2.index lastPoint5 1 * win5_2.size 1 ≤ (i 1 : Nat) ∧ (i 1 : Nat) < win5_2.index lastPoint5 1 * win5_2.size 1 + win5_2.xsize (grid5.coords lastPoint5) 1
                  rw [(outIndex5 lastPoint5).2, show win5_2.xsize (grid5.coords lastPoint5) 1 = 96 from by decide +kernel]; omega⟩

end Region5

-- the TensorCore's buffer contents when the region is entered (any contents: the region's result is a function of them)
variable (V : (c : Dev nD) → (b : Ref sig .tc) → Buf (Elt Ideal) ((c : Thread nD τ).loc b))

/-- After region 5 its output array holds the pooled matrix of 512 rows: row `g` the sum of the feature rows whose
    graph number is `g`. -/
theorem final5 (c : Dev nD) : (dat5 V c).arrAt 2 cfg5.N = Cert.Spec.pool 512 (V c main_v79) (Cert.Spec.flatCol (V c main_v80)) :=
  Region5.arrAt_final V c

end Cert.KernelIdeal.KVal

end
-- ==== Proof.KReg6.lean ====
/-
  Region 6: the two-layer perceptron on the pooled matrix.

  The region has one grid point and every window is its whole array: the 512 × 96 pooled matrix, the two weight
  matrices (96 × 96 and 96 × 64), the two biases as 1 × 96 and 1 × 64 matrices, and the 512 × 64 result. The body
  computes, in one term, the first product, adds the first bias to every row, takes the positive part, multiplies by
  the second weight matrix and adds the second bias to every row. Over the extended reals the narrowing of the
  operands before each product is the identity and a product into the zero accumulator is the exact sum over the
  contraction index, so the term is `Spec.mlp` of its five operands, entry by entry.

  From the block to the array: at the one point every window's block index is zero on both axes, so an element of a
  block sits in its array at its own coordinates (block index × block size + coordinate); each input block is its
  array, what the point writes back is the result read through the output's block, and that one block covers the
  output array.
-/
import proofs.«405868_j2388001817260_1_alg».proof.Proof.Gen.KernelIdeal.Frame
import proofs.«405868_j2388001817260_1_alg».proof.Proof.Spec
import proofs.«405868_j2388001817260_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-! ## The body's term is the perceptron -/

/-- A `1 × N` bias broadcast to `R` rows, read at entry `(p, q)`, is the bias at `q`: the operand's row axis has
    extent one and is read at `0`, its column axis is read at `q` (when `N` is one too, `q` is `0`). -/
theorem bias_row6 {R N : Nat} (b : FVec Ideal (⟨2, ![1, N]⟩ : Shape) .f32) (h : (⟨2, ![1, N]⟩ : Shape).Broadcasts ⟨2, ![R, N]⟩)
    (p : Fin R) (q : Fin N) :
    broadcastTo (⟨2, ![R, N]⟩ : Shape) b h (ix2 p q) = Cert.Spec.rowOf b (ix1 q) := by
  refine broadcastTo_apply b h (ix2 p q) (ix2 (0 : Fin 1) q) fun a => ?_
  match a with
  | ⟨0, _⟩ => rfl
  | ⟨1, _⟩ =>
    show (q : Nat) = if N = 1 then 0 else (q : Nat)
    have := q.isLt
    split <;> omega

/-- The hidden layer: the product of the pooled matrix with the first weights into the zero accumulator, the first
    bias added to every row, the maximum with zero. The operands' narrowing is the identity, the product is the sum
    over the 96 columns, the zero word is the real zero. -/
theorem hidden6 (x0 : FVec Ideal S512x96 .f32) (x1 : FVec Ideal S96x96 .f32) (x2 : FVec Ideal S1x96 .f32) :
    maximumf (addf (matmul dot_S512x96_S96x96_S512x96_1_0_0_1_n_n none (truncf .bf16 x0 bitsLt_bf16_f32) (truncf .bf16 x1 bitsLt_bf16_f32) (constant S512x96 .f32 0x00000000#32))
        (broadcastTo S512x96 x2 broadcasts_S1x96_S512x96)) (broadcast S512x96 (Scalar.ofBits .f32 0x00000000#32))
      = Cert.Spec.biasRelu (Cert.Spec.mm x0 x1) (Cert.Spec.rowOf x2) := by
  funext j
  obtain ⟨p, k, rfl⟩ : ∃ (p : Fin 512) (k : Fin 96), j = ix2 p k := ⟨j 0, j 1, eq_ix2 j⟩
  rw [Cert.Spec.biasRelu_apply, Cert.Spec.mm_apply, maximumf_apply, addf_apply, broadcast_apply,
    Cert.LibDot.matmul_zero_apply _ rfl rfl rfl rfl rfl rfl, bias_row6, Ideal.ofBits_def, Ideal.ofBits_zero_f32]
  rfl

/-- The output layer: the product of a hidden matrix `H` with the second weights into the zero accumulator, the
    second bias added to every row. -/
theorem outer6 (H : FVec Ideal S512x96 .f32) (x3 : FVec Ideal S96x64 .f32) (x4 : FVec Ideal S1x64 .f32) :
    addf (matmul dot_S512x96_S96x64_S512x64_1_0_0_1_n_n none (truncf .bf16 H bitsLt_bf16_f32) (truncf .bf16 x3 bitsLt_bf16_f32) (constant S512x64 .f32 0x00000000#32))
        (broadcastTo S512x64 x4 broadcasts_S1x64_S512x64)
      = Cert.Spec.addBias (Cert.Spec.mm H x3) (Cert.Spec.rowOf x4) := by
  funext j
  obtain ⟨p, q, rfl⟩ : ∃ (p : Fin 512) (q : Fin 64), j = ix2 p q := ⟨j 0, j 1, eq_ix2 j⟩
  rw [Cert.Spec.addBias_apply, Cert.Spec.mm_apply, addf_apply, Cert.LibDot.matmul_zero_apply _ rfl rfl rfl rfl rfl rfl, bias_row6]
  rfl

/-- The body's one term, of the five loaded blocks, is the perceptron of them: the casts to the same shape are the
    identity, then the hidden layer and the output layer. -/
theorem pay6_eq (x0 : Vec Ideal S512x96 .f32) (x1 : Vec Ideal S96x96 .f32) (x2 : Vec Ideal S1x96 .f32)
    (x3 : Vec Ideal S96x64 .f32) (x4 : Vec Ideal S1x64 .f32) :
    k6_pay1 x0 x1 x2 x3 x4 = Cert.Spec.mlp x0 x1 (Cert.Spec.rowOf x2) x3 (Cert.Spec.rowOf x4) := by
  unfold k6_pay1
  simp only [shapeCast_self]
  rw [hidden6, outer6]
  rfl

/-! ## From the blocks to the array -/

-- the TensorCore's buffer contents when the region is entered (any contents: the region's result is a function of them)
variable (V : (c : Dev nD) → (b : Ref sig .tc) → Buf (Elt Ideal) ((c : Thread nD τ).loc b))

theorem zero_offsets6 : (![0, 0] : Fin 2 → Nat) = fun _ => 0 := funext fun a => by fin_cases a <;> rfl

/-- At the one grid point every window's block index is zero on both axes (the printed index maps, decided). -/
theorem origin6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The pooled matrix's block is the pooled matrix: element `y` of the block sits at `0 * 512 + y 0`, `0 * 96 + y 1`. -/
theorem block6_0 (c : Dev nD) (t : Fin cfg6.N) :
    (iblk6 V c 0 t : Vec Ideal S512x96 .f32) = (V c main_v81 : S512x96.Idx → Elt Ideal .f32) := by
  obtain ⟨e0, e1, -⟩ := origin6 t
  funext y
  show V c main_v81 (((cfg6.win 0).blk t).view.emb y) = V c main_v81 y
  refine congrArg (V c main_v81) (funext fun a => Fin.ext ?_)
  match a with
  | ⟨0, _⟩ => show win6_0.index t (0 : Fin 2) * 512 + 1 * (y 0).val = (y 0).val; rw [e0]; omega
  | ⟨1, _⟩ => show win6_0.index t (1 : Fin 2) * 96 + 1 * (y 1).val = (y 1).val; rw [e1]; omega

/-- The first weight matrix's block is the matrix. -/
theorem block6_1 (c : Dev nD) (t : Fin cfg6.N) :
    (iblk6 V c 1 t : Vec Ideal S96x96 .f32) = (V c main_arg11 : S96x96.Idx → Elt Ideal .f32) := by
  obtain ⟨-, -, e0, e1, -⟩ := origin6 t
  funext y
  show V c main_arg11 (((cfg6.win 1).blk t).view.emb y) = V c main_arg11 y
  refine congrArg (V c main_arg11) (funext fun a => Fin.ext ?_)
  match a with
  | ⟨0, _⟩ => show win6_1.index t (0 : Fin 2) * 96 + 1 * (y 0).val = (y 0).val; rw [e0]; omega
  | ⟨1, _⟩ => show win6_1.index t (1 : Fin 2) * 96 + 1 * (y 1).val = (y 1).val; rw [e1]; omega

/-- The first bias's block is the bias row. -/
theorem block6_2 (c : Dev nD) (t : Fin cfg6.N) :
    (iblk6 V c 2 t : Vec Ideal S1x96 .f32) = (V c main_v82 : S1x96.Idx → Elt Ideal .f32) := by
  obtain ⟨-, -, -, -, e0, e1, -⟩ := origin6 t
  funext y
  show V c main_v82 (((cfg6.win 2).blk t).view.emb y) = V c main_v82 y
  refine congrArg (V c main_v82) (funext fun a => Fin.ext ?_)
  match a with
  | ⟨0, _⟩ => show win6_2.index t (0 : Fin 2) * 1 + 1 * (y 0).val = (y 0).val; rw [e0]; omega
  | ⟨1, _⟩ => show win6_2.index t (1 : Fin 2) * 96 + 1 * (y 1).val = (y 1).val; rw [e1]; omega

/-- The second weight matrix's block is the matrix. -/
theorem block6_3 (c : Dev nD) (t : Fin cfg6.N) :
    (iblk6 V c 3 t : Vec Ideal S96x64 .f32) = (V c main_arg13 : S96x64.Idx → Elt Ideal .f32) := by
  obtain ⟨-, -, -, -, -, -, e0, e1, -⟩ := origin6 t
  funext y
  show V c main_arg13 (((cfg6.win 3).blk t).view.emb y) = V c main_arg13 y
  refine congrArg (V c main_arg13) (funext fun a => Fin.ext ?_)
  match a with
  | ⟨0, _⟩ => show win6_3.index t (0 : Fin 2) * 96 + 1 * (y 0).val = (y 0).val; rw [e0]; omega
  | ⟨1, _⟩ => show win6_3.index t (1 : Fin 2) * 64 + 1 * (y 1).val = (y 1).val; rw [e1]; omega

/-- The second bias's block is the bias row. -/
theorem block6_4 (c : Dev nD) (t : Fin cfg6.N) :
    (iblk6 V c 4 t : Vec Ideal S1x64 .f32) = (V c main_v83 : S1x64.Idx → Elt Ideal .f32) := by
  obtain ⟨-, -, -, -, -, -, -, -, e0, e1, -⟩ := origin6 t
  funext y
  show V c main_v83 (((cfg6.win 4).blk t).view.emb y) = V c main_v83 y
  refine congrArg (V c main_v83) (funext fun a => Fin.ext ?_)
  match a with
  | ⟨0, _⟩ => show win6_4.index t (0 : Fin 2) * 1 + 1 * (y 0).val = (y 0).val; rw [e0]; omega
  | ⟨1, _⟩ => show win6_4.index t (1 : Fin 2) * 64 + 1 * (y 1).val = (y 1).val; rw [e1]; omega

/-- What the write-back moves of a result buffer holding `G` is `G` read through the output's block: the block is
    not cut, and its element `y` sits in the array at `0 * 512 + y 0`, `0 * 64 + y 1`. -/
theorem writeback6 (t : Fin cfg6.N) (G : S512x64.Idx → Elt Ideal .f32) :
    (cfg6.win 5).cut (grid6.coords t) G = ((cfg6.win 5).blk t).view.read (Elt Ideal) G := by
  obtain ⟨-, -, -, -, -, -, -, -, -, -, e0, e1⟩ := origin6 t
  funext y
  show G _ = G (((cfg6.win 5).blk t).view.emb y)
  refine congrArg G (funext fun a => Fin.ext ?_)
  match a with
  | ⟨0, _⟩ => show (y 0).val = win6_5.index t (0 : Fin 2) * 512 + 1 * (y 0).val; rw [e0]; omega
  | ⟨1, _⟩ => show (y 1).val = win6_5.index t (1 : Fin 2) * 64 + 1 * (y 1).val; rw [e1]; omega

/-- What point `t` writes back is its block of the perceptron of the five arrays as the region finds them. -/
theorem written6 (c : Dev nD) (t : Fin cfg6.N) :
    (dat6 V c).flushed 5 t = ((cfg6.win 5).blk t).view.read (Elt Ideal)
      (Cert.Spec.mlp (V c main_v81) (V c main_arg11) (Cert.Spec.rowOf (V c main_v82)) (V c main_arg13) (Cert.Spec.rowOf (V c main_v83))) := by
  show (cfg6.win 5).cut (grid6.coords t) ((dat6 V c).after 5 t) = _
  rw [after6_5]
  unfold out6_5
  rw [View.canon_unit_zero zero_offsets6]
  simp only [View.ld_unit_zero (S := S512x96) zero_offsets6, View.ld_unit_zero (S := S96x96) zero_offsets6,
    View.ld_unit_zero (S := S1x96) zero_offsets6, View.ld_unit_zero (S := S96x64) zero_offsets6,
    View.ld_unit_zero (S := S1x64) zero_offsets6]
  rw [pay6_eq, block6_0 V c t, block6_1 V c t, block6_2 V c t, block6_3 V c t, block6_4 V c t]
  exact writeback6 t _

/-- An index of the result array is in point `t`'s block iff each coordinate is in the block's range on its axis. -/
theorem mem_blk6 (t : Fin cfg6.N) (i : S512x64.Idx) :
    i ∈ ((cfg6.win 5).blk t).view.set ↔ ∀ a : Fin 2, win6_5.index t a * S512x64.size a ≤ (i a).val ∧ (i a).val < win6_5.index t a * S512x64.size a + S512x64.size a := by
  show i ∈ ((View.whole main_v84).slice (win6_5.rect t)).set ↔ _
  rw [View.set_slice_whole, Rect.mem_set_unit]
  exact Iff.rfl

/-- The one point's block, at block index zero and of the array's own extents, holds every index of the array. -/
theorem covered6 (i : S512x64.Idx) :
    ∃ t : Fin cfg6.N, (cfg6.win 5).flush t = true ∧ i ∈ ((cfg6.win 5).blk t).view.set := by
  obtain ⟨-, -, -, -, -, -, -, -, -, -, e0, e1⟩ := origin6 t6_0
  refine ⟨t6_0, flush6_5 t6_0, ?_⟩
  rw [mem_blk6]
  intro a
  have h0 : (i 0).val < 512 := (i 0).isLt
  have h1 : (i 1).val < 64 := (i 1).isLt
  match a with
  | ⟨0, _⟩ => show win6_5.index t6_0 (0 : Fin 2) * 512 ≤ (i 0).val ∧ (i 0).val < win6_5.index t6_0 (0 : Fin 2) * 512 + 512; rw [e0]; omega
  | ⟨1, _⟩ => show win6_5.index t6_0 (1 : Fin 2) * 64 ≤ (i 1).val ∧ (i 1).val < win6_5.index t6_0 (1 : Fin 2) * 64 + 64; rw [e1]; omega

theorem final6 (c : Dev nD) : (dat6 V c).arrAt 5 cfg6.N = Cert.Spec.mlp (V c main_v81) (V c main_arg11) (Cert.Spec.rowOf (V c main_v82)) (V c main_arg13) (Cert.Spec.rowOf (V c main_v83)) :=
  (dat6 V c).arrAt_eq_of_cover 5 _ (fun t _ => written6 V c t) covered6

end Cert.KernelIdeal.KVal

end
-- ==== Proof.KFoldA.lean ====
/-
  The first half of the run, buffer by buffer: from the launch memory to the exit of the fourth kernel region.

  The program alternates stretches of host operations with kernel regions. The first stretch builds, from the edge
  list, the source and the destination of every message and every message's weight; each later stretch is one layer's
  message passing (rows gathered by source, scaled, summed by destination) applied to the product the region before
  it left, and the layer's bias reshaped to one row; each region adds the bias, takes the positive part and, but for
  the last, multiplies by the next layer's weights. A buffer is followed across a stretch that does not write it and
  across a region that does not own it without change; a buffer a stretch writes holds the stretch's own term over
  the contents before it; a region's output holds what the region's statement says of its input arrays. Composed,
  the three layers' outputs at the fourth region's exit are the three layers of the specification, and the
  arguments read later are still the launch memory's.
-/
import proofs.«405868_j2388001817260_1_alg».proof.Proof.KIface
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## A buffer no operation of a stretch writes -/

/-- No operation of the literal list writes the buffer: each operation writes one buffer, and that buffer is told
    apart from the given one reference by reference. -/
macro "no_write " ops:ident : tactic => `(tactic|
  (refine List.forall_iff_forall_mem.mp ?_
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-- A buffer that no operation of a host stretch writes holds after the stretch what it held before. -/
macro "not_written " ops:ident : tactic => `(tactic|
  exact StableHlo.after_of_forall_not_mem _ _ (by no_write $ops))

/-! ## What each stretch writes, over any contents `U` at its start

Each statement's right side is a variable `X`, given equal to the stretch's term: the composition of the stretch's
operations over `U`, as the program spells it. -/

/-- The first stretch leaves the messages' sources in `main_v3`: the edge list's first row, then every node. -/
theorem stretch0_v3 (U : Valuation τ sig (Elt Ideal)) (X : IVec S850000 32)
    (hX : srcOf (U (Proc.devRef .tc main_arg1)) = X) :
    StableHlo.after hostOps0 U (Proc.devRef .tc main_v3) = X := by
  after_results_simp
  exact hX

/-- … the messages' destinations in `main_v6`: the edge list's second row, then every node. -/
theorem stretch0_v6 (U : Valuation τ sig (Elt Ideal)) (X : IVec S850000 32)
    (hX : dstOf (U (Proc.devRef .tc main_arg1)) = X) :
    StableHlo.after hostOps0 U (Proc.devRef .tc main_v6) = X := by
  after_results_simp
  exact hX

/-- … and every message's weight in `main_v28`: the product of the inverse square roots of its two ends' degrees. -/
theorem stretch0_v28 (U : Valuation τ sig (Elt Ideal)) (X : FVec Ideal S850000 .f32)
    (hX : normOf (srcOf (U (Proc.devRef .tc main_arg1))) (dstOf (U (Proc.devRef .tc main_arg1))) = X) :
    StableHlo.after hostOps0 U (Proc.devRef .tc main_v28) = X := by
  after_results_simp
  exact hX

/-- The second stretch leaves in `main_v42` the message passing of the product in `main_v29`. -/
theorem stretch1_v42 (U : Valuation τ sig (Elt Ideal)) (X : FVec Ideal S50000x96 .f32)
    (hX : msgOf (U (Proc.devRef .tc main_v3)) (U (Proc.devRef .tc main_v6)) (U (Proc.devRef .tc main_v28)) (U (Proc.devRef .tc main_v29)) = X) :
    StableHlo.after hostOps1 U (Proc.devRef .tc main_v42) = X := by
  after_results_simp
  exact hX

/-- … and in `main_v43` the first layer's bias as one row. -/
theorem stretch1_v43 (U : Valuation τ sig (Elt Ideal)) (X : FVec Ideal S1x96 .f32)
    (hX : shapeCast S1x96 (U (Proc.devRef .tc main_arg4)) shapeCasts_S96_S1x96 = X) :
    StableHlo.after hostOps1 U (Proc.devRef .tc main_v43) = X := by
  after_results_simp
  exact hX

/-- The third stretch leaves in `main_v57` the message passing of the product in `main_v44_1`. -/
theorem stretch2_v57 (U : Valuation τ sig (Elt Ideal)) (X : FVec Ideal S50000x96 .f32)
    (hX : msgOf (U (Proc.devRef .tc main_v3)) (U (Proc.devRef .tc main_v6)) (U (Proc.devRef .tc main_v28)) (U (Proc.devRef .tc main_v44_1)) = X) :
    StableHlo.after hostOps2 U (Proc.devRef .tc main_v57) = X := by
  after_results_simp
  exact hX

/-- … and in `main_v58` the second layer's bias as one row. -/
theorem stretch2_v58 (U : Valuation τ sig (Elt Ideal)) (X : FVec Ideal S1x96 .f32)
    (hX : shapeCast S1x96 (U (Proc.devRef .tc main_arg6)) shapeCasts_S96_S1x96 = X) :
    StableHlo.after hostOps2 U (Proc.devRef .tc main_v58) = X := by
  after_results_simp
  exact hX

/-- The fourth stretch leaves in `main_v72` the message passing of the product in `main_v59_1`. -/
theorem stretch3_v72 (U : Valuation τ sig (Elt Ideal)) (X : FVec Ideal S50000x96 .f32)
    (hX : msgOf (U (Proc.devRef .tc main_v3)) (U (Proc.devRef .tc main_v6)) (U (Proc.devRef .tc main_v28)) (U (Proc.devRef .tc main_v59_1)) = X) :
    StableHlo.after hostOps3 U (Proc.devRef .tc main_v72) = X := by
  after_results_simp
  exact hX

/-- … and in `main_v73` the third layer's bias as one row. -/
theorem stretch3_v73 (U : Valuation τ sig (Elt Ideal)) (X : FVec Ideal S1x96 .f32)
    (hX : shapeCast S1x96 (U (Proc.devRef .tc main_arg8)) shapeCasts_S96_S1x96 = X) :
    StableHlo.after hostOps3 U (Proc.devRef .tc main_v73) = X := by
  after_results_simp
  exact hX

/-! ## A bias reshaped to one row, read back as a vector -/

/-- A vector of 96 entries cast to a `1 × 96` matrix and read as that matrix's only row is the vector: entry
    `(0, q)` of the cast is entry `q`. -/
theorem rowOf_reshape (b : Cert.Spec.Vc 96) (h : S96.ShapeCasts S1x96) :
    Cert.Spec.rowOf (N := 96) (shapeCast S1x96 b h) = b := by
  funext i
  obtain ⟨q, rfl⟩ : ∃ q : Fin 96, i = ix1 q := ⟨i 0, eq_ix1 i⟩
  exact shapeCast_a_1a_apply b h 0 q

/-! ## Buffers that nothing writes: from a boundary back to the launch memory

`gK` says that no operation of stretch `K` writes the buffer, `hK` that it is no array of region `K`. -/

section Keep

variable (c : Dev nD) (b : Ref sig .tc)
variable (g0 : ∀ op ∈ (hostOps0 : List (HloOp τ sig (Elt Ideal))), Proc.devRef .tc b ∉ op.writes)
variable (h0 : ∀ w, Pipeline.arrRef spec0 w ≠ b)
variable (g1 : ∀ op ∈ (hostOps1 : List (HloOp τ sig (Elt Ideal))), Proc.devRef .tc b ∉ op.writes)
variable (h1 : ∀ w, Pipeline.arrRef spec1 w ≠ b)
variable (g2 : ∀ op ∈ (hostOps2 : List (HloOp τ sig (Elt Ideal))), Proc.devRef .tc b ∉ op.writes)
variable (h2 : ∀ w, Pipeline.arrRef spec2 w ≠ b)
variable (g3 : ∀ op ∈ (hostOps3 : List (HloOp τ sig (Elt Ideal))), Proc.devRef .tc b ∉ op.writes)
variable (h3 : ∀ w, Pipeline.arrRef spec3 w ≠ b)

include g0 in
theorem W1_keep : W1 m ρ c (Proc.devRef .tc b) = m ((c : Thread nD τ).loc b) :=
  StableHlo.after_of_forall_not_mem _ _ g0
include g0 h0 in
theorem W2_keep : W2 m ρ c (Proc.devRef .tc b) = m ((c : Thread nD τ).loc b) :=
  (W2_of_ne m ρ c b h0).trans (W1_keep m ρ c b g0)
include g0 h0 g1 in
theorem W3_keep : W3 m ρ c (Proc.devRef .tc b) = m ((c : Thread nD τ).loc b) :=
  (StableHlo.after_of_forall_not_mem _ _ g1).trans (W2_keep m ρ c b g0 h0)
include g0 h0 g1 h1 in
theorem W4_keep : W4 m ρ c (Proc.devRef .tc b) = m ((c : Thread nD τ).loc b) :=
  (W4_of_ne m ρ c b h1).trans (W3_keep m ρ c b g0 h0 g1)
include g0 h0 g1 h1 g2 in
theorem W5_keep : W5 m ρ c (Proc.devRef .tc b) = m ((c : Thread nD τ).loc b) :=
  (StableHlo.after_of_forall_not_mem _ _ g2).trans (W4_keep m ρ c b g0 h0 g1 h1)
include g0 h0 g1 h1 g2 h2 in
theorem W6_keep : W6 m ρ c (Proc.devRef .tc b) = m ((c : Thread nD τ).loc b) :=
  (W6_of_ne m ρ c b h2).trans (W5_keep m ρ c b g0 h0 g1 h1 g2)
include g0 h0 g1 h1 g2 h2 g3 in
theorem W7_keep : W7 m ρ c (Proc.devRef .tc b) = m ((c : Thread nD τ).loc b) :=
  (StableHlo.after_of_forall_not_mem _ _ g3).trans (W6_keep m ρ c b g0 h0 g1 h1 g2 h2)
include g0 h0 g1 h1 g2 h2 g3 h3 in
theorem W8_keep : W8 m ρ c (Proc.devRef .tc b) = m ((c : Thread nD τ).loc b) :=
  (W8_of_ne m ρ c b h3).trans (W7_keep m ρ c b g0 h0 g1 h1 g2 h2 g3)

/-! … and the buffers the first stretch wrote and nothing writes again, back to the first region's entry. -/

include h0 g1 h1 in
theorem W4_to_W1 : W4 m ρ c (Proc.devRef .tc b) = W1 m ρ c (Proc.devRef .tc b) :=
  (W4_of_ne m ρ c b h1).trans ((StableHlo.after_of_forall_not_mem _ _ g1).trans (W2_of_ne m ρ c b h0))
include h0 g1 h1 g2 h2 in
theorem W6_to_W1 : W6 m ρ c (Proc.devRef .tc b) = W1 m ρ c (Proc.devRef .tc b) :=
  (W6_of_ne m ρ c b h2).trans ((StableHlo.after_of_forall_not_mem _ _ g2).trans (W4_to_W1 m ρ c b h0 g1 h1))

end Keep

/-- A buffer untouched from the launch to the fourth region's exit. -/
macro "kept_to_W8" : tactic => `(tactic|
  exact W8_keep _ _ _ _ (by no_write hostOps0) (by decide) (by no_write hostOps1) (by decide)
    (by no_write hostOps2) (by decide) (by no_write hostOps3) (by decide))

/-! ## The first stretch and the first region: the messages' ends and weights, and `x W0` -/

theorem V1_arg0 (c : Dev nD) : V1 m ρ c main_arg0 = m ((c : Thread nD τ).loc main_arg0) :=
  W1_keep m ρ c main_arg0 (by no_write hostOps0)
theorem V1_arg3 (c : Dev nD) : V1 m ρ c main_arg3 = m ((c : Thread nD τ).loc main_arg3) :=
  W1_keep m ρ c main_arg3 (by no_write hostOps0)

theorem W1_v3 (c : Dev nD) : W1 m ρ c (Proc.devRef .tc main_v3) = srcOf (m ((c : Thread nD τ).loc main_arg1)) :=
  stretch0_v3 (W0 m ρ c) _ rfl
theorem W1_v6 (c : Dev nD) : W1 m ρ c (Proc.devRef .tc main_v6) = dstOf (m ((c : Thread nD τ).loc main_arg1)) :=
  stretch0_v6 (W0 m ρ c) _ rfl
theorem W1_v28 (c : Dev nD) :
    W1 m ρ c (Proc.devRef .tc main_v28) = normOf (srcOf (m ((c : Thread nD τ).loc main_arg1))) (dstOf (m ((c : Thread nD τ).loc main_arg1))) :=
  stretch0_v28 (W0 m ρ c) _ rfl

/-- At the first region's exit its output is the product of the features with the first layer's weights. -/
theorem W2_v29 (R : RegionFacts) (c : Dev nD) :
    W2 m ρ c (Proc.devRef .tc main_v29) = Cert.Spec.mm (m ((c : Thread nD τ).loc main_arg0)) (m ((c : Thread nD τ).loc main_arg3)) := by
  refine (W2_arr m ρ c 2).trans ((R.final0 (V1 m ρ) c).trans ?_)
  rw [V1_arg0 m ρ c, V1_arg3 m ρ c]

theorem W2_v3 (c : Dev nD) : W2 m ρ c (Proc.devRef .tc main_v3) = srcOf (m ((c : Thread nD τ).loc main_arg1)) :=
  (W2_of_ne m ρ c main_v3 (by decide)).trans (W1_v3 m ρ c)
theorem W2_v6 (c : Dev nD) : W2 m ρ c (Proc.devRef .tc main_v6) = dstOf (m ((c : Thread nD τ).loc main_arg1)) :=
  (W2_of_ne m ρ c main_v6 (by decide)).trans (W1_v6 m ρ c)
theorem W2_v28 (c : Dev nD) :
    W2 m ρ c (Proc.devRef .tc main_v28) = normOf (srcOf (m ((c : Thread nD τ).loc main_arg1))) (dstOf (m ((c : Thread nD τ).loc main_arg1))) :=
  (W2_of_ne m ρ c main_v28 (by decide)).trans (W1_v28 m ρ c)
theorem W2_arg4 (c : Dev nD) : W2 m ρ c (Proc.devRef .tc main_arg4) = m ((c : Thread nD τ).loc main_arg4) :=
  W2_keep m ρ c main_arg4 (by no_write hostOps0) (by decide)

/-! ## The second stretch and the second region: the first layer -/

/-- At the second region's entry `main_v42` holds the message passing of `x W0`. -/
theorem V3_v42 (R : RegionFacts) (c : Dev nD) :
    V3 m ρ c main_v42 = kMf m c (Cert.Spec.mm (m ((c : Thread nD τ).loc main_arg0)) (m ((c : Thread nD τ).loc main_arg3))) :=
  stretch1_v42 (W2 m ρ c) _ (by
    rw [W2_v3 m ρ c, W2_v6 m ρ c, W2_v28 m ρ c, W2_v29 m ρ R c]
    rfl)
theorem V3_v43 (c : Dev nD) :
    V3 m ρ c main_v43 = shapeCast S1x96 (m ((c : Thread nD τ).loc main_arg4) : Cert.Spec.Vc 96) shapeCasts_S96_S1x96 :=
  stretch1_v43 (W2 m ρ c) _ (by rw [W2_arg4 m ρ c])
theorem V3_bias (c : Dev nD) : Cert.Spec.rowOf (N := 96) (V3 m ρ c main_v43) = m ((c : Thread nD τ).loc main_arg4) :=
  (congrArg (Cert.Spec.rowOf (N := 96)) (V3_v43 m ρ c)).trans (rowOf_reshape _ _)
theorem V3_arg5 (c : Dev nD) : V3 m ρ c main_arg5 = m ((c : Thread nD τ).loc main_arg5) :=
  W3_keep m ρ c main_arg5 (by no_write hostOps0) (by decide) (by no_write hostOps1)

/-- At the second region's exit its first output is the first layer's output … -/
theorem W4_h1 (R : RegionFacts) (c : Dev nD) : W4 m ρ c (Proc.devRef .tc main_v44_0) = kh1 m c := by
  refine (W4_arr m ρ c 3).trans ((R.final1_h (V3 m ρ) c).trans ?_)
  rw [V3_v42 m ρ R c, V3_bias m ρ c]
  rfl
/-- … and its second output that layer's product with the second layer's weights. -/
theorem W4_hW1 (R : RegionFacts) (c : Dev nD) :
    W4 m ρ c (Proc.devRef .tc main_v44_1) = Cert.Spec.mm (kh1 m c) (m ((c : Thread nD τ).loc main_arg5)) := by
  refine (W4_arr m ρ c 4).trans ((R.final1_hW (V3 m ρ) c).trans ?_)
  rw [V3_v42 m ρ R c, V3_bias m ρ c, V3_arg5 m ρ c]
  rfl

theorem W4_v3 (c : Dev nD) : W4 m ρ c (Proc.devRef .tc main_v3) = srcOf (m ((c : Thread nD τ).loc main_arg1)) :=
  (W4_to_W1 m ρ c main_v3 (by decide) (by no_write hostOps1) (by decide)).trans (W1_v3 m ρ c)
theorem W4_v6 (c : Dev nD) : W4 m ρ c (Proc.devRef .tc main_v6) = dstOf (m ((c : Thread nD τ).loc main_arg1)) :=
  (W4_to_W1 m ρ c main_v6 (by decide) (by no_write hostOps1) (by decide)).trans (W1_v6 m ρ c)
theorem W4_v28 (c : Dev nD) :
    W4 m ρ c (Proc.devRef .tc main_v28) = normOf (srcOf (m ((c : Thread nD τ).loc main_arg1))) (dstOf (m ((c : Thread nD τ).loc main_arg1))) :=
  (W4_to_W1 m ρ c main_v28 (by decide) (by no_write hostOps1) (by decide)).trans (W1_v28 m ρ c)
theorem W4_arg6 (c : Dev nD) : W4 m ρ c (Proc.devRef .tc main_arg6) = m ((c : Thread nD τ).loc main_arg6) :=
  W4_keep m ρ c main_arg6 (by no_write hostOps0) (by decide) (by no_write hostOps1) (by decide)

/-! ## The third stretch and the third region: the second layer -/

theorem V5_v57 (R : RegionFacts) (c : Dev nD) :
    V5 m ρ c main_v57 = kMf m c (Cert.Spec.mm (kh1 m c) (m ((c : Thread nD τ).loc main_arg5))) :=
  stretch2_v57 (W4 m ρ c) _ (by
    rw [W4_v3 m ρ c, W4_v6 m ρ c, W4_v28 m ρ c, W4_hW1 m ρ R c]
    rfl)
theorem V5_v58 (c : Dev nD) :
    V5 m ρ c main_v58 = shapeCast S1x96 (m ((c : Thread nD τ).loc main_arg6) : Cert.Spec.Vc 96) shapeCasts_S96_S1x96 :=
  stretch2_v58 (W4 m ρ c) _ (by rw [W4_arg6 m ρ c])
theorem V5_bias (c : Dev nD) : Cert.Spec.rowOf (N := 96) (V5 m ρ c main_v58) = m ((c : Thread nD τ).loc main_arg6) :=
  (congrArg (Cert.Spec.rowOf (N := 96)) (V5_v58 m ρ c)).trans (rowOf_reshape _ _)
theorem V5_arg7 (c : Dev nD) : V5 m ρ c main_arg7 = m ((c : Thread nD τ).loc main_arg7) :=
  W5_keep m ρ c main_arg7 (by no_write hostOps0) (by decide) (by no_write hostOps1) (by decide) (by no_write hostOps2)

theorem W6_h2 (R : RegionFacts) (c : Dev nD) : W6 m ρ c (Proc.devRef .tc main_v59_0) = kh2 m c := by
  refine (W6_arr m ρ c 3).trans ((R.final2_h (V5 m ρ) c).trans ?_)
  rw [V5_v57 m ρ R c, V5_bias m ρ c]
  rfl
theorem W6_hW2 (R : RegionFacts) (c : Dev nD) :
    W6 m ρ c (Proc.devRef .tc main_v59_1) = Cert.Spec.mm (kh2 m c) (m ((c : Thread nD τ).loc main_arg7)) := by
  refine (W6_arr m ρ c 4).trans ((R.final2_hW (V5 m ρ) c).trans ?_)
  rw [V5_v57 m ρ R c, V5_bias m ρ c, V5_arg7 m ρ c]
  rfl

theorem W6_v3 (c : Dev nD) : W6 m ρ c (Proc.devRef .tc main_v3) = srcOf (m ((c : Thread nD τ).loc main_arg1)) :=
  (W6_to_W1 m ρ c main_v3 (by decide) (by no_write hostOps1) (by decide) (by no_write hostOps2) (by decide)).trans (W1_v3 m ρ c)
theorem W6_v6 (c : Dev nD) : W6 m ρ c (Proc.devRef .tc main_v6) = dstOf (m ((c : Thread nD τ).loc main_arg1)) :=
  (W6_to_W1 m ρ c main_v6 (by decide) (by no_write hostOps1) (by decide) (by no_write hostOps2) (by decide)).trans (W1_v6 m ρ c)
theorem W6_v28 (c : Dev nD) :
    W6 m ρ c (Proc.devRef .tc main_v28) = normOf (srcOf (m ((c : Thread nD τ).loc main_arg1))) (dstOf (m ((c : Thread nD τ).loc main_arg1))) :=
  (W6_to_W1 m ρ c main_v28 (by decide) (by no_write hostOps1) (by decide) (by no_write hostOps2) (by decide)).trans (W1_v28 m ρ c)
theorem W6_arg8 (c : Dev nD) : W6 m ρ c (Proc.devRef .tc main_arg8) = m ((c : Thread nD τ).loc main_arg8) :=
  W6_keep m ρ c main_arg8 (by no_write hostOps0) (by decide) (by no_write hostOps1) (by decide) (by no_write hostOps2) (by decide)

/-! ## The fourth stretch and the fourth region: the third layer -/

theorem V7_v72 (R : RegionFacts) (c : Dev nD) :
    V7 m ρ c main_v72 = kMf m c (Cert.Spec.mm (kh2 m c) (m ((c : Thread nD τ).loc main_arg7))) :=
  stretch3_v72 (W6 m ρ c) _ (by
    rw [W6_v3 m ρ c, W6_v6 m ρ c, W6_v28 m ρ c, W6_hW2 m ρ R c]
    rfl)
theorem V7_v73 (c : Dev nD) :
    V7 m ρ c main_v73 = shapeCast S1x96 (m ((c : Thread nD τ).loc main_arg8) : Cert.Spec.Vc 96) shapeCasts_S96_S1x96 :=
  stretch3_v73 (W6 m ρ c) _ (by rw [W6_arg8 m ρ c])
theorem V7_bias (c : Dev nD) : Cert.Spec.rowOf (N := 96) (V7 m ρ c main_v73) = m ((c : Thread nD τ).loc main_arg8) :=
  (congrArg (Cert.Spec.rowOf (N := 96)) (V7_v73 m ρ c)).trans (rowOf_reshape _ _)

/-! ## At the fourth region's exit -/

/-- The third layer's output is the fourth region's own output. -/
theorem W8_h3 (R : RegionFacts) (c : Dev nD) : W8 m ρ c (Proc.devRef .tc main_v74) = kh3 m c := by
  refine (W8_arr m ρ c 2).trans ((R.final3 (V7 m ρ) c).trans ?_)
  rw [V7_v72 m ρ R c, V7_bias m ρ c]
  rfl

/-- The second layer's output, left by the third region, is written by nothing after it. -/
theorem W8_h2 (R : RegionFacts) (c : Dev nD) : W8 m ρ c (Proc.devRef .tc main_v59_0) = kh2 m c :=
  calc W8 m ρ c (Proc.devRef .tc main_v59_0)
    _ = W7 m ρ c (Proc.devRef .tc main_v59_0) := W8_of_ne m ρ c main_v59_0 (by decide)
    _ = W6 m ρ c (Proc.devRef .tc main_v59_0) := by not_written hostOps3
    _ = kh2 m c := W6_h2 m ρ R c

/-- The first layer's output, left by the second region, is written by nothing after it. -/
theorem W8_h1 (R : RegionFacts) (c : Dev nD) : W8 m ρ c (Proc.devRef .tc main_v44_0) = kh1 m c :=
  calc W8 m ρ c (Proc.devRef .tc main_v44_0)
    _ = W7 m ρ c (Proc.devRef .tc main_v44_0) := W8_of_ne m ρ c main_v44_0 (by decide)
    _ = W6 m ρ c (Proc.devRef .tc main_v44_0) := by not_written hostOps3
    _ = W5 m ρ c (Proc.devRef .tc main_v44_0) := W6_of_ne m ρ c main_v44_0 (by decide)
    _ = W4 m ρ c (Proc.devRef .tc main_v44_0) := by not_written hostOps2
    _ = kh1 m c := W4_h1 m ρ R c

/-! The arguments the later regions read are still as launched. -/

theorem W8_arg2 (c : Dev nD) : W8 m ρ c (Proc.devRef .tc main_arg2) = m ((c : Thread nD τ).loc main_arg2) := by kept_to_W8
theorem W8_arg9 (c : Dev nD) : W8 m ρ c (Proc.devRef .tc main_arg9) = m ((c : Thread nD τ).loc main_arg9) := by kept_to_W8
theorem W8_arg10 (c : Dev nD) : W8 m ρ c (Proc.devRef .tc main_arg10) = m ((c : Thread nD τ).loc main_arg10) := by kept_to_W8
theorem W8_arg11 (c : Dev nD) : W8 m ρ c (Proc.devRef .tc main_arg11) = m ((c : Thread nD τ).loc main_arg11) := by kept_to_W8
theorem W8_arg12 (c : Dev nD) : W8 m ρ c (Proc.devRef .tc main_arg12) = m ((c : Thread nD τ).loc main_arg12) := by kept_to_W8
theorem W8_arg13 (c : Dev nD) : W8 m ρ c (Proc.devRef .tc main_arg13) = m ((c : Thread nD τ).loc main_arg13) := by kept_to_W8
theorem W8_arg14 (c : Dev nD) : W8 m ρ c (Proc.devRef .tc main_arg14) = m ((c : Thread nD τ).loc main_arg14) := by kept_to_W8

end Cert.KernelIdeal.KVal

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KFoldB.lean ====
/-
  The program's buffers from the third layer's exit to the return.

  At the third layer's exit the three layers' outputs sit in their buffers and the later arguments are still the launch
  memory's (the bundle `MidFacts`). From there the program cuts the `288 × 96` projection weights into their three slabs
  of rows and lays the projection bias out as a row; the fifth region projects the three layers' outputs; the graph
  numbers are laid out as a column and the sixth region pools the projected rows by graph; the perceptron's two biases
  are laid out as rows and the seventh region runs the perceptron on the 512 pooled rows; the return keeps the first 500
  rows. Boundary by boundary, each buffer that matters is read as a value of Spec.lean's functions: a buffer the
  stretch of host operations does not write keeps its contents, a buffer it writes holds the operation's value on the
  contents before, an output array of a region holds what the bundle `RegionFacts` says of the region's input arrays,
  and a buffer that is no array of the region passes through it.
-/
import proofs.«405868_j2388001817260_1_alg».proof.Proof.KIface
import proofs.«405868_j2388001817260_1_alg».proof.Proof.LibKeepdims
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

/-- Closes `after ops V b = V b` for a buffer `b` that no operation of the literal stretch `ops` writes: every
    operation writes its one result buffer, and `b` is none of them. -/
macro "untouched_by " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Layouts read at an index -/

/-- A vector laid out as a matrix of one row, read back as a vector, is the vector. -/
theorem rowOf_of_reshape {N : Nat} (b : Cert.Spec.Vc N) (h : (⟨1, ![N]⟩ : Shape).ShapeCasts ⟨2, ![1, N]⟩) :
    Cert.Spec.rowOf (shapeCast (⟨2, ![1, N]⟩ : Shape) b h) = b := by
  funext i
  obtain ⟨q, rfl⟩ : ∃ q : Fin N, i = ix1 q := ⟨i 0, eq_ix1 i⟩
  exact shapeCast_a_1a_apply b h 0 q

/-- An integer vector laid out as a matrix of one column, read back as a vector, is the vector. -/
theorem flatCol_reshape {R : Nat} (b : IVec (⟨1, ![R]⟩ : Shape) 32) (h : (⟨1, ![R]⟩ : Shape).ShapeCasts ⟨2, ![R, 1]⟩) :
    Cert.Spec.flatCol (shapeCast (⟨2, ![R, 1]⟩ : Shape) b h) = b := by
  funext i
  obtain ⟨n, rfl⟩ : ∃ n : Fin R, i = ix1 n := ⟨i 0, eq_ix1 i⟩
  exact shapeCast_a_a1_apply b h n 0

/-- The `96` rows of the `288 × 96` weights from row `o = 96 s` on are slab `s`: entry `(k, q)` of the cut is entry
    `(96 s + k, q)` of the weights. -/
theorem slab_slice (W : Cert.Spec.Mat 288 96) (s : Fin 3) (o : Nat) (ho : o = 96 * s.val)
    (h : (⟨2, ![288, 96]⟩ : Shape).Slices ![o, 0] ⟨2, ![96, 96]⟩) :
    extractStridedSlice (⟨2, ![96, 96]⟩ : Shape) ![o, 0] W h = Cert.Spec.wslab W s := by
  subst ho
  funext i
  obtain ⟨k, q, rfl⟩ : ∃ (k q : Fin 96), i = ix2 k q := ⟨i 0, i 1, eq_ix2 i⟩
  exact slice2_axis0_apply (96 * s.val) W h k q (Cert.Spec.wrow s k) rfl

/-- The rows of a matrix from row `0` on, as many as `G'`, are its first `G'` rows. -/
theorem headRows_slice {G C : Nat} (G' : Nat) (hG : G' ≤ G) (X : Cert.Spec.Mat G C)
    (h : (⟨2, ![G, C]⟩ : Shape).Slices ![0, 0] ⟨2, ![G', C]⟩) :
    extractStridedSlice (⟨2, ![G', C]⟩ : Shape) ![0, 0] X h = Cert.Spec.headRows G' hG X := by
  funext i
  obtain ⟨g, q, rfl⟩ : ∃ (g : Fin G') (q : Fin C), i = ix2 g q := ⟨i 0, i 1, eq_ix2 i⟩
  exact slice2_axis0_apply 0 X h g q ⟨g.val, lt_of_lt_of_le g.isLt hG⟩ (Nat.zero_add _).symm

/-! ## What the last four stretches of host operations write, over any contents `W` before them -/

/-- The first cut: the rows `0 … 95` of the projection weights. -/
theorem ops4_v75 (W : Valuation τ sig (Elt Ideal)) :
    StableHlo.after hostOps4 W (Proc.devRef .tc main_v75)
      = extractStridedSlice S96x96 ![0, 0] (W (Proc.devRef .tc main_arg9)) slices_S288x96_S96x96_0_0 := by
  after_results
/-- The second cut: the rows `96 … 191`. -/
theorem ops4_v76 (W : Valuation τ sig (Elt Ideal)) :
    StableHlo.after hostOps4 W (Proc.devRef .tc main_v76)
      = extractStridedSlice S96x96 ![96, 0] (W (Proc.devRef .tc main_arg9)) slices_S288x96_S96x96_96_0 := by
  after_results
/-- The third cut: the rows `192 … 287`. -/
theorem ops4_v77 (W : Valuation τ sig (Elt Ideal)) :
    StableHlo.after hostOps4 W (Proc.devRef .tc main_v77)
      = extractStridedSlice S96x96 ![192, 0] (W (Proc.devRef .tc main_arg9)) slices_S288x96_S96x96_192_0 := by
  after_results
/-- The projection bias laid out as a row. -/
theorem ops4_v78 (W : Valuation τ sig (Elt Ideal)) :
    StableHlo.after hostOps4 W (Proc.devRef .tc main_v78)
      = shapeCast S1x96 (W (Proc.devRef .tc main_arg10)) shapeCasts_S96_S1x96 := by
  after_results; rfl
/-- The graph numbers laid out as a column. -/
theorem ops5_v80 (W : Valuation τ sig (Elt Ideal)) :
    StableHlo.after hostOps5 W (Proc.devRef .tc main_v80)
      = shapeCast S50000x1 (W (Proc.devRef .tc main_arg2)) shapeCasts_S50000_S50000x1 := by
  after_results; rfl
/-- The perceptron's first bias laid out as a row. -/
theorem ops6_v82 (W : Valuation τ sig (Elt Ideal)) :
    StableHlo.after hostOps6 W (Proc.devRef .tc main_v82)
      = shapeCast S1x96 (W (Proc.devRef .tc main_arg12)) shapeCasts_S96_S1x96 := by
  after_results; rfl
/-- The perceptron's second bias laid out as a row. -/
theorem ops6_v83 (W : Valuation τ sig (Elt Ideal)) :
    StableHlo.after hostOps6 W (Proc.devRef .tc main_v83)
      = shapeCast S1x64 (W (Proc.devRef .tc main_arg14)) shapeCasts_S64_S1x64 := by
  after_results; rfl
/-- The cut of the first 500 rows of the perceptron's output. -/
theorem ops7_v85 (W : Valuation τ sig (Elt Ideal)) :
    StableHlo.after hostOps7 W (Proc.devRef .tc main_v85)
      = extractStridedSlice S500x64 ![0, 0] (W (Proc.devRef .tc main_v84)) slices_S512x64_S500x64_0_0 := by
  after_results

variable (m : (ℓ : Loc nD τ sig) → Buf (Elt Ideal) ℓ) (ρ : Dev nD → PrngReg)

/-! ## The fifth region's entry (`W9`): after the three slab cuts and the bias laid out as a row -/

/-- The first layer's output is not written by the cuts. -/
theorem W9_v44_0 (M : MidFacts m ρ) (c : Dev nD) : W9 m ρ c (Proc.devRef .tc main_v44_0) = kh1 m c :=
  (by untouched_by hostOps4 : W9 m ρ c (Proc.devRef .tc main_v44_0) = W8 m ρ c (Proc.devRef .tc main_v44_0)).trans (M.h1 c)
/-- Nor is the second layer's. -/
theorem W9_v59_0 (M : MidFacts m ρ) (c : Dev nD) : W9 m ρ c (Proc.devRef .tc main_v59_0) = kh2 m c :=
  (by untouched_by hostOps4 : W9 m ρ c (Proc.devRef .tc main_v59_0) = W8 m ρ c (Proc.devRef .tc main_v59_0)).trans (M.h2 c)
/-- Nor is the third layer's. -/
theorem W9_v74 (M : MidFacts m ρ) (c : Dev nD) : W9 m ρ c (Proc.devRef .tc main_v74) = kh3 m c :=
  (by untouched_by hostOps4 : W9 m ρ c (Proc.devRef .tc main_v74) = W8 m ρ c (Proc.devRef .tc main_v74)).trans (M.h3 c)

/-- The first cut is slab `0` of the launch memory's projection weights. -/
theorem W9_v75 (M : MidFacts m ρ) (c : Dev nD) :
    W9 m ρ c (Proc.devRef .tc main_v75) = Cert.Spec.wslab (m ((c : Thread nD τ).loc main_arg9)) 0 := by
  refine (ops4_v75 (W8 m ρ c)).trans ?_
  rw [M.arg9 c]
  exact slab_slice _ 0 0 rfl _

/-- The second cut is slab `1`. -/
theorem W9_v76 (M : MidFacts m ρ) (c : Dev nD) :
    W9 m ρ c (Proc.devRef .tc main_v76) = Cert.Spec.wslab (m ((c : Thread nD τ).loc main_arg9)) 1 := by
  refine (ops4_v76 (W8 m ρ c)).trans ?_
  rw [M.arg9 c]
  exact slab_slice _ 1 96 rfl _

/-- The third cut is slab `2`. -/
theorem W9_v77 (M : MidFacts m ρ) (c : Dev nD) :
    W9 m ρ c (Proc.devRef .tc main_v77) = Cert.Spec.wslab (m ((c : Thread nD τ).loc main_arg9)) 2 := by
  refine (ops4_v77 (W8 m ρ c)).trans ?_
  rw [M.arg9 c]
  exact slab_slice _ 2 192 rfl _

/-- The projection bias laid out as a row, read back as a vector, is the launch memory's bias. -/
theorem W9_v78 (M : MidFacts m ρ) (c : Dev nD) :
    Cert.Spec.rowOf (W9 m ρ c (Proc.devRef .tc main_v78)) = m ((c : Thread nD τ).loc main_arg10) := by
  rw [show W9 m ρ c (Proc.devRef .tc main_v78) = shapeCast S1x96 (W8 m ρ c (Proc.devRef .tc main_arg10)) shapeCasts_S96_S1x96
      from ops4_v78 (W8 m ρ c), M.arg10 c]
  exact rowOf_of_reshape _ _

/-! ## The fifth region's exit (`W10`) -/

/-- The region's output array holds the projection of the three layers' outputs with the three slabs and the bias. -/
theorem W10_v79 (R : RegionFacts) (M : MidFacts m ρ) (c : Dev nD) : W10 m ρ c (Proc.devRef .tc main_v79) = kjk m c := by
  have e : W10 m ρ c (Proc.devRef .tc main_v79)
      = Cert.Spec.jk3 (W9 m ρ c (Proc.devRef .tc main_v44_0)) (W9 m ρ c (Proc.devRef .tc main_v59_0))
          (W9 m ρ c (Proc.devRef .tc main_v74)) (W9 m ρ c (Proc.devRef .tc main_v75))
          (W9 m ρ c (Proc.devRef .tc main_v76)) (W9 m ρ c (Proc.devRef .tc main_v77))
          (Cert.Spec.rowOf (W9 m ρ c (Proc.devRef .tc main_v78))) :=
    (W10_arr m ρ c 7).trans (R.final4 (V9 m ρ) c)
  rw [e, W9_v44_0 m ρ M c, W9_v59_0 m ρ M c, W9_v74 m ρ M c, W9_v75 m ρ M c, W9_v76 m ρ M c, W9_v77 m ρ M c,
    W9_v78 m ρ M c]
  rfl

/-- The graph numbers are no array of the region and no result of the cuts: they are still the launch memory's. -/
theorem W10_arg2 (M : MidFacts m ρ) (c : Dev nD) :
    W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by untouched_by hostOps4
    _ = m ((c : Thread nD τ).loc main_arg2) := M.arg2 c

/-! ## The sixth region's entry (`W11`): after the graph numbers laid out as a column -/

/-- The projected features are not written by the layout. -/
theorem W11_v79 (R : RegionFacts) (M : MidFacts m ρ) (c : Dev nD) : W11 m ρ c (Proc.devRef .tc main_v79) = kjk m c :=
  (by untouched_by hostOps5 : W11 m ρ c (Proc.devRef .tc main_v79) = W10 m ρ c (Proc.devRef .tc main_v79)).trans
    (W10_v79 m ρ R M c)

/-- The graph numbers laid out as a column, read back as a vector, are the launch memory's graph numbers. -/
theorem W11_v80 (M : MidFacts m ρ) (c : Dev nD) :
    Cert.Spec.flatCol (W11 m ρ c (Proc.devRef .tc main_v80)) = m ((c : Thread nD τ).loc main_arg2) := by
  rw [show W11 m ρ c (Proc.devRef .tc main_v80) = shapeCast S50000x1 (W10 m ρ c (Proc.devRef .tc main_arg2)) shapeCasts_S50000_S50000x1
      from ops5_v80 (W10 m ρ c), W10_arg2 m ρ M c]
  exact flatCol_reshape _ _

/-! ## The sixth region's exit (`W12`) -/

/-- The region's output array holds the projected rows summed by graph number, 512 rows. -/
theorem W12_v81 (R : RegionFacts) (M : MidFacts m ρ) (c : Dev nD) : W12 m ρ c (Proc.devRef .tc main_v81) = kpool m c := by
  have e : W12 m ρ c (Proc.devRef .tc main_v81)
      = Cert.Spec.pool 512 (W11 m ρ c (Proc.devRef .tc main_v79))
          (Cert.Spec.flatCol (W11 m ρ c (Proc.devRef .tc main_v80))) :=
    (W12_arr m ρ c 2).trans (R.final5 (V11 m ρ) c)
  rw [e, W11_v79 m ρ R M c, W11_v80 m ρ M c]
  rfl

/-- The perceptron's first bias has passed two stretches of host operations and two regions untouched. -/
theorem W12_arg12 (M : MidFacts m ρ) (c : Dev nD) :
    W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := by untouched_by hostOps5
    _ = W9 m ρ c (Proc.devRef .tc main_arg12) := W10_of_ne m ρ c main_arg12 (by decide)
    _ = W8 m ρ c (Proc.devRef .tc main_arg12) := by untouched_by hostOps4
    _ = m ((c : Thread nD τ).loc main_arg12) := M.arg12 c

/-- So has its second bias. -/
theorem W12_arg14 (M : MidFacts m ρ) (c : Dev nD) :
    W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := by untouched_by hostOps5
    _ = W9 m ρ c (Proc.devRef .tc main_arg14) := W10_of_ne m ρ c main_arg14 (by decide)
    _ = W8 m ρ c (Proc.devRef .tc main_arg14) := by untouched_by hostOps4
    _ = m ((c : Thread nD τ).loc main_arg14) := M.arg14 c

/-! ## The seventh region's entry (`W13`): after the perceptron's two biases laid out as rows -/

/-- The pooled rows are not written by the layouts. -/
theorem W13_v81 (R : RegionFacts) (M : MidFacts m ρ) (c : Dev nD) : W13 m ρ c (Proc.devRef .tc main_v81) = kpool m c :=
  (by untouched_by hostOps6 : W13 m ρ c (Proc.devRef .tc main_v81) = W12 m ρ c (Proc.devRef .tc main_v81)).trans
    (W12_v81 m ρ R M c)

/-- The first bias laid out as a row, read back as a vector, is the launch memory's. -/
theorem W13_v82 (M : MidFacts m ρ) (c : Dev nD) :
    Cert.Spec.rowOf (W13 m ρ c (Proc.devRef .tc main_v82)) = m ((c : Thread nD τ).loc main_arg12) := by
  rw [show W13 m ρ c (Proc.devRef .tc main_v82) = shapeCast S1x96 (W12 m ρ c (Proc.devRef .tc main_arg12)) shapeCasts_S96_S1x96
      from ops6_v82 (W12 m ρ c), W12_arg12 m ρ M c]
  exact rowOf_of_reshape _ _

/-- The second bias laid out as a row, read back as a vector, is the launch memory's. -/
theorem W13_v83 (M : MidFacts m ρ) (c : Dev nD) :
    Cert.Spec.rowOf (W13 m ρ c (Proc.devRef .tc main_v83)) = m ((c : Thread nD τ).loc main_arg14) := by
  rw [show W13 m ρ c (Proc.devRef .tc main_v83) = shapeCast S1x64 (W12 m ρ c (Proc.devRef .tc main_arg14)) shapeCasts_S64_S1x64
      from ops6_v83 (W12 m ρ c), W12_arg14 m ρ M c]
  exact rowOf_of_reshape _ _

/-- The perceptron's first weights have passed three stretches of host operations and two regions untouched. -/
theorem W13_arg11 (M : MidFacts m ρ) (c : Dev nD) :
    W13 m ρ c (Proc.devRef .tc main_arg11) = m ((c : Thread nD τ).loc main_arg11) :=
  calc W13 m ρ c (Proc.devRef .tc main_arg11)
    _ = W12 m ρ c (Proc.devRef .tc main_arg11) := by untouched_by hostOps6
    _ = W11 m ρ c (Proc.devRef .tc main_arg11) := W12_of_ne m ρ c main_arg11 (by decide)
    _ = W10 m ρ c (Proc.devRef .tc main_arg11) := by untouched_by hostOps5
    _ = W9 m ρ c (Proc.devRef .tc main_arg11) := W10_of_ne m ρ c main_arg11 (by decide)
    _ = W8 m ρ c (Proc.devRef .tc main_arg11) := by untouched_by hostOps4
    _ = m ((c : Thread nD τ).loc main_arg11) := M.arg11 c

/-- So have its second weights. -/
theorem W13_arg13 (M : MidFacts m ρ) (c : Dev nD) :
    W13 m ρ c (Proc.devRef .tc main_arg13) = m ((c : Thread nD τ).loc main_arg13) :=
  calc W13 m ρ c (Proc.devRef .tc main_arg13)
    _ = W12 m ρ c (Proc.devRef .tc main_arg13) := by untouched_by hostOps6
    _ = W11 m ρ c (Proc.devRef .tc main_arg13) := W12_of_ne m ρ c main_arg13 (by decide)
    _ = W10 m ρ c (Proc.devRef .tc main_arg13) := by untouched_by hostOps5
    _ = W9 m ρ c (Proc.devRef .tc main_arg13) := W10_of_ne m ρ c main_arg13 (by decide)
    _ = W8 m ρ c (Proc.devRef .tc main_arg13) := by untouched_by hostOps4
    _ = m ((c : Thread nD τ).loc main_arg13) := M.arg13 c

/-! ## The seventh region's exit (`W14`) and the return (`W15`) -/

/-- The region's output array holds the perceptron on the 512 pooled rows. -/
theorem W14_v84 (R : RegionFacts) (M : MidFacts m ρ) (c : Dev nD) : W14 m ρ c (Proc.devRef .tc main_v84) = kmlp m c := by
  have e : W14 m ρ c (Proc.devRef .tc main_v84)
      = Cert.Spec.mlp (W13 m ρ c (Proc.devRef .tc main_v81)) (W13 m ρ c (Proc.devRef .tc main_arg11))
          (Cert.Spec.rowOf (W13 m ρ c (Proc.devRef .tc main_v82))) (W13 m ρ c (Proc.devRef .tc main_arg13))
          (Cert.Spec.rowOf (W13 m ρ c (Proc.devRef .tc main_v83))) :=
    (W14_arr m ρ c 5).trans (R.final6 (V13 m ρ) c)
  rw [e, W13_v81 m ρ R M c, W13_arg11 m ρ M c, W13_v82 m ρ M c, W13_arg13 m ρ M c, W13_v83 m ρ M c]
  rfl

/-- The returned buffer is the cut of the first 500 rows of the perceptron's output: the program's result. -/
theorem W15_out (R : RegionFacts) (M : MidFacts m ρ) (c : Dev nD) : W15 m ρ c (Proc.devRef .tc main_v85) = kOut m c := by
  refine (ops7_v85 (W14 m ρ c)).trans ?_
  rw [W14_v84 m ρ R M c]
  exact headRows_slice 500 _ _ _

end Cert.KernelIdeal.KVal

end
-- ==== Proof.RefA.lean ====
/-
  The reference's three layers, read as mathematics.

  Each layer of the reference is four stages: a matrix product (entry `(p, q)` the sum over `k` of the previous
  layer's `(p, k)` times the weight's `(k, q)`), the message passing shared by both programs (applied to the product
  as a whole; never opened here), the bias `b q` added to every row, and the positive part `max · 0`. The first layer
  multiplies the `50000 × 128` input features by a `128 × 96` weight matrix; the second and third multiply the
  previous layer's `50000 × 96` output by a `96 × 96` one. The bias and positive-part tail is the same text in all
  three layers, so it is proved once over an arbitrary aggregated matrix and bias vector; the two product shapes are
  each proved once over arbitrary operands.
-/
import proofs.«405868_j2388001817260_1_alg».proof.Proof.Gen.ReferenceIdeal.Run
import proofs.«405868_j2388001817260_1_alg».proof.Proof.Gen.ReferenceIdeal.Read
import proofs.«405868_j2388001817260_1_alg».proof.Proof.RShared
import proofs.«405868_j2388001817260_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RVal

open Cert.ReferenceIdeal Cert.ReferenceIdeal.Gen Cert.ReferenceIdeal.Read Idealize.ShloMosaic Idealize.ShloMosaic.TcCoe Idealize.SL.Sem
open Idealize.ShloMosaic.ValueIdx

variable (x0 : (⟨S50000x128, .f32⟩ : BufTy).Contents (Elt Ideal)) (x1 : (⟨S2x800000, .i32⟩ : BufTy).Contents (Elt Ideal)) (x2 : (⟨S50000, .i32⟩ : BufTy).Contents (Elt Ideal))
  (x3 : (⟨S128x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal))
  (x7 : (⟨S96x96, .f32⟩ : BufTy).Contents (Elt Ideal)) (x8 : (⟨S96, .f32⟩ : BufTy).Contents (Elt Ideal)) (x9 : (⟨S288x96, .f32⟩ : BufTy).Contents (Elt Ideal)) (x10 : (⟨S96, .f32⟩ : BufTy).Contents (Elt Ideal))
  (x11 : (⟨S96x96, .f32⟩ : BufTy).Contents (Elt Ideal)) (x12 : (⟨S96, .f32⟩ : BufTy).Contents (Elt Ideal)) (x13 : (⟨S96x64, .f32⟩ : BufTy).Contents (Elt Ideal)) (x14 : (⟨S64, .f32⟩ : BufTy).Contents (Elt Ideal))

/-- The reference's first product: entry `(p, q)` of `x W` is the sum over `k` of `x (p, k) * W (k, q)`. -/
theorem dot128_eq (x : Cert.Spec.Mat 50000 128) (W : Cert.Spec.Mat 128 96) :
    Host.dotGeneral (F := Ideal) dot_S50000x128_S128x96_S50000x96_1_0_0_1_n_n none x W = Cert.Spec.mm x W := by
  funext i
  obtain ⟨p, q, rfl⟩ : ∃ (p : Fin 50000) (q : Fin 96), i = ix2 p q := ⟨i 0, i 1, eq_ix2 i⟩
  rw [Cert.Spec.mm_apply]
  exact Cert.LibDot.dotGeneral_apply (M := 50000) (K := 128) (N := 96) dot_S50000x128_S128x96_S50000x96_1_0_0_1_n_n
    rfl rfl rfl rfl rfl rfl none x W p q

/-- The product of a later layer: the same sum, over the `96` columns of the previous layer's output. -/
theorem dot96_eq (h : Cert.Spec.Mat 50000 96) (W : Cert.Spec.Mat 96 96) :
    Host.dotGeneral (F := Ideal) dot_S50000x96_S96x96_S50000x96_1_0_0_1_n_n none h W = Cert.Spec.mm h W := by
  funext i
  obtain ⟨p, q, rfl⟩ : ∃ (p : Fin 50000) (q : Fin 96), i = ix2 p q := ⟨i 0, i 1, eq_ix2 i⟩
  rw [Cert.Spec.mm_apply]
  exact Cert.LibDot.dotGeneral_apply (M := 50000) (K := 96) (N := 96) dot_S50000x96_S96x96_S50000x96_1_0_0_1_n_n
    rfl rfl rfl rfl rfl rfl none h W p q

/-- The tail of every layer. The bias vector is laid out as one row and repeated down the `50000` rows, so entry
    `(p, q)` of the repeated array is `b q`; it is added to the aggregated features, and the positive part is the
    maximum with the zero constant repeated over every entry: `max (agg (p, q) + b q) 0`. -/
theorem biasTail_eq (agg : Cert.Spec.Mat 50000 96) (b : Cert.Spec.Vc 96) :
    maximumf (addf agg (val_main_v44 (F := Ideal) b)) (val_main_call0_v0 (F := Ideal)) = Cert.Spec.biasRelu agg b := by
  funext i
  obtain ⟨p, q, rfl⟩ : ∃ (p : Fin 50000) (q : Fin 96), i = ix2 p q := ⟨i 0, i 1, eq_ix2 i⟩
  have e : idx_main_v43 (idx_main_v44 (ix2 p q)) = ix1 q :=
    funext fun a => Fin.ext (by match a with | ⟨0, _⟩ => rfl)
  show FloatOps.maximumf (FloatOps.addf (agg (ix2 p q)) (val_main_v44 (F := Ideal) b (ix2 p q)))
      (val_main_call0_v0 (F := Ideal) (ix2 p q)) = _
  rw [val_main_v44_apply, val_main_v43_apply, val_main_call0_v0_apply, val_main_call0_cst_apply, e,
    Cert.Spec.biasRelu_apply]
  simp only [Ideal.maximumf_def, Ideal.addf_def, Ideal.ofBits_def, Ideal.ofBits_zero_f32]

/-- The first layer's message passing is the shared one applied to the first product: the program's gather of rows by
    source, scaling by the message's weight and sum into the destination row are spelt exactly as the shared
    function spells them. -/
theorem msg1 : val_main_v42 (F := Ideal) x0 x1 x3 = msgFn x1 (val_main_v29 (F := Ideal) x0 x3) := rfl

/-- The second layer's message passing is the shared one applied to the second product. -/
theorem msg2 : val_main_v60 (F := Ideal) x0 x1 x3 x4 x5 = msgFn x1 (val_main_v47 (F := Ideal) x0 x1 x3 x4 x5) := rfl

/-- The third layer's message passing is the shared one applied to the third product. -/
theorem msg3 : val_main_v78 (F := Ideal) x0 x1 x3 x4 x5 x6 x7
    = msgFn x1 (val_main_v65 (F := Ideal) x0 x1 x3 x4 x5 x6 x7) := rfl

/-- The first layer: the product with the first weights, the message passing, the bias and the positive part. -/
theorem ref_h1 : val_main_v46 (F := Ideal) x0 x1 x3 x4 = Cert.Spec.layer1 (msgFn x1) x0 x3 x4 := by
  have h : val_main_v46 (F := Ideal) x0 x1 x3 x4 = Cert.Spec.biasRelu (val_main_v42 (F := Ideal) x0 x1 x3) x4 :=
    biasTail_eq (val_main_v42 (F := Ideal) x0 x1 x3) x4
  have hm : val_main_v29 (F := Ideal) x0 x3 = Cert.Spec.mm x0 x3 := dot128_eq x0 x3
  rw [h, msg1, hm]
  rfl
/-- The second layer: the same four stages on the first layer's output. -/
theorem ref_h2 : val_main_v64 (F := Ideal) x0 x1 x3 x4 x5 x6 = Cert.Spec.layerNext (msgFn x1) (val_main_v46 (F := Ideal) x0 x1 x3 x4) x5 x6 := by
  have h : val_main_v64 (F := Ideal) x0 x1 x3 x4 x5 x6
      = Cert.Spec.biasRelu (val_main_v60 (F := Ideal) x0 x1 x3 x4 x5) x6 :=
    biasTail_eq (val_main_v60 (F := Ideal) x0 x1 x3 x4 x5) x6
  have hm : val_main_v47 (F := Ideal) x0 x1 x3 x4 x5 = Cert.Spec.mm (val_main_v46 (F := Ideal) x0 x1 x3 x4) x5 :=
    dot96_eq (val_main_v46 (F := Ideal) x0 x1 x3 x4) x5
  rw [h, msg2, hm]
  rfl
/-- The third layer: the same four stages on the second layer's output. -/
theorem ref_h3 : val_main_v82 (F := Ideal) x0 x1 x3 x4 x5 x6 x7 x8 = Cert.Spec.layerNext (msgFn x1) (val_main_v64 (F := Ideal) x0 x1 x3 x4 x5 x6) x7 x8 := by
  have h : val_main_v82 (F := Ideal) x0 x1 x3 x4 x5 x6 x7 x8
      = Cert.Spec.biasRelu (val_main_v78 (F := Ideal) x0 x1 x3 x4 x5 x6 x7) x8 :=
    biasTail_eq (val_main_v78 (F := Ideal) x0 x1 x3 x4 x5 x6 x7) x8
  have hm : val_main_v65 (F := Ideal) x0 x1 x3 x4 x5 x6 x7
      = Cert.Spec.mm (val_main_v64 (F := Ideal) x0 x1 x3 x4 x5 x6) x7 :=
    dot96_eq (val_main_v64 (F := Ideal) x0 x1 x3 x4 x5 x6) x7
  rw [h, msg3, hm]
  rfl

end Cert.ReferenceIdeal.RVal

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.RefB.lean ====
/-
  The reference's tail: projection, pooling, perceptron.

  After the three graph-convolution layers the reference lays their outputs `h1`, `h2`, `h3` (each `50000 × 96`) side by
  side into a `50000 × 288` matrix, multiplies it with the `288 × 96` projection weights and adds a bias; sums the
  rows of the result by graph number into a `500 × 96` matrix that starts at zero; and applies a perceptron of two
  layers (a product, a bias, the positive part; a product, a bias).

  Entry by entry this is the specification's `mlp (pool 500 (jk h1 h2 h3 W b) batch) W1 b1 W2 b2`:
  * column `96 s + k` of the side-by-side matrix is column `k` of layer `s + 1`, so the sum over its 288 columns,
    taken slab by slab, is the three partial products with rows `96 s … 96 s + 95` of the weights — a regrouping of
    one finite sum, which needs only that addition is associative and commutative;
  * a scatter that adds row `n` into the row named by graph number `batch n` of a zero matrix leaves in row `g` the
    sum of the rows whose number, read signed, is `g`;
  * a host product of an `M × K` matrix with a `K × N` matrix is the sum over `k : Fin K` at every entry, a bias
    broadcast over the rows reads the bias at the column, and the positive part is the maximum with a zero constant.

  Every stage is stated for arbitrary matrices and only then put together at the three layers' outputs, which are
  never opened here.
-/
import proofs.«405868_j2388001817260_1_alg».proof.Proof.Gen.ReferenceIdeal.Run
import proofs.«405868_j2388001817260_1_alg».proof.Proof.Gen.ReferenceIdeal.Read
import proofs.«405868_j2388001817260_1_alg».proof.Proof.RShared
import proofs.«405868_j2388001817260_1_alg».proof.Proof.LibDot
import proofs.«405868_j2388001817260_1_alg».proof.Proof.LibIndex
import proofs.«405868_j2388001817260_1_alg».proof.Proof.LibBlockSum
import Idealize.ShloMosaic.Lib.Pipeline.Value
import Idealize.ShloMosaic.Lib.ValueIdx
import Idealize.ShloMosaic.PureOps.Ideal.Laws

noncomputable section

namespace Cert.ReferenceIdeal.RVal

open Cert.ReferenceIdeal Cert.ReferenceIdeal.Gen Cert.ReferenceIdeal.Read Idealize.ShloMosaic Idealize.ShloMosaic.TcCoe Idealize.SL.Sem
open Idealize.ShloMosaic.ValueIdx

variable (x0 : (⟨S50000x128, .f32⟩ : BufTy).Contents (Elt Ideal)) (x1 : (⟨S2x800000, .i32⟩ : BufTy).Contents (Elt Ideal)) (x2 : (⟨S50000, .i32⟩ : BufTy).Contents (Elt Ideal))
  (x3 : (⟨S128x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal))
  (x7 : (⟨S96x96, .f32⟩ : BufTy).Contents (Elt Ideal)) (x8 : (⟨S96, .f32⟩ : BufTy).Contents (Elt Ideal)) (x9 : (⟨S288x96, .f32⟩ : BufTy).Contents (Elt Ideal)) (x10 : (⟨S96, .f32⟩ : BufTy).Contents (Elt Ideal))
  (x11 : (⟨S96x96, .f32⟩ : BufTy).Contents (Elt Ideal)) (x12 : (⟨S96, .f32⟩ : BufTy).Contents (Elt Ideal)) (x13 : (⟨S96x64, .f32⟩ : BufTy).Contents (Elt Ideal)) (x14 : (⟨S64, .f32⟩ : BufTy).Contents (Elt Ideal))

/-! ## The three layers' outputs side by side

The projection's left operand has 288 columns: columns `0–95` are the first layer's output, `96–191` the second's,
`192–287` the third's. Column `96 s + k` of row `p` is entry `(p, k)` of layer `s + 1`. -/

/-- Column `k` of the first slab is the first matrix's column `k`. -/
theorem cat_slab0 (h1 h2 h3 : Cert.Spec.Mat 50000 96) (p : Fin 50000) (k : Fin 96) :
    (concatenate S50000x288 1 [⟨S50000x96, h1⟩, ⟨S50000x96, h2⟩, ⟨S50000x96, h3⟩] concatenates_S50000x96_S50000x96_S50000x96_S50000x288_d1 : FVec Ideal S50000x288 .f32) (ix2 p (Cert.Spec.wrow 0 k)) = h1 (ix2 p k) :=
  concatenate_apply_piece (t := S50000x288) 1 _ _ (ix2 p (Cert.Spec.wrow 0 k)) 0 (by simp) S50000x96 h1 rfl rfl 0 rfl (ix2 p k)
    (fun b hb => by
      match b with
      | ⟨0, _⟩ => rfl
      | ⟨1, _⟩ => exact absurd rfl hb)
    (by show 0 + k.val = 96 * 0 + k.val; omega)

/-- Column `k` of the second slab, the result's column `96 + k`, is the second matrix's column `k`. -/
theorem cat_slab1 (h1 h2 h3 : Cert.Spec.Mat 50000 96) (p : Fin 50000) (k : Fin 96) :
    (concatenate S50000x288 1 [⟨S50000x96, h1⟩, ⟨S50000x96, h2⟩, ⟨S50000x96, h3⟩] concatenates_S50000x96_S50000x96_S50000x96_S50000x288_d1 : FVec Ideal S50000x288 .f32) (ix2 p (Cert.Spec.wrow 1 k)) = h2 (ix2 p k) :=
  concatenate_apply_piece (t := S50000x288) 1 _ _ (ix2 p (Cert.Spec.wrow 1 k)) 1 (by simp) S50000x96 h2 rfl rfl 96 rfl (ix2 p k)
    (fun b hb => by
      match b with
      | ⟨0, _⟩ => rfl
      | ⟨1, _⟩ => exact absurd rfl hb)
    (by show 96 + k.val = 96 * 1 + k.val; omega)

/-- Column `k` of the third slab, the result's column `192 + k`, is the third matrix's column `k`. -/
theorem cat_slab2 (h1 h2 h3 : Cert.Spec.Mat 50000 96) (p : Fin 50000) (k : Fin 96) :
    (concatenate S50000x288 1 [⟨S50000x96, h1⟩, ⟨S50000x96, h2⟩, ⟨S50000x96, h3⟩] concatenates_S50000x96_S50000x96_S50000x96_S50000x288_d1 : FVec Ideal S50000x288 .f32) (ix2 p (Cert.Spec.wrow 2 k)) = h3 (ix2 p k) :=
  concatenate_apply_piece (t := S50000x288) 1 _ _ (ix2 p (Cert.Spec.wrow 2 k)) 2 (by simp) S50000x96 h3 rfl rfl 192 rfl (ix2 p k)
    (fun b hb => by
      match b with
      | ⟨0, _⟩ => rfl
      | ⟨1, _⟩ => exact absurd rfl hb)
    (by show 192 + k.val = 96 * 2 + k.val; omega)

/-! ## The projection

Entry `(p, q)` of the product with the `288 × 96` weights is a sum over 288 columns; cut into the three slabs of 96
columns it is the three partial products of the three layers' outputs with the three slabs of the weights. Only the
grouping of the sum changes. -/

/-- Entry `k` of block `s` among `3 · 96` indices is row `96 s + k` of the weights. -/
theorem blk_eq_wrow (h : 3 * 96 = 288) (s : Fin 3) (k : Fin 96) :
    Cert.LibBlockSum.blockIdx (B := 3) (R := 96) (N := 288) h s k = Cert.Spec.wrow s k := rfl

/-- A bias vector laid over every one of the 50000 rows, at an entry: the vector's entry at the column. -/
theorem bias86_apply (b : Cert.Spec.Vc 96) (p : Fin 50000) (q : Fin 96) :
    val_main_v86 (F := Ideal) b (ix2 p q) = b (ix1 q) := by
  rw [val_main_v86_apply, val_main_v85_apply]
  exact congrArg b (funext fun a => Fin.ext (by match a with | ⟨0, _⟩ => rfl))

/-- The product of the three matrices side by side with the weights, plus the bias, is the jumping-knowledge
    projection: the sum over the 288 columns is taken slab by slab. -/
theorem jk_stage (h1 h2 h3 : Cert.Spec.Mat 50000 96) (W : Cert.Spec.Mat 288 96) (b : Cert.Spec.Vc 96) :
    addf (Host.dotGeneral (F := Ideal) dot_S50000x288_S288x96_S50000x96_1_0_0_1_n_n none
        (concatenate S50000x288 1 [⟨S50000x96, h1⟩, ⟨S50000x96, h2⟩, ⟨S50000x96, h3⟩] concatenates_S50000x96_S50000x96_S50000x96_S50000x288_d1 : FVec Ideal S50000x288 .f32) W)
      (val_main_v86 (F := Ideal) b) = Cert.Spec.jk h1 h2 h3 W b := by
  funext i
  obtain ⟨p, q, rfl⟩ : ∃ (p : Fin 50000) (q : Fin 96), i = ix2 p q := ⟨i 0, i 1, eq_ix2 i⟩
  rw [addf_apply, Cert.LibDot.dotGeneral_apply _ rfl rfl rfl rfl rfl rfl, bias86_apply, Cert.Spec.jk_apply,
    Cert.LibBlockSum.sum_blocks (B := 3) (R := 96) (N := 288) (by norm_num), Fin.sum_univ_three]
  simp only [blk_eq_wrow, cat_slab0, cat_slab1, cat_slab2]

/-! ## The pooling

Row `g` of the pooled matrix starts at zero and receives every row `n` of the projected matrix whose graph number,
read signed, is `g`. -/

/-- The scatter of the projected rows into a zero matrix by graph number is the sum pooling. -/
theorem pool_stage (h : Cert.Spec.Mat 50000 96) (batch : IVec S50000 32) :
    Host.scatterAdd (F := Ideal) scatter_S500x96_S50000x1_S50000x96_1_0_0_1 (val_main_v88 (F := Ideal))
      (val_main_v89 (F := Ideal) batch) h = Cert.Spec.pool 500 h batch := by
  funext i
  obtain ⟨g, c, rfl⟩ : ∃ (g : Fin 500) (c : Fin 96), i = ix2 g c := ⟨i 0, i 1, eq_ix2 i⟩
  rw [Cert.LibIndex.scatterAdd_row_apply_of _ rfl rfl rfl rfl, Cert.Spec.pool_apply, val_main_v88_apply,
    val_main_cst_14_apply, show (FloatOps.ofBits .f32 0x00000000#32 : Ideal .f32) = 0 from Ideal.ofBits_zero_f32, zero_add]
  refine Finset.sum_congr rfl fun n _ => ?_
  have e : idx_main_v89 (ix2 n (0 : Fin 1)) = ix1 n := funext fun a => Fin.ext (by match a with | ⟨0, _⟩ => rfl)
  rw [val_main_v89_apply, e]

/-! ## The perceptron -/

/-- The host's product of a `500 × 96` matrix with a `96 × 96` matrix is the matrix product. -/
theorem dot91_eq (e : Cert.Spec.Mat 500 96) (W : Cert.Spec.Mat 96 96) :
    Host.dotGeneral (F := Ideal) dot_S500x96_S96x96_S500x96_1_0_0_1_n_n none e W = Cert.Spec.mm e W := by
  funext i
  obtain ⟨g, c, rfl⟩ : ∃ (g : Fin 500) (c : Fin 96), i = ix2 g c := ⟨i 0, i 1, eq_ix2 i⟩
  rw [Cert.LibDot.dotGeneral_apply _ rfl rfl rfl rfl rfl rfl, Cert.Spec.mm_apply]

/-- The host's product of a `500 × 96` matrix with a `96 × 64` matrix is the matrix product. -/
theorem dot96_tail_eq (e : Cert.Spec.Mat 500 96) (W : Cert.Spec.Mat 96 64) :
    Host.dotGeneral (F := Ideal) dot_S500x96_S96x64_S500x64_1_0_0_1_n_n none e W = Cert.Spec.mm e W := by
  funext i
  obtain ⟨g, c, rfl⟩ : ∃ (g : Fin 500) (c : Fin 64), i = ix2 g c := ⟨i 0, i 1, eq_ix2 i⟩
  rw [Cert.LibDot.dotGeneral_apply _ rfl rfl rfl rfl rfl rfl, Cert.Spec.mm_apply]

/-- The first bias laid over the 500 rows, at an entry. -/
theorem bias93_apply (b : Cert.Spec.Vc 96) (g : Fin 500) (q : Fin 96) :
    val_main_v93 (F := Ideal) b (ix2 g q) = b (ix1 q) := by
  rw [val_main_v93_apply, val_main_v92_apply]
  exact congrArg b (funext fun a => Fin.ext (by match a with | ⟨0, _⟩ => rfl))

/-- The second bias laid over the 500 rows, at an entry. -/
theorem bias98_apply (b : Cert.Spec.Vc 64) (g : Fin 500) (q : Fin 64) :
    val_main_v98 (F := Ideal) b (ix2 g q) = b (ix1 q) := by
  rw [val_main_v98_apply, val_main_v97_apply]
  exact congrArg b (funext fun a => Fin.ext (by match a with | ⟨0, _⟩ => rfl))

/-- The positive part's other operand is zero everywhere. -/
theorem zero95_apply (i : S500x96.Idx) : val_main_call3_v0 (F := Ideal) i = 0 := by
  rw [val_main_call3_v0_apply, val_main_call3_cst_apply]
  exact Ideal.ofBits_zero_f32

/-- A bias added to every row and the maximum with zero: the hidden layer's activation. -/
theorem relu_stage (A : Cert.Spec.Mat 500 96) (b : Cert.Spec.Vc 96) :
    maximumf (addf A (val_main_v93 (F := Ideal) b)) (val_main_call3_v0 (F := Ideal)) = Cert.Spec.biasRelu A b := by
  funext i
  obtain ⟨g, c, rfl⟩ : ∃ (g : Fin 500) (c : Fin 96), i = ix2 g c := ⟨i 0, i 1, eq_ix2 i⟩
  rw [maximumf_apply, addf_apply, bias93_apply, zero95_apply, Cert.Spec.biasRelu_apply]

/-- The output layer's bias added to every row. -/
theorem bias_stage (A : Cert.Spec.Mat 500 64) (b : Cert.Spec.Vc 64) :
    addf A (val_main_v98 (F := Ideal) b) = Cert.Spec.addBias A b := by
  funext i
  obtain ⟨g, c, rfl⟩ : ∃ (g : Fin 500) (c : Fin 64), i = ix2 g c := ⟨i 0, i 1, eq_ix2 i⟩
  rw [addf_apply, bias98_apply, Cert.Spec.addBias_apply]

theorem ref_tail : val_main_v99 (F := Ideal) x0 x1 x2 x3 x4 x5 x6 x7 x8 x9 x10 x11 x12 x13 x14
    = Cert.Spec.mlp (Cert.Spec.pool 500 (Cert.Spec.jk (val_main_v46 (F := Ideal) x0 x1 x3 x4) (val_main_v64 (F := Ideal) x0 x1 x3 x4 x5 x6) (val_main_v82 (F := Ideal) x0 x1 x3 x4 x5 x6 x7 x8) x9 x10) x2) x11 x12 x13 x14 := by
  unfold val_main_v99 val_main_v96 val_main_v95 val_main_v94 val_main_v91 val_main_v90 val_main_v87 val_main_v84 val_main_v83
  rw [jk_stage, pool_stage, dot91_eq, relu_stage, dot96_tail_eq, bias_stage]
  rfl

end Cert.ReferenceIdeal.RVal

end
-- ==== Proof.RefValue.lean ====
/-
  The reference program's result as the network of Spec.lean: its generated run's composed term, read stage by stage.
-/
import proofs.«405868_j2388001817260_1_alg».proof.Proof.Gen.ReferenceIdeal.Run
import proofs.«405868_j2388001817260_1_alg».proof.Proof.Gen.ReferenceIdeal.Read
import proofs.«405868_j2388001817260_1_alg».proof.Proof.RShared
import proofs.«405868_j2388001817260_1_alg».proof.Proof.RefA
import proofs.«405868_j2388001817260_1_alg».proof.Proof.RefB

noncomputable section

namespace Cert.ReferenceIdeal.RVal

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-- The reference's result, the composed term of its run, is the network of Spec.lean on the launch memory: the tail
    (projection, pooling, perceptron) over the three layers' outputs, each layer over the one before. -/
theorem ref_value (c : Dev nD) :
    Cert.ReferenceIdeal.Value.res_main_v99 (F := Ideal) m c
      = Cert.Spec.net 500 (msgFn (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14)) := by
  rw [Cert.ReferenceIdeal.Read.val_main_v99_eq, ref_tail, ref_h3, ref_h2, ref_h1]
  rfl

end Cert.ReferenceIdeal.RVal

end
-- ==== Proof.Bridge.lean ====
/-
  The two programs' message passing is one function.

  Both programs build the messages' ends, weights and the gather–scale–sum of a layer with the same host operations at
  the same shapes; the two spellings differ only in which program's dimension records they name, and those records hold
  the same lists. So the reference's message passing on an edge list is the kernel's on the same edge list.
-/
import proofs.«405868_j2388001817260_1_alg».proof.Proof.KShared
import proofs.«405868_j2388001817260_1_alg».proof.Proof.RShared

noncomputable section

namespace Cert.Bridge

open Idealize.ShloMosaic

variable [Cert.KernelIdeal.Facts] [Cert.ReferenceIdeal.Facts]

theorem endsOf_eq (row : Nat) (hs) (hs') (ei : IVec Cert.KernelIdeal.S2x800000 32) :
    Cert.ReferenceIdeal.RVal.endsOf row hs' ei = Cert.KernelIdeal.KVal.endsOf row hs ei := rfl

theorem srcOf_eq (ei : IVec Cert.KernelIdeal.S2x800000 32) :
    Cert.ReferenceIdeal.RVal.srcOf ei = Cert.KernelIdeal.KVal.srcOf ei := rfl

theorem dstOf_eq (ei : IVec Cert.KernelIdeal.S2x800000 32) :
    Cert.ReferenceIdeal.RVal.dstOf ei = Cert.KernelIdeal.KVal.dstOf ei := rfl

theorem wrapIdx_eq (v : IVec Cert.KernelIdeal.S850000 32) :
    Cert.ReferenceIdeal.RVal.wrapIdx v = Cert.KernelIdeal.KVal.wrapIdx v := rfl

theorem dinvOf_eq (dst : IVec Cert.KernelIdeal.S850000 32) :
    Cert.ReferenceIdeal.RVal.dinvOf dst = Cert.KernelIdeal.KVal.dinvOf dst := rfl

theorem normOf_eq (src dst : IVec Cert.KernelIdeal.S850000 32) :
    Cert.ReferenceIdeal.RVal.normOf src dst = Cert.KernelIdeal.KVal.normOf src dst := rfl

theorem msgOf_eq (src dst : IVec Cert.KernelIdeal.S850000 32) (norm : FVec Ideal Cert.KernelIdeal.S850000 .f32)
    (hW : FVec Ideal Cert.KernelIdeal.S50000x96 .f32) :
    Cert.ReferenceIdeal.RVal.msgOf src dst norm hW = Cert.KernelIdeal.KVal.msgOf src dst norm hW := rfl

/-- The message passing of the reference on an edge list is the kernel's. -/
theorem msgFn_eq (ei : IVec Cert.KernelIdeal.S2x800000 32) :
    Cert.ReferenceIdeal.RVal.msgFn ei = Cert.KernelIdeal.KVal.msgFn ei := by
  funext hW
  show Cert.ReferenceIdeal.RVal.msgOf _ _ _ hW = Cert.KernelIdeal.KVal.msgOf _ _ _ hW
  rw [srcOf_eq, dstOf_eq, normOf_eq, msgOf_eq]

end Cert.Bridge

end
-- ==== Proof.lean ====
/-
  The certificate of the graph network: three graph-convolution layers, a jumping-knowledge projection, a sum pooling
  by graph and a two-layer perceptron, computed by seven kernel regions among host stretches, against the jnp reference.

  The frames of the two kernel programs are the generated ones; the reference's frame is its generated run with the
  result dropped. The value claim, over the extended reals: the kernel program's run leaves in its result buffer the
  fold of its segments (KRun), that fold read back buffer by buffer is the network of Spec.lean on the launch memory
  (KFoldA, KFoldB over the seven regions' results KReg0 … KReg6) with 512 pooled rows of which the first 500 are kept,
  and the reference's composed term is the same network with 500 pooled rows (RefA, RefB, RefValue). The two agree
  because the perceptron and the pooling act row by row (Spec.headRows_mlp_pool) and because the message passing
  between the layers is literally the same host computation in both programs (Bridge).
-/
import proofs.«405868_j2388001817260_1_alg».proof.Defs
import proofs.«405868_j2388001817260_1_alg».proof.Proof.Gen.Kernel
import proofs.«405868_j2388001817260_1_alg».proof.Proof.Gen.Kernel.Frame
import proofs.«405868_j2388001817260_1_alg».proof.Proof.Gen.KernelIdeal
import proofs.«405868_j2388001817260_1_alg».proof.Proof.Gen.KernelIdeal.Frame
import proofs.«405868_j2388001817260_1_alg».proof.Proof.Gen.ReferenceIdeal
import proofs.«405868_j2388001817260_1_alg».proof.Proof.Gen.ReferenceIdeal.Run
import proofs.«405868_j2388001817260_1_alg».proof.Proof.Gen.Pre_finite_inputs
import proofs.«405868_j2388001817260_1_alg».proof.Proof.Spec
import proofs.«405868_j2388001817260_1_alg».proof.Proof.KShared
import proofs.«405868_j2388001817260_1_alg».proof.Proof.RShared
import proofs.«405868_j2388001817260_1_alg».proof.Proof.KDefs
import proofs.«405868_j2388001817260_1_alg».proof.Proof.KIface
import proofs.«405868_j2388001817260_1_alg».proof.Proof.KRun
import proofs.«405868_j2388001817260_1_alg».proof.Proof.KReg0
import proofs.«405868_j2388001817260_1_alg».proof.Proof.KReg1
import proofs.«405868_j2388001817260_1_alg».proof.Proof.KReg2
import proofs.«405868_j2388001817260_1_alg».proof.Proof.KReg3
import proofs.«405868_j2388001817260_1_alg».proof.Proof.KReg4
import proofs.«405868_j2388001817260_1_alg».proof.Proof.KReg5
import proofs.«405868_j2388001817260_1_alg».proof.Proof.KReg6
import proofs.«405868_j2388001817260_1_alg».proof.Proof.KFoldA
import proofs.«405868_j2388001817260_1_alg».proof.Proof.KFoldB
import proofs.«405868_j2388001817260_1_alg».proof.Proof.RefA
import proofs.«405868_j2388001817260_1_alg».proof.Proof.RefB
import proofs.«405868_j2388001817260_1_alg».proof.Proof.RefValue
import proofs.«405868_j2388001817260_1_alg».proof.Proof.Bridge
import Idealize.ShloMosaic.Adequacy
import Idealize.ShloMosaic.Init

noncomputable section

namespace Cert.Proof

open Idealize.ShloMosaic Idealize.ShloMosaic.TcCoe Idealize.SL.Sem

/-- The seven regions' results, bundled. -/
theorem regionFacts : Cert.KernelIdeal.KVal.RegionFacts :=
  ⟨Cert.KernelIdeal.KVal.final0, Cert.KernelIdeal.KVal.final1_h, Cert.KernelIdeal.KVal.final1_hW,
   Cert.KernelIdeal.KVal.final2_h, Cert.KernelIdeal.KVal.final2_hW, Cert.KernelIdeal.KVal.final3,
   Cert.KernelIdeal.KVal.final4, Cert.KernelIdeal.KVal.final5, Cert.KernelIdeal.KVal.final6⟩

/-- Where the kernel program stands after its third layer. -/
theorem midFacts (m : (ℓ : Loc Cert.KernelIdeal.nD Cert.KernelIdeal.τ Cert.KernelIdeal.sig) → Buf (Elt Ideal) ℓ)
    (ρ : Dev Cert.KernelIdeal.nD → PrngReg) : Cert.KernelIdeal.KVal.MidFacts m ρ :=
  ⟨Cert.KernelIdeal.KVal.W8_h1 m ρ regionFacts, Cert.KernelIdeal.KVal.W8_h2 m ρ regionFacts,
   Cert.KernelIdeal.KVal.W8_h3 m ρ regionFacts,
   Cert.KernelIdeal.KVal.W8_arg2 m ρ, Cert.KernelIdeal.KVal.W8_arg9 m ρ, Cert.KernelIdeal.KVal.W8_arg10 m ρ, Cert.KernelIdeal.KVal.W8_arg11 m ρ, Cert.KernelIdeal.KVal.W8_arg12 m ρ, Cert.KernelIdeal.KVal.W8_arg13 m ρ, Cert.KernelIdeal.KVal.W8_arg14 m ρ⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's network on a memory that agrees with the kernel's on the arguments is the kernel's result. -/
theorem result_eq (m : (ℓ : Loc Cert.KernelIdeal.nD Cert.KernelIdeal.τ Cert.KernelIdeal.sig) → Buf (Elt Ideal) ℓ)
    (c : Dev Cert.KernelIdeal.nD) :
    Cert.Spec.net 500 (Cert.ReferenceIdeal.RVal.msgFn (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
    = Cert.KernelIdeal.KVal.kOut m c := by
  rw [Cert.Bridge.msgFn_eq]
  unfold Cert.KernelIdeal.KVal.kOut Cert.KernelIdeal.KVal.kmlp Cert.KernelIdeal.KVal.kpool
  rw [Cert.Spec.headRows_mlp_pool]
  rfl

theorem algebraic : Cert.algebraic_KernelIdeal_ReferenceIdeal := by
  intro m ρ m' ρ' _ hagree
  refine ⟨fun c => Cert.KernelIdeal.KVal.kOut m c, ?_, ?_⟩
  · exact (θ_run Cert.KernelIdeal.defs _ _).mono
      (fun r h c => ⟨(h c).1.trans (Cert.KernelIdeal.KVal.W15_out m ρ regionFacts (midFacts m ρ) c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.RVal.ref_value m' c, e0, e1, e2, e3, e4, e5, e6, e7, e8, e9, e10, e11, e12, e13, e14]
    exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
